-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x4 : Shape := ⟨2, ![200000, 4]⟩
abbrev S2x12800000 : Shape := ⟨2, ![2, 12800000]⟩
abbrev S12800000 : Shape := ⟨1, ![12800000]⟩
abbrev S1x200000x32 : Shape := ⟨3, ![1, 200000, 32]⟩
abbrev S4x4 : Shape := ⟨2, ![4, 4]⟩
abbrev S12x4 : Shape := ⟨2, ![12, 4]⟩
abbrev S12 : Shape := ⟨1, ![12]⟩
abbrev S128x4 : Shape := ⟨2, ![128, 4]⟩
abbrev S128x32 : Shape := ⟨2, ![128, 32]⟩
abbrev S128 : Shape := ⟨1, ![128]⟩
abbrev S1x32 : Shape := ⟨2, ![1, 32]⟩
abbrev S1 : Shape := ⟨1, ![1]⟩
abbrev S_ : Shape := ⟨0, ![]⟩
abbrev S1x12800000 : Shape := ⟨2, ![1, 12800000]⟩

class Facts : Prop where
  bcast_S_S200000x4 : S_.BroadcastsInDim S200000x4 (![] : Fin 0 → Fin S200000x4.rank)
  reducesTo_S200000x4_S_d0_1 : S200000x4.ReducesTo [0, 1] S_
  h_S_ : 0 < S_.numel
  bcast_S_S12800000 : S_.BroadcastsInDim S12800000 (![] : Fin 0 → Fin S12800000.rank)
  reducesTo_S12800000_S_d0 : S12800000.ReducesTo [0] S_
  bcast_S_S1x200000x32 : S_.BroadcastsInDim S1x200000x32 (![] : Fin 0 → Fin S1x200000x32.rank)
  reducesTo_S1x200000x32_S_d0_1_2 : S1x200000x32.ReducesTo [0, 1, 2] S_
  bcast_S_S4x4 : S_.BroadcastsInDim S4x4 (![] : Fin 0 → Fin S4x4.rank)
  reducesTo_S4x4_S_d0_1 : S4x4.ReducesTo [0, 1] S_
  bcast_S_S12x4 : S_.BroadcastsInDim S12x4 (![] : Fin 0 → Fin S12x4.rank)
  reducesTo_S12x4_S_d0_1 : S12x4.ReducesTo [0, 1] S_
  bcast_S_S12 : S_.BroadcastsInDim S12 (![] : Fin 0 → Fin S12.rank)
  reducesTo_S12_S_d0 : S12.ReducesTo [0] S_
  bcast_S_S128x4 : S_.BroadcastsInDim S128x4 (![] : Fin 0 → Fin S128x4.rank)
  reducesTo_S128x4_S_d0_1 : S128x4.ReducesTo [0, 1] S_
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  slices_S2x12800000_S1x12800000_0_0 : S2x12800000.Slices ![0, 0] S1x12800000
  shapeCasts_S1x12800000_S12800000 : S1x12800000.ShapeCasts S12800000

variable [Facts]

def fn_part4 {F : FTy → Type} [FloatOps F] (main_arg1 : IVec S2x12800000 32) (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : IVec S1x12800000 32 := (extractStridedSlice S1x12800000 ![0, 0] · slices_S2x12800000_S1x12800000_0_0) main_arg1
  let main_v75 : IVec S12800000 32 := shapeCast S12800000 main_v74 shapeCasts_S1x12800000_S12800000
  let main_c_28 : IVec S_ 32 := constantI S_ 32 0#32
  let main_v76 : IVec S12800000 32 := broadcastInDim S12800000 ![] bcast_S_S12800000 main_c_28
  let main_v77 : IVec S12800000 1 := cmpi .sge main_v75 main_v76
  let main_c_29 : IVec S_ 1 := constantI S_ 1 1#1
  let main_v78 : IVec S_ 1 := (fun x v => Host.reduce IntOp.andi x v reducesTo_S12800000_S_d0 h_S_) main_v77 main_c_29
  let main_v79 : IVec S_ 1 := andi main_v73 main_v78
  let main_v80 : IVec S1x12800000 32 := (extractStridedSlice S1x12800000 ![0, 0] · slices_S2x12800000_S1x12800000_0_0) main_arg1
  let main_v81 : IVec S12800000 32 := shapeCast S12800000 main_v80 shapeCasts_S1x12800000_S12800000
  let main_c_30 : IVec S_ 32 := constantI S_ 32 200000#32
  let main_v82 : IVec S12800000 32 := broadcastInDim S12800000 ![] bcast_S_S12800000 main_c_30
  let main_v83 : IVec S12800000 1 := cmpi .slt main_v81 main_v82
  let main_c_31 : IVec S_ 1 := constantI S_ 1 1#1
  let main_v84 : IVec S_ 1 := (fun x v => Host.reduce IntOp.andi x v reducesTo_S12800000_S_d0 h_S_) main_v83 main_c_31
  let main_v85 : IVec S_ 1 := andi main_v79 main_v84
  main_v85

def fn_part3 {F : FTy → Type} [FloatOps F] (main_arg1 : IVec S2x12800000 32) (main_arg12 : FVec F S128 .f32) (main_arg13 : FVec F S128 .f32) (main_arg14 : FVec F S1x32 .f32) (main_arg15 : FVec F S1 .f32) (main_v48 : IVec S_ 1) (main_v49 : FVec F S128x32 .f32) (main_v50 : FVec F S128x32 .f32) : IVec S_ 1 :=
  let main_v51 : IVec S128x32 1 := cmpf .olt main_v49 main_v50
  let main_c_19 : IVec S_ 1 := constantI S_ 1 1#1
  let main_v52 : IVec S_ 1 := (fun x v => Host.reduce IntOp.andi x v reducesTo_S128x32_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1x32 .f32 := Host.absf main_arg14
  let main_cst_24 : FVec F S_ .f32 := constant S_ .f32 0x7F800000#32
  let main_v65 : FVec F S1x32 .f32 := broadcastInDim S1x32 ![] bcast_S_S1x32 main_cst_24
  let main_v66 : IVec S1x32 1 := cmpf .olt main_v64 main_v65
  let main_c_25 : IVec S_ 1 := constantI S_ 1 1#1
  let main_v67 : IVec S_ 1 := (fun x v => Host.reduce IntOp.andi x v reducesTo_S1x32_S_d0_1 h_S_) main_v66 main_c_25
  fn_part4 (F := F) main_arg1 main_arg15 main_v63 main_v67

def fn_part2 {F : FTy → Type} [FloatOps F] (main_arg1 : IVec S2x12800000 32) (main_arg8 : FVec F S12 .f32) (main_arg9 : FVec F S12 .f32) (main_arg10 : FVec F S128x4 .f32) (main_arg11 : FVec F S128x32 .f32) (main_arg12 : FVec F S128 .f32) (main_arg13 : FVec F S128 .f32) (main_arg14 : FVec F S1x32 .f32) (main_arg15 : FVec F S1 .f32) (main_v33 : IVec S_ 1) : IVec S_ 1 :=
  let main_v34 : FVec F S12 .f32 := Host.absf main_arg8
  let main_cst_12 : FVec F S_ .f32 := constant S_ .f32 0x7F800000#32
  let main_v35 : FVec F S12 .f32 := broadcastInDim S12 ![] bcast_S_S12 main_cst_12
  let main_v36 : IVec S12 1 := cmpf .olt main_v34 main_v35
  let main_c_13 : IVec S_ 1 := constantI S_ 1 1#1
  let main_v37 : IVec S_ 1 := (fun x v => Host.reduce IntOp.andi x v reducesTo_S12_S_d0 h_S_) main_v36 main_c_13
  let main_v38 : IVec S_ 1 := andi main_v33 main_v37
  let main_v39 : FVec F S12 .f32 := Host.absf main_arg9
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S128x4 .f32 := Host.absf main_arg10
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S128x32 .f32 := Host.absf main_arg11
  let main_cst_18 : FVec F S_ .f32 := constant S_ .f32 0x7F800000#32
  let main_v50 : FVec F S128x32 .f32 := broadcastInDim S128x32 ![] bcast_S_S128x32 main_cst_18
  fn_part3 (F := F) main_arg1 main_arg12 main_arg13 main_arg14 main_arg15 main_v48 main_v49 main_v50

def fn_part1 {F : FTy → Type} [FloatOps F] (main_arg1 : IVec S2x12800000 32) (main_arg5 : FVec F S4x4 .f32) (main_arg6 : FVec F S12x4 .f32) (main_arg7 : FVec F S12x4 .f32) (main_arg8 : FVec F S12 .f32) (main_arg9 : FVec F S12 .f32) (main_arg10 : FVec F S128x4 .f32) (main_arg11 : FVec F S128x32 .f32) (main_arg12 : FVec F S128 .f32) (main_arg13 : FVec F S128 .f32) (main_arg14 : FVec F S1x32 .f32) (main_arg15 : FVec F S1 .f32) (main_v13 : IVec S_ 1) (main_v16 : IVec S1x200000x32 1) : IVec S_ 1 :=
  let main_c_5 : IVec S_ 1 := constantI S_ 1 1#1
  let main_v17 : IVec S_ 1 := (fun x v => Host.reduce IntOp.andi x v reducesTo_S1x200000x32_S_d0_1_2 h_S_) main_v16 main_c_5
  let main_v18 : IVec S_ 1 := andi main_v13 main_v17
  let main_v19 : FVec F S4x4 .f32 := Host.absf main_arg5
  let main_cst_6 : FVec F S_ .f32 := constant S_ .f32 0x7F800000#32
  let main_v20 : FVec F S4x4 .f32 := broadcastInDim S4x4 ![] bcast_S_S4x4 main_cst_6
  let main_v21 : IVec S4x4 1 := cmpf .olt main_v19 main_v20
  let main_c_7 : IVec S_ 1 := constantI S_ 1 1#1
  let main_v22 : IVec S_ 1 := (fun x v => Host.reduce IntOp.andi x v reducesTo_S4x4_S_d0_1 h_S_) main_v21 main_c_7
  let main_v23 : IVec S_ 1 := andi main_v18 main_v22
  let main_v24 : FVec F S12x4 .f32 := Host.absf main_arg6
  let main_cst_8 : FVec F S_ .f32 := constant S_ .f32 0x7F800000#32
  let main_v25 : FVec F S12x4 .f32 := broadcastInDim S12x4 ![] bcast_S_S12x4 main_cst_8
  let main_v26 : IVec S12x4 1 := cmpf .olt main_v24 main_v25
  let main_c_9 : IVec S_ 1 := constantI S_ 1 1#1
  let main_v27 : IVec S_ 1 := (fun x v => Host.reduce IntOp.andi x v reducesTo_S12x4_S_d0_1 h_S_) main_v26 main_c_9
  let main_v28 : IVec S_ 1 := andi main_v23 main_v27
  let main_v29 : FVec F S12x4 .f32 := Host.absf main_arg7
  let main_cst_10 : FVec F S_ .f32 := constant S_ .f32 0x7F800000#32
  let main_v30 : FVec F S12x4 .f32 := broadcastInDim S12x4 ![] bcast_S_S12x4 main_cst_10
  let main_v31 : IVec S12x4 1 := cmpf .olt main_v29 main_v30
  let main_c_11 : IVec S_ 1 := constantI S_ 1 1#1
  let main_v32 : IVec S_ 1 := (fun x v => Host.reduce IntOp.andi x v reducesTo_S12x4_S_d0_1 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S200000x4 .f32) (main_arg1 : IVec S2x12800000 32) (main_arg2 : FVec F S12800000 .f32) (main_arg3 : FVec F S1x200000x32 .f32) (main_arg4 : FVec F S1x200000x32 .f32) (main_arg5 : FVec F S4x4 .f32) (main_arg6 : FVec F S12x4 .f32) (main_arg7 : FVec F S12x4 .f32) (main_arg8 : FVec F S12 .f32) (main_arg9 : FVec F S12 .f32) (main_arg10 : FVec F S128x4 .f32) (main_arg11 : FVec F S128x32 .f32) (main_arg12 : FVec F S128 .f32) (main_arg13 : FVec F S128 .f32) (main_arg14 : FVec F S1x32 .f32) (main_arg15 : FVec F S1 .f32) : IVec S_ 1 :=
  let main_v0 : FVec F S200000x4 .f32 := Host.absf main_arg0
  let main_cst : FVec F S_ .f32 := constant S_ .f32 0x7F800000#32
  let main_v1 : FVec F S200000x4 .f32 := broadcastInDim S200000x4 ![] bcast_S_S200000x4 main_cst
  let main_v2 : IVec S200000x4 1 := cmpf .olt main_v0 main_v1
  let main_c : IVec S_ 1 := constantI S_ 1 1#1
  let main_v3 : IVec S_ 1 := (fun x v => Host.reduce IntOp.andi x v reducesTo_S200000x4_S_d0_1 h_S_) main_v2 main_c
  let main_v4 : FVec F S12800000 .f32 := Host.absf main_arg2
  let main_cst_0 : FVec F S_ .f32 := constant S_ .f32 0x7F800000#32
  let main_v5 : FVec F S12800000 .f32 := broadcastInDim S12800000 ![] bcast_S_S12800000 main_cst_0
  let main_v6 : IVec S12800000 1 := cmpf .olt main_v4 main_v5
  let main_c_1 : IVec S_ 1 := constantI S_ 1 1#1
  let main_v7 : IVec S_ 1 := (fun x v => Host.reduce IntOp.andi x v reducesTo_S12800000_S_d0 h_S_) main_v6 main_c_1
  let main_v8 : IVec S_ 1 := andi main_v3 main_v7
  let main_v9 : FVec F S1x200000x32 .f32 := Host.absf main_arg3
  let main_cst_2 : FVec F S_ .f32 := constant S_ .f32 0x7F800000#32
  let main_v10 : FVec F S1x200000x32 .f32 := broadcastInDim S1x200000x32 ![] bcast_S_S1x200000x32 main_cst_2
  let main_v11 : IVec S1x200000x32 1 := cmpf .olt main_v9 main_v10
  let main_c_3 : IVec S_ 1 := constantI S_ 1 1#1
  let main_v12 : IVec S_ 1 := (fun x v => Host.reduce IntOp.andi x v reducesTo_S1x200000x32_S_d0_1_2 h_S_) main_v11 main_c_3
  let main_v13 : IVec S_ 1 := andi main_v8 main_v12
  let main_v14 : FVec F S1x200000x32 .f32 := Host.absf main_arg4
  let main_cst_4 : FVec F S_ .f32 := constant S_ .f32 0x7F800000#32
  let main_v15 : FVec F S1x200000x32 .f32 := broadcastInDim S1x200000x32 ![] bcast_S_S1x200000x32 main_cst_4
  let main_v16 : IVec S1x200000x32 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S200000x4 : Shape := ⟨2, ![200000, 4]⟩
abbrev S2x12800000 : Shape := ⟨2, ![2, 12800000]⟩
abbrev S12800000 : Shape := ⟨1, ![12800000]⟩
abbrev S1x200000x32 : Shape := ⟨3, ![1, 200000, 32]⟩
abbrev S4x4 : Shape := ⟨2, ![4, 4]⟩
abbrev S12x4 : Shape := ⟨2, ![12, 4]⟩
abbrev S12 : Shape := ⟨1, ![12]⟩
abbrev S128x4 : Shape := ⟨2, ![128, 4]⟩
abbrev S128x32 : Shape := ⟨2, ![128, 32]⟩
abbrev S128 : Shape := ⟨1, ![128]⟩
abbrev S1x32 : Shape := ⟨2, ![1, 32]⟩
abbrev S1 : Shape := ⟨1, ![1]⟩
abbrev S1x12800000 : Shape := ⟨2, ![1, 12800000]⟩
abbrev S_ : Shape := ⟨0, ![]⟩
abbrev S12800000x1 : Shape := ⟨2, ![12800000, 1]⟩
abbrev S1x1 : Shape := ⟨2, ![1, 1]⟩
abbrev S12800000x4 : Shape := ⟨2, ![12800000, 4]⟩
abbrev S12800000x5 : Shape := ⟨2, ![12800000, 5]⟩
abbrev S200000x5 : Shape := ⟨2, ![200000, 5]⟩
abbrev S200000x1 : Shape := ⟨2, ![200000, 1]⟩
abbrev S200000x32 : Shape := ⟨2, ![200000, 32]⟩
abbrev S200000x9 : Shape := ⟨2, ![200000, 9]⟩
abbrev S200000x64 : Shape := ⟨2, ![200000, 64]⟩
abbrev S4x12 : Shape := ⟨2, ![4, 12]⟩
abbrev S4x128 : Shape := ⟨2, ![4, 128]⟩
abbrev S32x128 : Shape := ⟨2, ![32, 128]⟩
abbrev S32x1 : Shape := ⟨2, ![32, 1]⟩
abbrev S1x12 : Shape := ⟨2, ![1, 12]⟩
abbrev S1x128 : Shape := ⟨2, ![1, 128]⟩
abbrev S201600x9 : Shape := ⟨2, ![201600, 9]⟩
abbrev S201600x64 : Shape := ⟨2, ![201600, 64]⟩
abbrev S201600x1 : Shape := ⟨2, ![201600, 1]⟩
abbrev S3600x9 : Shape := ⟨2, ![3600, 9]⟩
abbrev S3600x64 : Shape := ⟨2, ![3600, 64]⟩
abbrev S3600x1 : Shape := ⟨2, ![3600, 1]⟩
abbrev S3600x4 : Shape := ⟨2, ![3600, 4]⟩
abbrev S3600x32 : Shape := ⟨2, ![3600, 32]⟩
abbrev S3600x12 : Shape := ⟨2, ![3600, 12]⟩
abbrev S3600x128 : Shape := ⟨2, ![3600, 128]⟩

abbrev nBuf : Space → Nat
  | .hbm => 89
  | .vmem => 18
  | .smem => 0
  | _ => 0

abbrev bufTy : (tb : Table) → Fin (tcTables nBuf tb) → BufTy
  | .hbm, ⟨0, _⟩ => ⟨S200000x4, .f32⟩
  | .hbm, ⟨1, _⟩ => ⟨S2x12800000, .i32⟩
  | .hbm, ⟨2, _⟩ => ⟨S12800000, .f32⟩
  | .hbm, ⟨3, _⟩ => ⟨S1x200000x32, .f32⟩
  | .hbm, ⟨4, _⟩ => ⟨S1x200000x32, .f32⟩
  | .hbm, ⟨5, _⟩ => ⟨S4x4, .f32⟩
  | .hbm, ⟨6, _⟩ => ⟨S12x4, .f32⟩
  | .hbm, ⟨7, _⟩ => ⟨S12x4, .f32⟩
  | .hbm, ⟨8, _⟩ => ⟨S12, .f32⟩
  | .hbm, ⟨9, _⟩ => ⟨S12, .f32⟩
  | .hbm, ⟨10, _⟩ => ⟨S128x4, .f32⟩
  | .hbm, ⟨11, _⟩ => ⟨S128x32, .f32⟩
  | .hbm, ⟨12, _⟩ => ⟨S128, .f32⟩
  | .hbm, ⟨13, _⟩ => ⟨S128, .f32⟩
  | .hbm, ⟨14, _⟩ => ⟨S1x32, .f32⟩
  | .hbm, ⟨15, _⟩ => ⟨S1, .f32⟩
  | .hbm, ⟨16, _⟩ => ⟨S200000x4, .f32⟩
  | .hbm, ⟨17, _⟩ => ⟨S1x12800000, .i32⟩
  | .hbm, ⟨18, _⟩ => ⟨S12800000, .i32⟩
  | .hbm, ⟨19, _⟩ => ⟨S_, .i32⟩
  | .hbm, ⟨20, _⟩ => ⟨S12800000, .i32⟩
  | .hbm, ⟨21, _⟩ => ⟨S12800000, .i1⟩
  | .hbm, ⟨22, _⟩ => ⟨S_, .i32⟩
  | .hbm, ⟨23, _⟩ => ⟨S12800000, .i32⟩
  | .hbm, ⟨24, _⟩ => ⟨S12800000, .i32⟩
  | .hbm, ⟨25, _⟩ => ⟨S12800000, .i32⟩
  | .hbm, ⟨26, _⟩ => ⟨S12800000x1, .i32⟩
  | .hbm, ⟨27, _⟩ => ⟨S1, .i32⟩
  | .hbm, ⟨28, _⟩ => ⟨S_, .i32⟩
  | .hbm, ⟨29, _⟩ => ⟨S12800000x1, .i32⟩
  | .hbm, ⟨30, _⟩ => ⟨S12800000x1, .i1⟩
  | .hbm, ⟨31, _⟩ => ⟨S1x1, .i32⟩
  | .hbm, ⟨32, _⟩ => ⟨S12800000x1, .i32⟩
  | .hbm, ⟨33, _⟩ => ⟨S12800000x1, .i1⟩
  | .hbm, ⟨34, _⟩ => ⟨S12800000x1, .i1⟩
  | .hbm, ⟨35, _⟩ => ⟨S_, .i1⟩
  | .hbm, ⟨36, _⟩ => ⟨S12800000, .i1⟩
  | .hbm, ⟨37, _⟩ => ⟨S12800000x4, .f32⟩
  | .hbm, ⟨38, _⟩ => ⟨S12800000x4, .i1⟩
  | .hbm, ⟨39, _⟩ => ⟨S_, .f32⟩
  | .hbm, ⟨40, _⟩ => ⟨S12800000x4, .f32⟩
  | .hbm, ⟨41, _⟩ => ⟨S12800000x4, .f32⟩
  | .hbm, ⟨42, _⟩ => ⟨S12800000x1, .f32⟩
  | .hbm, ⟨43, _⟩ => ⟨S12800000x4, .f32⟩
  | .hbm, ⟨44, _⟩ => ⟨S12800000x4, .f32⟩
  | .hbm, ⟨45, _⟩ => ⟨S_, .f32⟩
  | .hbm, ⟨46, _⟩ => ⟨S12800000x1, .f32⟩
  | .hbm, ⟨47, _⟩ => ⟨S12800000x5, .f32⟩
  | .hbm, ⟨48, _⟩ => ⟨S1x12800000, .i32⟩
  | .hbm, ⟨49, _⟩ => ⟨S12800000, .i32⟩
  | .hbm, ⟨50, _⟩ => ⟨S_, .f32⟩
  | .hbm, ⟨51, _⟩ => ⟨S200000x5, .f32⟩
  | .hbm, ⟨52, _⟩ => ⟨S12800000x1, .i32⟩
  | .hbm, ⟨53, _⟩ => ⟨S200000x5, .f32⟩
  | .hbm, ⟨54, _⟩ => ⟨S200000x4, .f32⟩
  | .hbm, ⟨55, _⟩ => ⟨S200000x1, .f32⟩
  | .hbm, ⟨56, _⟩ => ⟨S200000x32, .f32⟩
  | .hbm, ⟨57, _⟩ => ⟨S200000x32, .f32⟩
  | .hbm, ⟨58, _⟩ => ⟨S200000x9, .f32⟩
  | .hbm, ⟨59, _⟩ => ⟨S200000x64, .f32⟩
  | .hbm, ⟨60, _⟩ => ⟨S4x12, .f32⟩
  | .hbm, ⟨61, _⟩ => ⟨S4x12, .bf16⟩
  | .hbm, ⟨62, _⟩ => ⟨S4x12, .f32⟩
  | .hbm, ⟨63, _⟩ => ⟨S4x12, .bf16⟩
  | .hbm, ⟨64, _⟩ => ⟨S4x128, .f32⟩
  | .hbm, ⟨65, _⟩ => ⟨S4x128, .bf16⟩
  | .hbm, ⟨66, _⟩ => ⟨S32x128, .f32⟩
  | .hbm, ⟨67, _⟩ => ⟨S32x128, .bf16⟩
  | .hbm, ⟨68, _⟩ => ⟨S32x1, .f32⟩
  | .hbm, ⟨69, _⟩ => ⟨S32x1, .bf16⟩
  | .hbm, ⟨70, _⟩ => ⟨S1x12, .f32⟩
  | .hbm, ⟨71, _⟩ => ⟨S1x12, .f32⟩
  | .hbm, ⟨72, _⟩ => ⟨S1x128, .f32⟩
  | .hbm, ⟨73, _⟩ => ⟨S1x128, .f32⟩
  | .hbm, ⟨74, _⟩ => ⟨S1x1, .f32⟩
  | .hbm, ⟨75, _⟩ => ⟨S_, .i32⟩
  | .hbm, ⟨76, _⟩ => ⟨S_, .f32⟩
  | .hbm, ⟨77, _⟩ => ⟨S201600x9, .f32⟩
  | .hbm, ⟨78, _⟩ => ⟨S_, .i32⟩
  | .hbm, ⟨79, _⟩ => ⟨S_, .f32⟩
  | .hbm, ⟨80, _⟩ => ⟨S201600x64, .f32⟩
  | .hbm, ⟨81, _⟩ => ⟨S201600x1, .f32⟩
  | .hbm, ⟨82, _⟩ => ⟨S201600x64, .f32⟩
  | .hbm, ⟨83, _⟩ => ⟨S200000x1, .f32⟩
  | .hbm, ⟨84, _⟩ => ⟨S200000x64, .f32⟩
  | .hbm, ⟨85, _⟩ => ⟨S200000x32, .f32⟩
  | .hbm, ⟨86, _⟩ => ⟨S200000x32, .f32⟩
  | .hbm, ⟨87, _⟩ => ⟨S1x200000x32, .f32⟩
  | .hbm, ⟨88, _⟩ => ⟨S1x200000x32, .f32⟩
  | .local _ .vmem, ⟨0, _⟩ => ⟨S3600x9, .f32⟩
  | .local _ .vmem, ⟨1, _⟩ => ⟨S3600x9, .f32⟩
  | .local _ .vmem, ⟨2, _⟩ => ⟨S3600x64, .f32⟩
  | .local _ .vmem, ⟨3, _⟩ => ⟨S3600x64, .f32⟩
  | .local _ .vmem, ⟨4, _⟩ => ⟨S4x12, .bf16⟩
  | .local _ .vmem, ⟨5, _⟩ => ⟨S4x12, .bf16⟩
  | .local _ .vmem, ⟨6, _⟩ => ⟨S1x12, .f32⟩
  | .local _ .vmem, ⟨7, _⟩ => ⟨S1x12, .f32⟩
  | .local _ .vmem, ⟨8, _⟩ => ⟨S4x128, .bf16⟩
  | .local _ .vmem, ⟨9, _⟩ => ⟨S32x128, .bf16⟩
  | .local _ .vmem, ⟨10, _⟩ => ⟨S1x128, .f32⟩
  | .local _ .vmem, ⟨11, _⟩ => ⟨S1x128, .f32⟩
  | .local _ .vmem, ⟨12, _⟩ => ⟨S32x1, .bf16⟩
  | .local _ .vmem, ⟨13, _⟩ => ⟨S1x1, .f32⟩
  | .local _ .vmem, ⟨14, _⟩ => ⟨S3600x1, .f32⟩
  | .local _ .vmem, ⟨15, _⟩ => ⟨S3600x1, .f32⟩
  | .local _ .vmem, ⟨16, _⟩ => ⟨S3600x64, .f32⟩
  | .local _ .vmem, ⟨17, _⟩ => ⟨S3600x64, .f32⟩
  | _, _ => ⟨S200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_0 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c : Ref sig .tc := ⟨.hbm, 75, rfl⟩
abbrev main_call1_v0 : Ref sig .tc := ⟨.hbm, 76, rfl⟩
abbrev main_v35 : Ref sig .tc := ⟨.hbm, 77, rfl⟩
abbrev main_c_1 : Ref sig .tc := ⟨.hbm, 78, rfl⟩
abbrev main_call2_v0 : Ref sig .tc := ⟨.hbm, 79, rfl⟩
abbrev main_v36 : Ref sig .tc := ⟨.hbm, 80, rfl⟩
abbrev main_v37_0 : Ref sig .tc := ⟨.hbm, 81, rfl⟩
abbrev main_v37_1 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3600x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3600x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x12 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x12 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S3600x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3600x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x12800000_S1x12800000_0_0 : S2x12800000.Slices ![0, 0] S1x12800000
  shapeCasts_S1x12800000_S12800000 : S1x12800000.ShapeCasts S12800000
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S_S12800000x1 : S_.BroadcastsInDim S12800000x1 (![] : Fin 0 → Fin S12800000x1.rank)
  bcast_S1_S1x1_1 : S1.BroadcastsInDim S1x1 (![1] : Fin 1 → Fin S1x1.rank)
  bcast_S1x1_S12800000x1_0_1 : S1x1.BroadcastsInDim S12800000x1 (![0, 1] : Fin 2 → Fin S12800000x1.rank)
  reducesTo_S12800000x1_S12800000_d1 : S12800000x1.ReducesTo [1] S12800000
  h_S_ : 0 < S_.numel
  bcast_S12800000_S12800000x4_0 : S12800000.BroadcastsInDim S12800000x4 (![0] : Fin 1 → Fin S12800000x4.rank)
  bcast_S_S12800000x4 : S_.BroadcastsInDim S12800000x4 (![] : Fin 0 → Fin S12800000x4.rank)
  bcast_S12800000x1_S12800000x4_0_1 : S12800000x1.BroadcastsInDim S12800000x4 (![0, 1] : Fin 2 → Fin S12800000x4.rank)
  concatenates_S12800000x4_S12800000x1_S12800000x5_d1 : Shape.Concatenates [S12800000x4, S12800000x1] S12800000x5 1
  slices_S2x12800000_S1x12800000_1_0 : S2x12800000.Slices ![1, 0] S1x12800000
  bcast_S_S200000x5 : S_.BroadcastsInDim S200000x5 (![] : Fin 0 → Fin S200000x5.rank)
  slices_S200000x5_S200000x4_0_0 : S200000x5.Slices ![0, 0] S200000x4
  slices_S200000x5_S200000x1_0_4 : S200000x5.Slices ![0, 4] S200000x1
  shapeCasts_S1x200000x32_S200000x32 : S1x200000x32.ShapeCasts S200000x32
  concatenates_S200000x4_S200000x4_S200000x1_S200000x9_d1 : Shape.Concatenates [S200000x4, S200000x4, S200000x1] S200000x9 1
  concatenates_S200000x32_S200000x32_S200000x64_d1 : Shape.Concatenates [S200000x32, S200000x32] S200000x64 1
  transposes_S12x4_S4x12_1_0 : S12x4.Transposes [1, 0] S4x12
  bitsLt_bf16_f32 : FTy.bits .bf16 < FTy.bits .f32
  transposes_S128x4_S4x128_1_0 : S128x4.Transposes [1, 0] S4x128
  transposes_S128x32_S32x128_1_0 : S128x32.Transposes [1, 0] S32x128
  transposes_S1x32_S32x1_1_0 : S1x32.Transposes [1, 0] S32x1
  shapeCasts_S12_S1x12 : S12.ShapeCasts S1x12
  shapeCasts_S128_S1x128 : S128.ShapeCasts S1x128
  shapeCasts_S1_S1x1 : S1.ShapeCasts S1x1
  pads_S200000x9_S201600x9_016000_000 : S200000x9.Pads (![0, 0] : Fin 2 → Nat) ![1600, 0] ![0, 0] S201600x9
  pads_S200000x64_S201600x64_016000_000 : S200000x64.Pads (![0, 0] : Fin 2 → Nat) ![1600, 0] ![0, 0] S201600x64
  inb_S3600x9_S3600x9_0_0 : ∀ a, (![0, 0] : Fin 2 → Nat) a + S3600x9.size a ≤ S3600x9.size a
  h_S3600x9 : 0 < S3600x9.numel
  shapeCasts_S3600x9_S3600x9 : S3600x9.ShapeCasts S3600x9
  slices_S3600x9_o0_0_S3600x4 : S3600x9.Slices ![0, 0] S3600x4
  slices_S3600x9_o0_4_S3600x4 : S3600x9.Slices ![0, 4] S3600x4
  slices_S3600x9_o0_8_S3600x1 : S3600x9.Slices ![0, 8] S3600x1
  inb_S3600x64_S3600x64_0_0 : ∀ a, (![0, 0] : Fin 2 → Nat) a + S3600x64.size a ≤ S3600x64.size a
  h_S3600x64 : 0 < S3600x64.numel
  shapeCasts_S3600x64_S3600x64 : S3600x64.ShapeCasts S3600x64
  slices_S3600x64_o0_0_S3600x32 : S3600x64.Slices ![0, 0] S3600x32
  slices_S3600x64_o0_32_S3600x32 : S3600x64.Slices ![0, 32] S3600x32
  broadcasts_S3600x1_S3600x4 : S3600x1.Broadcasts S3600x4
  inb_S4x12_S4x12_0_0 : ∀ a, (![0, 0] : Fin 2 → Nat) a + S4x12.size a ≤ S4x12.size a
  h_S4x12 : 0 < S4x12.numel
  shapeCasts_S4x12_S4x12 : S4x12.ShapeCasts S4x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S3600x12 : S1x12.Broadcasts S3600x12
  slices_S3600x12_o0_0_S3600x4 : S3600x12.Slices ![0, 0] S3600x4
  slices_S3600x12_o0_4_S3600x4 : S3600x12.Slices ![0, 4] S3600x4
  slices_S3600x12_o0_8_S3600x4 : S3600x12.Slices ![0, 8] S3600x4
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3600x128 : S1x128.Broadcasts S3600x128
  slices_S3600x128_o0_0_S3600x32 : S3600x128.Slices ![0, 0] S3600x32
  slices_S3600x128_o0_32_S3600x32 : S3600x128.Slices ![0, 32] S3600x32
  slices_S3600x128_o0_64_S3600x32 : S3600x128.Slices ![0, 64] S3600x32
  slices_S3600x128_o0_96_S3600x32 : S3600x128.Slices ![0, 96] S3600x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S3600x1 : S1x1.Broadcasts S3600x1
  inb_S3600x1_S3600x1_0_0 : ∀ a, (![0, 0] : Fin 2 → Nat) a + S3600x1.size a ≤ S3600x1.size a
  h_S3600x1 : 0 < S3600x1.numel
  concatenates_S3600x32_S3600x32_S3600x64_d1 : Shape.Concatenates [S3600x32, S3600x32] S3600x64 1
  slices_S201600x1_S200000x1_0_0 : S201600x1.Slices ![0, 0] S200000x1
  slices_S201600x64_S200000x64_0_0 : S201600x64.Slices ![0, 0] S200000x64
  slices_S200000x64_S200000x32_0_0 : S200000x64.Slices ![0, 0] S200000x32
  slices_S200000x64_S200000x32_0_32 : S200000x64.Slices ![0, 32] S200000x32
  bcast_S200000x32_S1x200000x32_1_2 : S200000x32.BroadcastsInDim S1x200000x32 (![1, 2] : Fin 2 → Fin S1x200000x32.rank)
  dot_S200000x4_S4x4_S200000x4_1_0_0_1_n_n_wf : DotDims.WF S200000x4 S4x4 S200000x4 [1] [0] [0] [1] [] []
  gather_S200000x4_S12800000x1_S12800000x4_1_0_n_n_0_1_14_wf : GatherDims.WF S200000x4 S12800000x1 S12800000x4 [1] [0] [] [0] [] 1 ![1, 4]
  scatter_S200000x5_S12800000x1_S12800000x5_1_0_0_1_wf : ScatterDims.WF S200000x5 S12800000x1 S12800000x5 [1] [0] [0] 1
  dot_S3600x4_S4x12_S3600x12_1_0_0_1_n_n_wf : DotDims.WF S3600x4 S4x12 S3600x12 [1] [0] [0] [1] [] []
  dot_S3600x4_S4x128_S3600x128_1_0_0_1_n_n_wf : DotDims.WF S3600x4 S4x128 S3600x128 [1] [0] [0] [1] [] []
  dot_S3600x32_S32x128_S3600x128_1_0_0_1_n_n_wf : DotDims.WF S3600x32 S32x128 S3600x128 [1] [0] [0] [1] [] []
  dot_S3600x32_S32x1_S3600x1_1_0_0_1_n_n_wf : DotDims.WF S3600x32 S32x1 S3600x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3600x9.size a ≤ S201600x9.size a
  hwx0_0 : ∀ i : grid0.Coords, EltTy.bits .f32 = 32 ∨ (Rect.block (s := S201600x9) S3600x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3600x64.size a ≤ S201600x64.size a
  hwx0_1 : ∀ i : grid0.Coords, EltTy.bits .f32 = 32 ∨ (Rect.block (s := S201600x64) S3600x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x12.size a ≤ S4x12.size a
  hwx0_2 : ∀ i : grid0.Coords, EltTy.bits .bf16 = 32 ∨ (Rect.block (s := S4x12) S4x12.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x12.size a ≤ S4x12.size a
  hwx0_3 : ∀ i : grid0.Coords, EltTy.bits .bf16 = 32 ∨ (Rect.block (s := S4x12) S4x12.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x12.size a ≤ S1x12.size a
  hwx0_4 : ∀ i : grid0.Coords, EltTy.bits .f32 = 32 ∨ (Rect.block (s := S1x12) S1x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x12.size a ≤ S1x12.size a
  hwx0_5 : ∀ i : grid0.Coords, EltTy.bits .f32 = 32 ∨ (Rect.block (s := S1x12) S1x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128.size a ≤ S4x128.size a
  hwx0_6 : ∀ i : grid0.Coords, EltTy.bits .bf16 = 32 ∨ (Rect.block (s := S4x128) S4x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .bf16 = 32 ∨ (Rect.block (s := S32x128) S32x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x1.size a ≤ S32x1.size a
  hwx0_10 : ∀ i : grid0.Coords, EltTy.bits .bf16 = 32 ∨ (Rect.block (s := S32x1) S32x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S3600x1.size a ≤ S201600x1.size a
  hwx0_12 : ∀ i : grid0.Coords, EltTy.bits .f32 = 32 ∨ (Rect.block (s := S201600x1) S3600x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3600x64.size a ≤ S201600x64.size a
  hwx0_13 : ∀ i : grid0.Coords, EltTy.bits .f32 = 32 ∨ (Rect.block (s := S201600x64) S3600x64.size (cc0_transform_13 i) (hinb0_13 i)).WholeWords (EltTy.packing .f32)

variable [Facts₀]

def dot_S200000x4_S4x4_S200000x4_1_0_0_1_n_n : DotDims S200000x4 S4x4 S200000x4 where
  lhsContracting := [1]
  rhsContracting := [0]
  lhsNonContracting := [0]
  rhsNonContracting := [1]
  lhsBatch := []
  rhsBatch := []
  wf := dot_S200000x4_S4x4_S200000x4_1_0_0_1_n_n_wf
def gather_S200000x4_S12800000x1_S12800000x4_1_0_n_n_0_1_14 : GatherDims S200000x4 S12800000x1 S12800000x4 where
  offsetDims := [1]
  collapsedSliceDims := [0]
  operandBatchingDims := []
  startIndicesBatchingDims := []
  startIndexMap := [0]
  indexVectorDim := 1
  sliceSizes := ![1, 4]
  wf := gather_S200000x4_S12800000x1_S12800000x4_1_0_n_n_0_1_14_wf
def scatter_S200000x5_S12800000x1_S12800000x5_1_0_0_1 : ScatterDims S200000x5 S12800000x1 S12800000x5 where
  updateWindowDims := [1]
  insertedWindowDims := [0]
  scatterDimsToOperandDims := [0]
  indexVectorDim := 1
  wf := scatter_S200000x5_S12800000x1_S12800000x5_1_0_0_1_wf
def dot_S3600x4_S4x12_S3600x12_1_0_0_1_n_n : DotDims S3600x4 S4x12 S3600x12 where
  lhsContracting := [1]
  rhsContracting := [0]
  lhsNonContracting := [0]
  rhsNonContracting := [1]
  lhsBatch := []
  rhsBatch := []
  wf := dot_S3600x4_S4x12_S3600x12_1_0_0_1_n_n_wf
def dot_S3600x4_S4x128_S3600x128_1_0_0_1_n_n : DotDims S3600x4 S4x128 S3600x128 where
  lhsContracting := [1]
  rhsContracting := [0]
  lhsNonContracting := [0]
  rhsNonContracting := [1]
  lhsBatch := []
  rhsBatch := []
  wf := dot_S3600x4_S4x128_S3600x128_1_0_0_1_n_n_wf
def dot_S3600x32_S32x128_S3600x128_1_0_0_1_n_n : DotDims S3600x32 S32x128 S3600x128 where
  lhsContracting := [1]
  rhsContracting := [0]
  lhsNonContracting := [0]
  rhsNonContracting := [1]
  lhsBatch := []
  rhsBatch := []
  wf := dot_S3600x32_S32x128_S3600x128_1_0_0_1_n_n_wf
def dot_S3600x32_S32x1_S3600x1_1_0_0_1_n_n : DotDims S3600x32 S32x1 S3600x1 where
  lhsContracting := [1]
  rhsContracting := [0]
  lhsNonContracting := [0]
  rhsNonContracting := [1]
  lhsBatch := []
  rhsBatch := []
  wf := dot_S3600x32_S32x1_S3600x1_1_0_0_1_n_n_wf

abbrev win0_0 : Pipeline.Window sig grid0 :=
  Pipeline.Window.ofSpec (Memref.whole main_v35) S3600x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S3600x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S4x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S4x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S4x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37_0) S3600x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v37_1) S3600x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S200000x4 : Shape := ⟨2, ![200000, 4]⟩
abbrev S2x12800000 : Shape := ⟨2, ![2, 12800000]⟩
abbrev S12800000 : Shape := ⟨1, ![12800000]⟩
abbrev S1x200000x32 : Shape := ⟨3, ![1, 200000, 32]⟩
abbrev S4x4 : Shape := ⟨2, ![4, 4]⟩
abbrev S12x4 : Shape := ⟨2, ![12, 4]⟩
abbrev S12 : Shape := ⟨1, ![12]⟩
abbrev S128x4 : Shape := ⟨2, ![128, 4]⟩
abbrev S128x32 : Shape := ⟨2, ![128, 32]⟩
abbrev S128 : Shape := ⟨1, ![128]⟩
abbrev S1x32 : Shape := ⟨2, ![1, 32]⟩
abbrev S1 : Shape := ⟨1, ![1]⟩
abbrev S1x12800000 : Shape := ⟨2, ![1, 12800000]⟩
abbrev S_ : Shape := ⟨0, ![]⟩
abbrev S12800000x1 : Shape := ⟨2, ![12800000, 1]⟩
abbrev S12800000x4 : Shape := ⟨2, ![12800000, 4]⟩
abbrev S200000 : Shape := ⟨1, ![200000]⟩
abbrev S200000x1 : Shape := ⟨2, ![200000, 1]⟩
abbrev S4x12 : Shape := ⟨2, ![4, 12]⟩
abbrev S200000x12 : Shape := ⟨2, ![200000, 12]⟩
abbrev S1x12 : Shape := ⟨2, ![1, 12]⟩
abbrev S200000x32 : Shape := ⟨2, ![200000, 32]⟩
abbrev S4x128 : Shape := ⟨2, ![4, 128]⟩
abbrev S200000x128 : Shape := ⟨2, ![200000, 128]⟩
abbrev S1x128 : Shape := ⟨2, ![1, 128]⟩
abbrev S32x128 : Shape := ⟨2, ![32, 128]⟩
abbrev S32x1 : Shape := ⟨2, ![32, 1]⟩
abbrev S1x1 : Shape := ⟨2, ![1, 1]⟩

abbrev nBuf : Space → Nat
  | .hbm => 149
  | .vmem => 0
  | .smem => 0
  | _ => 0

abbrev hbmTy0_0 (i : Nat) : BufTy := match i % 128 with
  | 0 => ⟨S200000x4, .f32⟩
  | 1 => ⟨S2x12800000, .i32⟩
  | 2 => ⟨S12800000, .f32⟩
  | 3 => ⟨S1x200000x32, .f32⟩
  | 4 => ⟨S1x200000x32, .f32⟩
  | 5 => ⟨S4x4, .f32⟩
  | 6 => ⟨S12x4, .f32⟩
  | 7 => ⟨S12x4, .f32⟩
  | 8 => ⟨S12, .f32⟩
  | 9 => ⟨S12, .f32⟩
  | 10 => ⟨S128x4, .f32⟩
  | 11 => ⟨S128x32, .f32⟩
  | 12 => ⟨S128, .f32⟩
  | 13 => ⟨S128, .f32⟩
  | 14 => ⟨S1x32, .f32⟩
  | 15 => ⟨S1, .f32⟩
  | 16 => ⟨S1x12800000, .i32⟩
  | 17 => ⟨S12800000, .i32⟩
  | 18 => ⟨S1x12800000, .i32⟩
  | 19 => ⟨S12800000, .i32⟩
  | 20 => ⟨S200000x4, .f32⟩
  | 21 => ⟨S_, .i32⟩
  | 22 => ⟨S12800000, .i32⟩
  | 23 => ⟨S12800000, .i1⟩
  | 24 => ⟨S_, .i32⟩
  | 25 => ⟨S12800000, .i32⟩
  | 26 => ⟨S12800000, .i32⟩
  | 27 => ⟨S12800000, .i32⟩
  | 28 => ⟨S12800000x1, .i32⟩
  | 29 => ⟨S12800000x4, .f32⟩
  | 30 => ⟨S12800000x1, .f32⟩
  | 31 => ⟨S12800000x4, .f32⟩
  | 32 => ⟨S12800000x4, .f32⟩
  | 33 => ⟨S_, .f32⟩
  | 34 => ⟨S200000x4, .f32⟩
  | 35 => ⟨S12800000x1, .i32⟩
  | 36 => ⟨S200000x4, .f32⟩
  | 37 => ⟨S_, .f32⟩
  | 38 => ⟨S12800000, .f32⟩
  | 39 => ⟨S_, .f32⟩
  | 40 => ⟨S200000, .f32⟩
  | 41 => ⟨S12800000x1, .i32⟩
  | 42 => ⟨S200000, .f32⟩
  | 43 => ⟨S_, .f32⟩
  | 44 => ⟨S200000, .f32⟩
  | 45 => ⟨S200000, .f32⟩
  | 46 => ⟨S200000x1, .f32⟩
  | 47 => ⟨S200000x4, .f32⟩
  | 48 => ⟨S200000x4, .f32⟩
  | 49 => ⟨S4x12, .f32⟩
  | 50 => ⟨S200000x12, .f32⟩
  | 51 => ⟨S1x12, .f32⟩
  | 52 => ⟨S200000x12, .f32⟩
  | 53 => ⟨S200000x12, .f32⟩
  | 54 => ⟨S4x12, .f32⟩
  | 55 => ⟨S200000x12, .f32⟩
  | 56 => ⟨S1x12, .f32⟩
  | 57 => ⟨S200000x12, .f32⟩
  | 58 => ⟨S200000x12, .f32⟩
  | 59 => ⟨S200000x4, .f32⟩
  | 60 => ⟨S200000x4, .f32⟩
  | 61 => ⟨S200000x4, .f32⟩
  | 62 => ⟨S200000x4, .f32⟩
  | 63 => ⟨S200000x4, .f32⟩
  | 64 => ⟨S200000x4, .f32⟩
  | 65 => ⟨S200000x4, .f32⟩
  | 66 => ⟨S200000x4, .f32⟩
  | 67 => ⟨S200000x4, .f32⟩
  | 68 => ⟨S_, .f32⟩
  | 69 => ⟨S200000x4, .f32⟩
  | 70 => ⟨S200000x4, .f32⟩
  | 71 => ⟨S_, .f32⟩
  | 72 => ⟨S200000x4, .f32⟩
  | 73 => ⟨S200000x4, .f32⟩
  | 74 => ⟨S200000x4, .f32⟩
  | 75 => ⟨S200000x4, .f32⟩
  | 76 => ⟨S200000x4, .f32⟩
  | 77 => ⟨S_, .f32⟩
  | 78 => ⟨S200000x4, .f32⟩
  | 79 => ⟨S200000x4, .f32⟩
  | 80 => ⟨S_, .f32⟩
  | 81 => ⟨S200000x4, .f32⟩
  | 82 => ⟨S200000x4, .f32⟩
  | 83 => ⟨S200000x4, .f32⟩
  | 84 => ⟨S200000x4, .f32⟩
  | 85 => ⟨S200000x4, .f32⟩
  | 86 => ⟨S_, .f32⟩
  | 87 => ⟨S200000x4, .f32⟩
  | 88 => ⟨S200000x4, .f32⟩
  | 89 => ⟨S200000x4, .f32⟩
  | 90 => ⟨S200000x4, .f32⟩
  | 91 => ⟨S200000x4, .f32⟩
  | 92 => ⟨S200000x32, .f32⟩
  | 93 => ⟨S200000x32, .f32⟩
  | 94 => ⟨S4x128, .f32⟩
  | 95 => ⟨S200000x128, .f32⟩
  | 96 => ⟨S1x128, .f32⟩
  | 97 => ⟨S200000x128, .f32⟩
  | 98 => ⟨S200000x128, .f32⟩
  | 99 => ⟨S32x128, .f32⟩
  | 100 => ⟨S200000x128, .f32⟩
  | 101 => ⟨S200000x128, .f32⟩
  | 102 => ⟨S1x128, .f32⟩
  | 103 => ⟨S200000x128, .f32⟩
  | 104 => ⟨S200000x128, .f32⟩
  | 105 => ⟨S200000x32, .f32⟩
  | 106 => ⟨S200000x32, .f32⟩
  | 107 => ⟨S200000x32, .f32⟩
  | 108 => ⟨S200000x32, .f32⟩
  | 109 => ⟨S200000x32, .f32⟩
  | 110 => ⟨S200000x32, .f32⟩
  | 111 => ⟨S_, .f32⟩
  | 112 => ⟨S200000x32, .f32⟩
  | 113 => ⟨S200000x32, .f32⟩
  | 114 => ⟨S_, .f32⟩
  | 115 => ⟨S200000x32, .f32⟩
  | 116 => ⟨S200000x32, .f32⟩
  | 117 => ⟨S200000x32, .f32⟩
  | 118 => ⟨S200000x32, .f32⟩
  | 119 => ⟨S_, .f32⟩
  | 120 => ⟨S200000x32, .f32⟩
  | 121 => ⟨S200000x32, .f32⟩
  | 122 => ⟨S_, .f32⟩
  | 123 => ⟨S200000x32, .f32⟩
  | 124 => ⟨S200000x32, .f32⟩
  | 125 => ⟨S200000x32, .f32⟩
  | 126 => ⟨S200000x32, .f32⟩
  | 127 => ⟨S_, .f32⟩
  | _ => ⟨S200000x4, .f32⟩

abbrev hbmTy0_1 (i : Nat) : BufTy := match i % 128 with
  | 0 => ⟨S200000x32, .f32⟩
  | 1 => ⟨S200000x32, .f32⟩
  | 2 => ⟨S_, .f32⟩
  | 3 => ⟨S200000x32, .f32⟩
  | 4 => ⟨S200000x32, .f32⟩
  | 5 => ⟨S200000x32, .f32⟩
  | 6 => ⟨S200000x32, .f32⟩
  | 7 => ⟨S200000x32, .f32⟩
  | 8 => ⟨S200000x32, .f32⟩
  | 9 => ⟨S200000x32, .f32⟩
  | 10 => ⟨S200000x32, .f32⟩
  | 11 => ⟨S_, .f32⟩
  | 12 => ⟨S200000x32, .f32⟩
  | 13 => ⟨S200000x32, .f32⟩
  | 14 => ⟨S32x1, .f32⟩
  | 15 => ⟨S200000x1, .f32⟩
  | 16 => ⟨S1x1, .f32⟩
  | 17 => ⟨S200000x1, .f32⟩
  | 18 => ⟨S200000x1, .f32⟩
  | 19 => ⟨S1x200000x32, .f32⟩
  | 20 => ⟨S1x200000x32, .f32⟩
  | _ => ⟨S200000x4, .f32⟩

abbrev hbmTy (i : Nat) : BufTy := match i / 128 with
  | 0 => hbmTy0_0 i
  | 1 => hbmTy0_1 i
  | _ => ⟨S200000x4, .f32⟩

abbrev bufTy : (tb : Table) → Fin (tcTables nBuf tb) → BufTy
  | .hbm, ⟨i, _⟩ => hbmTy i
  | _, _ => ⟨S200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_9 : Ref sig .tc := ⟨.hbm, 111, rfl⟩
abbrev main_v84 : Ref sig .tc := ⟨.hbm, 112, rfl⟩
abbrev main_v85 : Ref sig .tc := ⟨.hbm, 113, rfl⟩
abbrev main_cst_10 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_11 : Ref sig .tc := ⟨.hbm, 119, rfl⟩
abbrev main_v90 : Ref sig .tc := ⟨.hbm, 120, rfl⟩
abbrev main_v91 : Ref sig .tc := ⟨.hbm, 121, rfl⟩
abbrev main_cst_12 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_13 : Ref sig .tc := ⟨.hbm, 127, rfl⟩
abbrev main_v96 : Ref sig .tc := ⟨.hbm, 128, rfl⟩
abbrev main_v97 : Ref sig .tc := ⟨.hbm, 129, rfl⟩
abbrev main_cst_14 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_call0_cst : Ref sig .tc := ⟨.hbm, 139, rfl⟩
abbrev main_call0_v0 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]

class Facts₀ : Prop where
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  bcast_S_S12800000 : S_.BroadcastsInDim S12800000 (![] : Fin 0 → Fin S12800000.rank)
  bcast_S12800000_S12800000x1_0 : S12800000.BroadcastsInDim S12800000x1 (![0] : Fin 1 → Fin S12800000x1.rank)
  bcast_S12800000x1_S12800000x4_0_1 : S12800000x1.BroadcastsInDim S12800000x4 (![0, 1] : Fin 2 → Fin S12800000x4.rank)
  bcast_S_S200000x4 : S_.BroadcastsInDim S200000x4 (![] : Fin 0 → Fin S200000x4.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x4_0_1 : S200000x1.BroadcastsInDim S200000x4 (![0, 1] : Fin 2 → Fin S200000x4.rank)
  transposes_S12x4_S4x12_1_0 : S12x4.Transposes [1, 0] S4x12
  bcast_S12_S1x12_1 : S12.BroadcastsInDim S1x12 (![1] : Fin 1 → Fin S1x12.rank)
  bcast_S1x12_S200000x12_0_1 : S1x12.BroadcastsInDim S200000x12 (![0, 1] : Fin 2 → Fin S200000x12.rank)
  slices_S200000x12_S200000x4_0_0 : S200000x12.Slices ![0, 0] S200000x4
  slices_S200000x12_S200000x4_0_4 : S200000x12.Slices ![0, 4] S200000x4
  slices_S200000x12_S200000x4_0_8 : S200000x12.Slices ![0, 8] S200000x4
  shapeCasts_S1x200000x32_S200000x32 : S1x200000x32.ShapeCasts S200000x32
  transposes_S128x4_S4x128_1_0 : S128x4.Transposes [1, 0] S4x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  transposes_S128x32_S32x128_1_0 : S128x32.Transposes [1, 0] S32x128
  slices_S200000x128_S200000x32_0_0 : S200000x128.Slices ![0, 0] S200000x32
  slices_S200000x128_S200000x32_0_32 : S200000x128.Slices ![0, 32] S200000x32
  slices_S200000x128_S200000x32_0_64 : S200000x128.Slices ![0, 64] S200000x32
  slices_S200000x128_S200000x32_0_96 : S200000x128.Slices ![0, 96] S200000x32
  bcast_S_S200000x32 : S_.BroadcastsInDim S200000x32 (![] : Fin 0 → Fin S200000x32.rank)
  transposes_S1x32_S32x1_1_0 : S1x32.Transposes [1, 0] S32x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S200000x32_S1x200000x32_1_2 : S200000x32.BroadcastsInDim S1x200000x32 (![1, 2] : Fin 2 → Fin S1x200000x32.rank)
  dot_S200000x4_S4x4_S200000x4_1_0_0_1_n_n_wf : DotDims.WF S200000x4 S4x4 S200000x4 [1] [0] [0] [1] [] []
  gather_S200000x4_S12800000x1_S12800000x4_1_0_n_n_0_1_14_wf : GatherDims.WF S200000x4 S12800000x1 S12800000x4 [1] [0] [] [0] [] 1 ![1, 4]
  scatter_S200000x4_S12800000x1_S12800000x4_1_0_0_1_wf : ScatterDims.WF S200000x4 S12800000x1 S12800000x4 [1] [0] [0] 1
  scatter_S200000_S12800000x1_S12800000_n_0_0_1_wf : ScatterDims.WF S200000 S12800000x1 S12800000 [] [0] [0] 1
  dot_S200000x4_S4x12_S200000x12_1_0_0_1_n_n_wf : DotDims.WF S200000x4 S4x12 S200000x12 [1] [0] [0] [1] [] []
  dot_S200000x4_S4x128_S200000x128_1_0_0_1_n_n_wf : DotDims.WF S200000x4 S4x128 S200000x128 [1] [0] [0] [1] [] []
  dot_S200000x32_S32x128_S200000x128_1_0_0_1_n_n_wf : DotDims.WF S200000x32 S32x128 S200000x128 [1] [0] [0] [1] [] []
  dot_S200000x32_S32x1_S200000x1_1_0_0_1_n_n_wf : DotDims.WF S200000x32 S32x1 S200000x1 [1] [0] [0] [1] [] []

variable [Facts₀]

def dot_S200000x4_S4x4_S200000x4_1_0_0_1_n_n : DotDims S200000x4 S4x4 S200000x4 where
  lhsContracting := [1]
  rhsContracting := [0]
  lhsNonContracting := [0]
  rhsNonContracting := [1]
  lhsBatch := []
  rhsBatch := []
  wf := dot_S200000x4_S4x4_S200000x4_1_0_0_1_n_n_wf
def gather_S200000x4_S12800000x1_S12800000x4_1_0_n_n_0_1_14 : GatherDims S200000x4 S12800000x1 S12800000x4 where
  offsetDims := [1]
  collapsedSliceDims := [0]
  operandBatchingDims := []
  startIndicesBatchingDims := []
  startIndexMap := [0]
  indexVectorDim := 1
  sliceSizes := ![1, 4]
  wf := gather_S200000x4_S12800000x1_S12800000x4_1_0_n_n_0_1_14_wf
def scatter_S200000x4_S12800000x1_S12800000x4_1_0_0_1 : ScatterDims S200000x4 S12800000x1 S12800000x4 where
  updateWindowDims := [1]
  insertedWindowDims := [0]
  scatterDimsToOperandDims := [0]
  indexVectorDim := 1
  wf := scatter_S200000x4_S12800000x1_S12800000x4_1_0_0_1_wf
def scatter_S200000_S12800000x1_S12800000_n_0_0_1 : ScatterDims S200000 S12800000x1 S12800000 where
  updateWindowDims := []
  insertedWindowDims := [0]
  scatterDimsToOperandDims := [0]
  indexVectorDim := 1
  wf := scatter_S200000_S12800000x1_S12800000_n_0_0_1_wf
def dot_S200000x4_S4x12_S200000x12_1_0_0_1_n_n : DotDims S200000x4 S4x12 S200000x12 where
  lhsContracting := [1]
  rhsContracting := [0]
  lhsNonContracting := [0]
  rhsNonContracting := [1]
  lhsBatch := []
  rhsBatch := []
  wf := dot_S200000x4_S4x12_S200000x12_1_0_0_1_n_n_wf
def dot_S200000x4_S4x128_S200000x128_1_0_0_1_n_n : DotDims S200000x4 S4x128 S200000x128 where
  lhsContracting := [1]
  rhsContracting := [0]
  lhsNonContracting := [0]
  rhsNonContracting := [1]
  lhsBatch := []
  rhsBatch := []
  wf := dot_S200000x4_S4x128_S200000x128_1_0_0_1_n_n_wf
def dot_S200000x32_S32x128_S200000x128_1_0_0_1_n_n : DotDims S200000x32 S32x128 S200000x128 where
  lhsContracting := [1]
  rhsContracting := [0]
  lhsNonContracting := [0]
  rhsNonContracting := [1]
  lhsBatch := []
  rhsBatch := []
  wf := dot_S200000x32_S32x128_S200000x128_1_0_0_1_n_n_wf
def dot_S200000x32_S32x1_S200000x1_1_0_0_1_n_n : DotDims S200000x32 S32x1 S200000x1 where
  lhsContracting := [1]
  rhsContracting := [0]
  lhsNonContracting := [0]
  rhsNonContracting := [1]
  lhsBatch := []
  rhsBatch := []
  wf := dot_S200000x32_S32x1_S200000x1_1_0_0_1_n_n_wf

class Facts : Prop extends Facts₀ where

variable [Facts]
-- ==== Proof.EntryB.lean ====
/-
  The buffers' contents when the one region is entered: the arguments as given, every other buffer of @main
  after the host operations that precede the region, in program order (six stretches: the product of the features
  with the convolution's weights and the source row of the edge list; the take of the product's rows at the sources;
  the weighting, the segment sums, the packing of the node arrays and the transposed parameter tables; the two paddings
  of the node axis to a whole number of blocks).
-/
import proofs.«415627_j68650757260096_3_alg».proof.Proof.Gen.Kernel.Launch
import Idealize.ShloMosaic.Lib.Pipeline.FrameSuffix

noncomputable section

namespace Cert.Kernel.Entry

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The host stretches before the region, in order. -/
abbrev pre : List (List (HloOp τ sig (Elt F))) := [hostOps0, hostOps0_1, hostOps0_2, hostOps0_3, hostOps0_4, hostOps0_5]

/-- Core `c`'s buffer contents when the region is entered, as a valuation. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

end Cert.Kernel.Entry

end
-- ==== Proof.FrameB.lean ====
/-
  The frame of the kernel program, for any float instance: the program's one region is entered after six
  stretches of host operations and followed by one more; the region's body loads each input window's whole block,
  and stores one whole-block value into each of the two output windows. Every argument array is left as launched.
-/
import proofs.«415627_j68650757260096_3_alg».proof.Proof.Gen.Kernel.Launch
import proofs.«415627_j68650757260096_3_alg».proof.Proof.Gen.Kernel.Skeleton
import proofs.«415627_j68650757260096_3_alg».proof.Proof.Gen.Kernel.Points
import proofs.«415627_j68650757260096_3_alg».proof.Proof.EntryB
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen Cert.Kernel.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- No operation of this stretch allocates. -/
theorem hostOps0_fresh : (hostOps0 : List (HloOp τ sig (Elt F))).Forall fun op => op.fresh = ∅ := by
  simp only [List.Forall]; repeat' constructor
/-- No operation of this stretch allocates. -/
theorem hostOps0_1_fresh : (hostOps0_1 : List (HloOp τ sig (Elt F))).Forall fun op => op.fresh = ∅ := by
  simp only [List.Forall]; repeat' constructor
/-- No operation of this stretch allocates. -/
theorem hostOps0_2_fresh : (hostOps0_2 : List (HloOp τ sig (Elt F))).Forall fun op => op.fresh = ∅ := by
  simp only [List.Forall]; repeat' constructor
/-- No operation of this stretch allocates. -/
theorem hostOps0_3_fresh : (hostOps0_3 : List (HloOp τ sig (Elt F))).Forall fun op => op.fresh = ∅ := by
  simp only [List.Forall]; repeat' constructor
/-- No operation of this stretch allocates. -/
theorem hostOps0_4_fresh : (hostOps0_4 : List (HloOp τ sig (Elt F))).Forall fun op => op.fresh = ∅ := by
  simp only [List.Forall]; repeat' constructor
/-- No operation of this stretch allocates. -/
theorem hostOps0_5_fresh : (hostOps0_5 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor

/-- The program is the six stretches of host operations, the region, and the last stretch: it reduces to the region
    continued by the last stretch, the region entered at the contents the six stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-! ## The argument arrays when the region is entered -/

/-- No host operation before the region writes an argument array: each holds its launch contents there. -/
theorem V_main_arg0 (c : Dev nD) : V m c main_arg0 = m ((c : Thread nD τ).loc main_arg0) := by
  dsimp only [V, V0, pre]; simp only [hostOps0, hostOps0_1, hostOps0_2, hostOps0_3, hostOps0_4, hostOps0_5, List.flatten_cons, List.flatten_nil, List.append_nil, List.cons_append, List.nil_append]; after_results
theorem V_main_arg1 (c : Dev nD) : V m c main_arg1 = m ((c : Thread nD τ).loc main_arg1) := by
  dsimp only [V, V0, pre]; simp only [hostOps0, hostOps0_1, hostOps0_2, hostOps0_3, hostOps0_4, hostOps0_5, List.flatten_cons, List.flatten_nil, List.append_nil, List.cons_append, List.nil_append]; after_results
theorem V_main_arg2 (c : Dev nD) : V m c main_arg2 = m ((c : Thread nD τ).loc main_arg2) := by
  dsimp only [V, V0, pre]; simp only [hostOps0, hostOps0_1, hostOps0_2, hostOps0_3, hostOps0_4, hostOps0_5, List.flatten_cons, List.flatten_nil, List.append_nil, List.cons_append, List.nil_append]; after_results
theorem V_main_arg3 (c : Dev nD) : V m c main_arg3 = m ((c : Thread nD τ).loc main_arg3) := by
  dsimp only [V, V0, pre]; simp only [hostOps0, hostOps0_1, hostOps0_2, hostOps0_3, hostOps0_4, hostOps0_5, List.flatten_cons, List.flatten_nil, List.append_nil, List.cons_append, List.nil_append]; after_results
theorem V_main_arg4 (c : Dev nD) : V m c main_arg4 = m ((c : Thread nD τ).loc main_arg4) := by
  dsimp only [V, V0, pre]; simp only [hostOps0, hostOps0_1, hostOps0_2, hostOps0_3, hostOps0_4, hostOps0_5, List.flatten_cons, List.flatten_nil, List.append_nil, List.cons_append, List.nil_append]; after_results
theorem V_main_arg5 (c : Dev nD) : V m c main_arg5 = m ((c : Thread nD τ).loc main_arg5) := by
  dsimp only [V, V0, pre]; simp only [hostOps0, hostOps0_1, hostOps0_2, hostOps0_3, hostOps0_4, hostOps0_5, List.flatten_cons, List.flatten_nil, List.append_nil, List.cons_append, List.nil_append]; after_results
theorem V_main_arg6 (c : Dev nD) : V m c main_arg6 = m ((c : Thread nD τ).loc main_arg6) := by
  dsimp only [V, V0, pre]; simp only [hostOps0, hostOps0_1, hostOps0_2, hostOps0_3, hostOps0_4, hostOps0_5, List.flatten_cons, List.flatten_nil, List.append_nil, List.cons_append, List.nil_append]; after_results
theorem V_main_arg7 (c : Dev nD) : V m c main_arg7 = m ((c : Thread nD τ).loc main_arg7) := by
  dsimp only [V, V0, pre]; simp only [hostOps0, hostOps0_1, hostOps0_2, hostOps0_3, hostOps0_4, hostOps0_5, List.flatten_cons, List.flatten_nil, List.append_nil, List.cons_append, List.nil_append]; after_results
theorem V_main_arg8 (c : Dev nD) : V m c main_arg8 = m ((c : Thread nD τ).loc main_arg8) := by
  dsimp only [V, V0, pre]; simp only [hostOps0, hostOps0_1, hostOps0_2, hostOps0_3, hostOps0_4, hostOps0_5, List.flatten_cons, List.flatten_nil, List.append_nil, List.cons_append, List.nil_append]; after_results
theorem V_main_arg9 (c : Dev nD) : V m c main_arg9 = m ((c : Thread nD τ).loc main_arg9) := by
  dsimp only [V, V0, pre]; simp only [hostOps0, hostOps0_1, hostOps0_2, hostOps0_3, hostOps0_4, hostOps0_5, List.flatten_cons, List.flatten_nil, List.append_nil, List.cons_append, List.nil_append]; after_results
theorem V_main_arg10 (c : Dev nD) : V m c main_arg10 = m ((c : Thread nD τ).loc main_arg10) := by
  dsimp only [V, V0, pre]; simp only [hostOps0, hostOps0_1, hostOps0_2, hostOps0_3, hostOps0_4, hostOps0_5, List.flatten_cons, List.flatten_nil, List.append_nil, List.cons_append, List.nil_append]; after_results
theorem V_main_arg11 (c : Dev nD) : V m c main_arg11 = m ((c : Thread nD τ).loc main_arg11) := by
  dsimp only [V, V0, pre]; simp only [hostOps0, hostOps0_1, hostOps0_2, hostOps0_3, hostOps0_4, hostOps0_5, List.flatten_cons, List.flatten_nil, List.append_nil, List.cons_append, List.nil_append]; after_results
theorem V_main_arg12 (c : Dev nD) : V m c main_arg12 = m ((c : Thread nD τ).loc main_arg12) := by
  dsimp only [V, V0, pre]; simp only [hostOps0, hostOps0_1, hostOps0_2, hostOps0_3, hostOps0_4, hostOps0_5, List.flatten_cons, List.flatten_nil, List.append_nil, List.cons_append, List.nil_append]; after_results
theorem V_main_arg13 (c : Dev nD) : V m c main_arg13 = m ((c : Thread nD τ).loc main_arg13) := by
  dsimp only [V, V0, pre]; simp only [hostOps0, hostOps0_1, hostOps0_2, hostOps0_3, hostOps0_4, hostOps0_5, List.flatten_cons, List.flatten_nil, List.append_nil, List.cons_append, List.nil_append]; after_results
theorem V_main_arg14 (c : Dev nD) : V m c main_arg14 = m ((c : Thread nD τ).loc main_arg14) := by
  dsimp only [V, V0, pre]; simp only [hostOps0, hostOps0_1, hostOps0_2, hostOps0_3, hostOps0_4, hostOps0_5, List.flatten_cons, List.flatten_nil, List.append_nil, List.cons_append, List.nil_append]; after_results
theorem V_main_arg15 (c : Dev nD) : V m c main_arg15 = m ((c : Thread nD τ).loc main_arg15) := by
  dsimp only [V, V0, pre]; simp only [hostOps0, hostOps0_1, hostOps0_2, hostOps0_3, hostOps0_4, hostOps0_5, List.flatten_cons, List.flatten_nil, List.append_nil, List.cons_append, List.nil_append]; after_results

/-! ## The stretch after the region -/

/-- Its operations touch the region's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and no result buffer of the stretch is an array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.unary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved, and the body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved, and the body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved, and the body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved, and the body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched its block index has not moved, and the body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched its block index has not moved, and the body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched its block index has not moved, and the body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No operation of the last stretch writes a buffer other than the stretch's six results. -/
theorem hostOps1_writes (b : Ref sig .tc) (h0 : b ≠ main_v38) (h1 : b ≠ main_v39) (h2 : b ≠ main_v40) (h3 : b ≠ main_v41)
    (h4 : b ≠ main_v42) (h5 : b ≠ main_v43) :
    ∀ op ∈ (hostOps1 : List (HloOp τ sig (Elt F))), Proc.devRef (τ := τ) .tc b ∉ op.writes := by
  intro op hop
  simp only [hostOps1, List.mem_cons, List.mem_nil_iff, or_false] at hop
  rcases hop with rfl | rfl | rfl | rfl | rfl | rfl <;> simp only [StableHlo.unary_writes, Finset.mem_singleton] <;>
    apply StableHlo.devRef_ne_of_ne <;> assumption

/-- A buffer that is no array of the region and no result of the last stretch holds, after that stretch, what it held when
    the region was entered. -/
theorem tail_keeps (dats : (p : Fin 1) → (c : Dev nD) → Dat τ (Elt F) Unit ℕ (UR sig nD τ) ℕ (cfgs p) c) (c : Dev nD) (b : Ref sig .tc)
    (hb : ∀ w, Pipeline.arrRef spec0 w ≠ b)
    (hw : ∀ op ∈ (hostOps1 : List (HloOp τ sig (Elt F))), Proc.devRef (τ := τ) .tc b ∉ op.writes) :
    Pipeline.afterTail₀ cfgs dats 0 (V0 m) [hostOps1] c b = V m c b := by
  unfold Pipeline.afterTail₀
  rw [StableHlo.after_of_forall_not_mem _ _ (fun op hop => hw op (by simpa using hop))]
  exact Pipeline.withArrays_of_ne _ c (V0 m c) _ b hb

/-- Such a buffer, unscoped, ends the run at its region-entry contents: it bypasses the region, and the last stretch
    leaves it alone. -/
theorem rest_keeps (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) (b : Ref sig .tc)
    (hs : b.isScoped = false) (hb : ∀ w, Pipeline.arrRef spec0 w ≠ b)
    (hw : ∀ op ∈ (hostOps1 : List (HloOp τ sig (Elt F))), Proc.devRef (τ := τ) .tc b ∉ op.writes) :
    r.2.mem ((c.tc : Thread nD τ).loc b) = V m c b :=
  ((h c).2 b (Pipeline.mem_restRefs_of b hs hb)).trans (tail_keeps m dats c b hb hw)

/-- The frame from a frame run: no argument array is an array of the region or a result of the last stretch, so each
    ends the run at its region-entry contents, which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(rest_keeps m dats r h c main_arg0 rfl (by decide) (hostOps1_writes main_arg0 (by decide) (by decide) (by decide) (by decide) (by decide) (by decide))).trans (V_main_arg0 m c),
      (rest_keeps m dats r h c main_arg1 rfl (by decide) (hostOps1_writes main_arg1 (by decide) (by decide) (by decide) (by decide) (by decide) (by decide))).trans (V_main_arg1 m c),
      (rest_keeps m dats r h c main_arg2 rfl (by decide) (hostOps1_writes main_arg2 (by decide) (by decide) (by decide) (by decide) (by decide) (by decide))).trans (V_main_arg2 m c),
      (rest_keeps m dats r h c main_arg3 rfl (by decide) (hostOps1_writes main_arg3 (by decide) (by decide) (by decide) (by decide) (by decide) (by decide))).trans (V_main_arg3 m c),
      (rest_keeps m dats r h c main_arg4 rfl (by decide) (hostOps1_writes main_arg4 (by decide) (by decide) (by decide) (by decide) (by decide) (by decide))).trans (V_main_arg4 m c),
      (rest_keeps m dats r h c main_arg5 rfl (by decide) (hostOps1_writes main_arg5 (by decide) (by decide) (by decide) (by decide) (by decide) (by decide))).trans (V_main_arg5 m c),
      (rest_keeps m dats r h c main_arg6 rfl (by decide) (hostOps1_writes main_arg6 (by decide) (by decide) (by decide) (by decide) (by decide) (by decide))).trans (V_main_arg6 m c),
      (rest_keeps m dats r h c main_arg7 rfl (by decide) (hostOps1_writes main_arg7 (by decide) (by decide) (by decide) (by decide) (by decide) (by decide))).trans (V_main_arg7 m c),
      (rest_keeps m dats r h c main_arg8 rfl (by decide) (hostOps1_writes main_arg8 (by decide) (by decide) (by decide) (by decide) (by decide) (by decide))).trans (V_main_arg8 m c),
      (rest_keeps m dats r h c main_arg9 rfl (by decide) (hostOps1_writes main_arg9 (by decide) (by decide) (by decide) (by decide) (by decide) (by decide))).trans (V_main_arg9 m c),
      (rest_keeps m dats r h c main_arg10 rfl (by decide) (hostOps1_writes main_arg10 (by decide) (by decide) (by decide) (by decide) (by decide) (by decide))).trans (V_main_arg10 m c),
      (rest_keeps m dats r h c main_arg11 rfl (by decide) (hostOps1_writes main_arg11 (by decide) (by decide) (by decide) (by decide) (by decide) (by decide))).trans (V_main_arg11 m c),
      (rest_keeps m dats r h c main_arg12 rfl (by decide) (hostOps1_writes main_arg12 (by decide) (by decide) (by decide) (by decide) (by decide) (by decide))).trans (V_main_arg12 m c),
      (rest_keeps m dats r h c main_arg13 rfl (by decide) (hostOps1_writes main_arg13 (by decide) (by decide) (by decide) (by decide) (by decide) (by decide))).trans (V_main_arg13 m c),
      (rest_keeps m dats r h c main_arg14 rfl (by decide) (hostOps1_writes main_arg14 (by decide) (by decide) (by decide) (by decide) (by decide) (by decide))).trans (V_main_arg14 m c),
      (rest_keeps m dats r h c main_arg15 rfl (by decide) (hostOps1_writes main_arg15 (by decide) (by decide) (by decide) (by decide) (by decide) (by decide))).trans (V_main_arg15 m c)⟩) h

/-! ## The body's accesses -/

/-- Every load and store of the body goes through the whole-buffer rectangle of its buffer's shape. -/
abbrev r3600x9 : Rect S3600x9 := Rect.unit (s := S3600x9) ![0, 0] S3600x9.size inb_S3600x9_S3600x9_0_0
abbrev r3600x64 : Rect S3600x64 := Rect.unit (s := S3600x64) ![0, 0] S3600x64.size inb_S3600x64_S3600x64_0_0
abbrev r4x12 : Rect S4x12 := Rect.unit (s := S4x12) ![0, 0] S4x12.size inb_S4x12_S4x12_0_0
abbrev r1x12 : Rect S1x12 := Rect.unit (s := S1x12) ![0, 0] S1x12.size inb_S1x12_S1x12_0_0
abbrev r4x128 : Rect S4x128 := Rect.unit (s := S4x128) ![0, 0] S4x128.size inb_S4x128_S4x128_0_0
abbrev r32x128 : Rect S32x128 := Rect.unit (s := S32x128) ![0, 0] S32x128.size inb_S32x128_S32x128_0_0
abbrev r1x128 : Rect S1x128 := Rect.unit (s := S1x128) ![0, 0] S1x128.size inb_S1x128_S1x128_0_0
abbrev r32x1 : Rect S32x1 := Rect.unit (s := S32x1) ![0, 0] S32x1.size inb_S32x1_S32x1_0_0
abbrev r1x1 : Rect S1x1 := Rect.unit (s := S1x1) ![0, 0] S1x1.size inb_S1x1_S1x1_0_0
abbrev r3600x1 : Rect S3600x1 := Rect.unit (s := S3600x1) ![0, 0] S3600x1.size inb_S3600x1_S3600x1_0_0

/-- The whole-buffer rectangles start at the origin. -/
theorem hz : (![0, 0] : Fin 2 → Nat) = fun _ => 0 := funext fun a => by fin_cases a <;> rfl

/-! ## What the body leaves in each output window's buffer -/

/-- Window 12's buffer after the body, from the input windows' blocks: its one store. -/
def out0_12 (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) (x10 : Vec F S32x1 .bf16) (x11 : Vec F S1x1 .f32) : Vec F S3600x1 .f32 :=
  View.canon [⟨r3600x1, k0_pay15 (k0_pay3 (View.ld x0 r3600x9)) (k0_pay5 (View.ld x1 r3600x64)) (k0_pay6 (View.ld x1 r3600x64)) (k0_pay9 (View.ld x0 r3600x9) (View.ld x2 r4x12) (View.ld x3 r4x12) (View.ld x4 r1x12) (View.ld x5 r1x12)) (k0_pay10 (View.ld x0 r3600x9) (View.ld x2 r4x12) (View.ld x3 r4x12) (View.ld x4 r1x12) (View.ld x5 r1x12)) (k0_pay11 (F := F)) (View.ld x6 r4x128) (View.ld x7 r32x128) (View.ld x8 r1x128) (View.ld x9 r1x128) (View.ld x10 r32x1) (View.ld x11 r1x1)⟩]

/-- Window 13's buffer after the body, from the input windows' blocks: its one store. -/
def out0_13 (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) : Vec F S3600x64 .f32 :=
  View.canon [⟨r3600x64, k0_pay1 (k0_pay13 (k0_pay3 (View.ld x0 r3600x9)) (k0_pay5 (View.ld x1 r3600x64)) (k0_pay6 (View.ld x1 r3600x64)) (k0_pay9 (View.ld x0 r3600x9) (View.ld x2 r4x12) (View.ld x3 r4x12) (View.ld x4 r1x12) (View.ld x5 r1x12)) (k0_pay10 (View.ld x0 r3600x9) (View.ld x2 r4x12) (View.ld x3 r4x12) (View.ld x4 r1x12) (View.ld x5 r1x12)) (k0_pay11 (F := F)) (View.ld x6 r4x128) (View.ld x7 r32x128) (View.ld x8 r1x128) (View.ld x9 r1x128)) (k0_pay14 (k0_pay3 (View.ld x0 r3600x9)) (k0_pay5 (View.ld x1 r3600x64)) (k0_pay6 (View.ld x1 r3600x64)) (k0_pay9 (View.ld x0 r3600x9) (View.ld x2 r4x12) (View.ld x3 r4x12) (View.ld x4 r1x12) (View.ld x5 r1x12)) (k0_pay10 (View.ld x0 r3600x9) (View.ld x2 r4x12) (View.ld x3 r4x12) (View.ld x4 r1x12) (View.ld x5 r1x12)) (k0_pay11 (F := F)) (View.ld x6 r4x128) (View.ld x7 r32x128) (View.ld x8 r1x128) (View.ld x9 r1x128))⟩]

/-- The one store fills the buffer, and the loads read whole blocks: window 12's buffer is the body's last payload of the blocks. -/
theorem out0_12_eq (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) (x10 : Vec F S32x1 .bf16) (x11 : Vec F S1x1 .f32) :
    out0_12 x0 x1 x2 x3 x4 x5 x6 x7 x8 x9 x10 x11 = k0_pay15 (k0_pay3 x0) (k0_pay5 x1) (k0_pay6 x1) (k0_pay9 x0 x2 x3 x4 x5) (k0_pay10 x0 x2 x3 x4 x5) (k0_pay11 (F := F)) x6 x7 x8 x9 x10 x11 := by
  unfold out0_12
  rw [View.canon_unit_zero hz]
  simp only [View.ld_unit_zero (S := S3600x9) hz, View.ld_unit_zero (S := S3600x64) hz, View.ld_unit_zero (S := S4x12) hz, View.ld_unit_zero (S := S1x12) hz, View.ld_unit_zero (S := S4x128) hz, View.ld_unit_zero (S := S32x128) hz, View.ld_unit_zero (S := S1x128) hz, View.ld_unit_zero (S := S32x1) hz, View.ld_unit_zero (S := S1x1) hz]

/-- The same for window 13: the two halves of the new state side by side. -/
theorem out0_13_eq (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) :
    out0_13 x0 x1 x2 x3 x4 x5 x6 x7 x8 x9 = k0_pay1 (k0_pay13 (k0_pay3 x0) (k0_pay5 x1) (k0_pay6 x1) (k0_pay9 x0 x2 x3 x4 x5) (k0_pay10 x0 x2 x3 x4 x5) (k0_pay11 (F := F)) x6 x7 x8 x9) (k0_pay14 (k0_pay3 x0) (k0_pay5 x1) (k0_pay6 x1) (k0_pay9 x0 x2 x3 x4 x5) (k0_pay10 x0 x2 x3 x4 x5) (k0_pay11 (F := F)) x6 x7 x8 x9) := by
  unfold out0_13
  rw [View.canon_unit_zero hz]
  simp only [View.ld_unit_zero (S := S3600x9) hz, View.ld_unit_zero (S := S3600x64) hz, View.ld_unit_zero (S := S4x12) hz, View.ld_unit_zero (S := S1x12) hz, View.ld_unit_zero (S := S4x128) hz, View.ld_unit_zero (S := S32x128) hz, View.ld_unit_zero (S := S1x128) hz]

/-- Each output's one store covers its buffer. -/
theorem cover0_12 (p0 : Vec F S3600x1 .f32) (y : S3600x1.Idx) :
    ∃ pc ∈ ([⟨r3600x1, p0⟩] : List (View.Piece (Elt F) S3600x1 .f32)), y ∈ pc.1.set :=
  View.cover_of_tiled [⟨r3600x1, p0⟩] S3600x1.size (by rfl) y
theorem cover0_13 (p0 : Vec F S3600x64 .f32) (y : S3600x64.Idx) :
    ∃ pc ∈ ([⟨r3600x64, p0⟩] : List (View.Piece (Elt F) S3600x64 .f32)), y ∈ pc.1.set :=
  View.cover_of_tiled [⟨r3600x64, p0⟩] S3600x64.size (by rfl) y

/-! ## The body's triple -/

set_option maxHeartbeats 1000000 in
/-- The body on whole staging memrefs, the inputs' at read contents and the outputs' at anything, runs to the
    continuation holding the inputs' as they were and each output's at its one store's value over the inputs'. -/
theorem sound_kernel (c : Dev nD) (E : Set ℕ) (i : grid0.Coords) (arg1 : Memref sig .tc .vmem S3600x9 .f32) (harg1 : arg1.IsWhole) (arg2 : Memref sig .tc .vmem S3600x64 .f32) (harg2 : arg2.IsWhole) (arg3 : Memref sig .tc .vmem S4x12 .bf16) (harg3 : arg3.IsWhole) (arg4 : Memref sig .tc .vmem S4x12 .bf16) (harg4 : arg4.IsWhole) (arg5 : Memref sig .tc .vmem S1x12 .f32) (harg5 : arg5.IsWhole) (arg6 : Memref sig .tc .vmem S1x12 .f32) (harg6 : arg6.IsWhole) (arg7 : Memref sig .tc .vmem S4x128 .bf16) (harg7 : arg7.IsWhole) (arg8 : Memref sig .tc .vmem S32x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S32x1 .bf16) (harg11 : arg11.IsWhole) (arg12 : Memref sig .tc .vmem S1x1 .f32) (harg12 : arg12.IsWhole) (arg13 : Memref sig .tc .vmem S3600x1 .f32) (harg13 : arg13.IsWhole) (arg14 : Memref sig .tc .vmem S3600x64 .f32) (harg14 : arg14.IsWhole)
    (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) (x10 : Vec F S32x1 .bf16) (x11 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The region's proof data -/

/-- The proof data of the region on core `c`: the arrays as the region finds them; after the body at point `t` each
    input's buffer at its block and each output's at its store's value over the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks, so the body's triple applies; the invariant and the
    core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates, and
    every final state has every array of the region at what the proof data's write-backs leave and every other unscoped
    buffer as the last stretch of host operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Frm.run_main' depends on axioms: [propext, Classical.choice, Quot.sound] -/
#guard_msgs in #print axioms run_main

/-- The frame: every argument array ends every run as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.Kernel.Frm

end
-- ==== Proof.EntryI.lean ====
/-
  The buffers' contents when the one region is entered: the arguments as given, every other buffer of @main
  after the host operations that precede the region, in program order (six stretches: the product of the features
  with the convolution's weights and the source row of the edge list; the take of the product's rows at the sources;
  the weighting, the segment sums, the packing of the node arrays and the transposed parameter tables; the two paddings
  of the node axis to a whole number of blocks).
-/
import proofs.«415627_j68650757260096_3_alg».proof.Proof.Gen.KernelIdeal.Launch
import Idealize.ShloMosaic.Lib.Pipeline.FrameSuffix

noncomputable section

namespace Cert.KernelIdeal.Entry

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The host stretches before the region, in order. -/
abbrev pre : List (List (HloOp τ sig (Elt F))) := [hostOps0, hostOps0_1, hostOps0_2, hostOps0_3, hostOps0_4, hostOps0_5]

/-- Core `c`'s buffer contents when the region is entered, as a valuation. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

end Cert.KernelIdeal.Entry

end
-- ==== Proof.FrameI.lean ====
/-
  The frame of the kernel program, for any float instance: the program's one region is entered after six
  stretches of host operations and followed by one more; the region's body loads each input window's whole block,
  and stores one whole-block value into each of the two output windows. Every argument array is left as launched.
-/
import proofs.«415627_j68650757260096_3_alg».proof.Proof.Gen.KernelIdeal.Launch
import proofs.«415627_j68650757260096_3_alg».proof.Proof.Gen.KernelIdeal.Skeleton
import proofs.«415627_j68650757260096_3_alg».proof.Proof.Gen.KernelIdeal.Points
import proofs.«415627_j68650757260096_3_alg».proof.Proof.EntryI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- No operation of this stretch allocates. -/
theorem hostOps0_fresh : (hostOps0 : List (HloOp τ sig (Elt F))).Forall fun op => op.fresh = ∅ := by
  simp only [List.Forall]; repeat' constructor
/-- No operation of this stretch allocates. -/
theorem hostOps0_1_fresh : (hostOps0_1 : List (HloOp τ sig (Elt F))).Forall fun op => op.fresh = ∅ := by
  simp only [List.Forall]; repeat' constructor
/-- No operation of this stretch allocates. -/
theorem hostOps0_2_fresh : (hostOps0_2 : List (HloOp τ sig (Elt F))).Forall fun op => op.fresh = ∅ := by
  simp only [List.Forall]; repeat' constructor
/-- No operation of this stretch allocates. -/
theorem hostOps0_3_fresh : (hostOps0_3 : List (HloOp τ sig (Elt F))).Forall fun op => op.fresh = ∅ := by
  simp only [List.Forall]; repeat' constructor
/-- No operation of this stretch allocates. -/
theorem hostOps0_4_fresh : (hostOps0_4 : List (HloOp τ sig (Elt F))).Forall fun op => op.fresh = ∅ := by
  simp only [List.Forall]; repeat' constructor
/-- No operation of this stretch allocates. -/
theorem hostOps0_5_fresh : (hostOps0_5 : List (HloOp τ sig (Elt F))).Forall fun op => op.fresh = ∅ := by
  simp only [List.Forall]; repeat' constructor
/-- No operation of this stretch allocates. -/
theorem hostOps1_fresh : (hostOps1 : List (HloOp τ sig (Elt F))).Forall fun op => op.fresh = ∅ := by
  simp only [List.Forall]; repeat' constructor

/-- The program is the six stretches of host operations, the region, and the last stretch: it reduces to the region
    continued by the last stretch, the region entered at the contents the six stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    ⟨hostOps0_sub, hostOps0_1_sub, hostOps0_2_sub, hostOps0_3_sub, hostOps0_4_sub, hostOps0_5_sub⟩
    ⟨hostOps0_fresh, hostOps0_1_fresh, hostOps0_2_fresh, hostOps0_3_fresh, hostOps0_4_fresh, hostOps0_5_fresh⟩ main_chain

/-! ## The argument arrays when the region is entered -/

/-- No host operation before the region writes an argument array: each holds its launch contents there. -/
theorem V_main_arg0 (c : Dev nD) : V m c main_arg0 = m ((c : Thread nD τ).loc main_arg0) := by
  dsimp only [V, V0, pre]; simp only [hostOps0, hostOps0_1, hostOps0_2, hostOps0_3, hostOps0_4, hostOps0_5, List.flatten_cons, List.flatten_nil, List.append_nil, List.cons_append, List.nil_append]; after_results
theorem V_main_arg1 (c : Dev nD) : V m c main_arg1 = m ((c : Thread nD τ).loc main_arg1) := by
  dsimp only [V, V0, pre]; simp only [hostOps0, hostOps0_1, hostOps0_2, hostOps0_3, hostOps0_4, hostOps0_5, List.flatten_cons, List.flatten_nil, List.append_nil, List.cons_append, List.nil_append]; after_results
theorem V_main_arg2 (c : Dev nD) : V m c main_arg2 = m ((c : Thread nD τ).loc main_arg2) := by
  dsimp only [V, V0, pre]; simp only [hostOps0, hostOps0_1, hostOps0_2, hostOps0_3, hostOps0_4, hostOps0_5, List.flatten_cons, List.flatten_nil, List.append_nil, List.cons_append, List.nil_append]; after_results
theorem V_main_arg3 (c : Dev nD) : V m c main_arg3 = m ((c : Thread nD τ).loc main_arg3) := by
  dsimp only [V, V0, pre]; simp only [hostOps0, hostOps0_1, hostOps0_2, hostOps0_3, hostOps0_4, hostOps0_5, List.flatten_cons, List.flatten_nil, List.append_nil, List.cons_append, List.nil_append]; after_results
theorem V_main_arg4 (c : Dev nD) : V m c main_arg4 = m ((c : Thread nD τ).loc main_arg4) := by
  dsimp only [V, V0, pre]; simp only [hostOps0, hostOps0_1, hostOps0_2, hostOps0_3, hostOps0_4, hostOps0_5, List.flatten_cons, List.flatten_nil, List.append_nil, List.cons_append, List.nil_append]; after_results
theorem V_main_arg5 (c : Dev nD) : V m c main_arg5 = m ((c : Thread nD τ).loc main_arg5) := by
  dsimp only [V, V0, pre]; simp only [hostOps0, hostOps0_1, hostOps0_2, hostOps0_3, hostOps0_4, hostOps0_5, List.flatten_cons, List.flatten_nil, List.append_nil, List.cons_append, List.nil_append]; after_results
theorem V_main_arg6 (c : Dev nD) : V m c main_arg6 = m ((c : Thread nD τ).loc main_arg6) := by
  dsimp only [V, V0, pre]; simp only [hostOps0, hostOps0_1, hostOps0_2, hostOps0_3, hostOps0_4, hostOps0_5, List.flatten_cons, List.flatten_nil, List.append_nil, List.cons_append, List.nil_append]; after_results
theorem V_main_arg7 (c : Dev nD) : V m c main_arg7 = m ((c : Thread nD τ).loc main_arg7) := by
  dsimp only [V, V0, pre]; simp only [hostOps0, hostOps0_1, hostOps0_2, hostOps0_3, hostOps0_4, hostOps0_5, List.flatten_cons, List.flatten_nil, List.append_nil, List.cons_append, List.nil_append]; after_results
theorem V_main_arg8 (c : Dev nD) : V m c main_arg8 = m ((c : Thread nD τ).loc main_arg8) := by
  dsimp only [V, V0, pre]; simp only [hostOps0, hostOps0_1, hostOps0_2, hostOps0_3, hostOps0_4, hostOps0_5, List.flatten_cons, List.flatten_nil, List.append_nil, List.cons_append, List.nil_append]; after_results
theorem V_main_arg9 (c : Dev nD) : V m c main_arg9 = m ((c : Thread nD τ).loc main_arg9) := by
  dsimp only [V, V0, pre]; simp only [hostOps0, hostOps0_1, hostOps0_2, hostOps0_3, hostOps0_4, hostOps0_5, List.flatten_cons, List.flatten_nil, List.append_nil, List.cons_append, List.nil_append]; after_results
theorem V_main_arg10 (c : Dev nD) : V m c main_arg10 = m ((c : Thread nD τ).loc main_arg10) := by
  dsimp only [V, V0, pre]; simp only [hostOps0, hostOps0_1, hostOps0_2, hostOps0_3, hostOps0_4, hostOps0_5, List.flatten_cons, List.flatten_nil, List.append_nil, List.cons_append, List.nil_append]; after_results
theorem V_main_arg11 (c : Dev nD) : V m c main_arg11 = m ((c : Thread nD τ).loc main_arg11) := by
  dsimp only [V, V0, pre]; simp only [hostOps0, hostOps0_1, hostOps0_2, hostOps0_3, hostOps0_4, hostOps0_5, List.flatten_cons, List.flatten_nil, List.append_nil, List.cons_append, List.nil_append]; after_results
theorem V_main_arg12 (c : Dev nD) : V m c main_arg12 = m ((c : Thread nD τ).loc main_arg12) := by
  dsimp only [V, V0, pre]; simp only [hostOps0, hostOps0_1, hostOps0_2, hostOps0_3, hostOps0_4, hostOps0_5, List.flatten_cons, List.flatten_nil, List.append_nil, List.cons_append, List.nil_append]; after_results
theorem V_main_arg13 (c : Dev nD) : V m c main_arg13 = m ((c : Thread nD τ).loc main_arg13) := by
  dsimp only [V, V0, pre]; simp only [hostOps0, hostOps0_1, hostOps0_2, hostOps0_3, hostOps0_4, hostOps0_5, List.flatten_cons, List.flatten_nil, List.append_nil, List.cons_append, List.nil_append]; after_results
theorem V_main_arg14 (c : Dev nD) : V m c main_arg14 = m ((c : Thread nD τ).loc main_arg14) := by
  dsimp only [V, V0, pre]; simp only [hostOps0, hostOps0_1, hostOps0_2, hostOps0_3, hostOps0_4, hostOps0_5, List.flatten_cons, List.flatten_nil, List.append_nil, List.cons_append, List.nil_append]; after_results
theorem V_main_arg15 (c : Dev nD) : V m c main_arg15 = m ((c : Thread nD τ).loc main_arg15) := by
  dsimp only [V, V0, pre]; simp only [hostOps0, hostOps0_1, hostOps0_2, hostOps0_3, hostOps0_4, hostOps0_5, List.flatten_cons, List.flatten_nil, List.append_nil, List.cons_append, List.nil_append]; after_results

/-! ## The stretch after the region -/

/-- Its operations touch the region's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each writes its own result buffer only, and no result buffer of the stretch is an array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.unary_writes, Finset.mem_singleton] <;> exact StableHlo.devRef_ne_of_ne (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved, and the body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved, and the body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved, and the body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved, and the body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched its block index has not moved, and the body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched its block index has not moved, and the body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched its block index has not moved, and the body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- No operation of the last stretch writes a buffer other than the stretch's six results. -/
theorem hostOps1_writes (b : Ref sig .tc) (h0 : b ≠ main_v38) (h1 : b ≠ main_v39) (h2 : b ≠ main_v40) (h3 : b ≠ main_v41)
    (h4 : b ≠ main_v42) (h5 : b ≠ main_v43) :
    ∀ op ∈ (hostOps1 : List (HloOp τ sig (Elt F))), Proc.devRef (τ := τ) .tc b ∉ op.writes := by
  intro op hop
  simp only [hostOps1, List.mem_cons, List.mem_nil_iff, or_false] at hop
  rcases hop with rfl | rfl | rfl | rfl | rfl | rfl <;> simp only [StableHlo.unary_writes, Finset.mem_singleton] <;>
    apply StableHlo.devRef_ne_of_ne <;> assumption

/-- A buffer that is no array of the region and no result of the last stretch holds, after that stretch, what it held when
    the region was entered. -/
theorem tail_keeps (dats : (p : Fin 1) → (c : Dev nD) → Dat τ (Elt F) Unit ℕ (UR sig nD τ) ℕ (cfgs p) c) (c : Dev nD) (b : Ref sig .tc)
    (hb : ∀ w, Pipeline.arrRef spec0 w ≠ b)
    (hw : ∀ op ∈ (hostOps1 : List (HloOp τ sig (Elt F))), Proc.devRef (τ := τ) .tc b ∉ op.writes) :
    Pipeline.afterTail₀ cfgs dats 0 (V0 m) [hostOps1] c b = V m c b := by
  unfold Pipeline.afterTail₀
  rw [StableHlo.after_of_forall_not_mem _ _ (fun op hop => hw op (by simpa using hop))]
  exact Pipeline.withArrays_of_ne _ c (V0 m c) _ b hb

/-- Such a buffer, unscoped, ends the run at its region-entry contents: it bypasses the region, and the last stretch
    leaves it alone. -/
theorem rest_keeps (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) (b : Ref sig .tc)
    (hs : b.isScoped = false) (hb : ∀ w, Pipeline.arrRef spec0 w ≠ b)
    (hw : ∀ op ∈ (hostOps1 : List (HloOp τ sig (Elt F))), Proc.devRef (τ := τ) .tc b ∉ op.writes) :
    r.2.mem ((c.tc : Thread nD τ).loc b) = V m c b :=
  ((h c).2 b (Pipeline.mem_restRefs_of b hs hb)).trans (tail_keeps m dats c b hb hw)

/-- The frame from a frame run: no argument array is an array of the region or a result of the last stretch, so each
    ends the run at its region-entry contents, which are its launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(rest_keeps m dats r h c main_arg0 rfl (by decide) (hostOps1_writes main_arg0 (by decide) (by decide) (by decide) (by decide) (by decide) (by decide))).trans (V_main_arg0 m c),
      (rest_keeps m dats r h c main_arg1 rfl (by decide) (hostOps1_writes main_arg1 (by decide) (by decide) (by decide) (by decide) (by decide) (by decide))).trans (V_main_arg1 m c),
      (rest_keeps m dats r h c main_arg2 rfl (by decide) (hostOps1_writes main_arg2 (by decide) (by decide) (by decide) (by decide) (by decide) (by decide))).trans (V_main_arg2 m c),
      (rest_keeps m dats r h c main_arg3 rfl (by decide) (hostOps1_writes main_arg3 (by decide) (by decide) (by decide) (by decide) (by decide) (by decide))).trans (V_main_arg3 m c),
      (rest_keeps m dats r h c main_arg4 rfl (by decide) (hostOps1_writes main_arg4 (by decide) (by decide) (by decide) (by decide) (by decide) (by decide))).trans (V_main_arg4 m c),
      (rest_keeps m dats r h c main_arg5 rfl (by decide) (hostOps1_writes main_arg5 (by decide) (by decide) (by decide) (by decide) (by decide) (by decide))).trans (V_main_arg5 m c),
      (rest_keeps m dats r h c main_arg6 rfl (by decide) (hostOps1_writes main_arg6 (by decide) (by decide) (by decide) (by decide) (by decide) (by decide))).trans (V_main_arg6 m c),
      (rest_keeps m dats r h c main_arg7 rfl (by decide) (hostOps1_writes main_arg7 (by decide) (by decide) (by decide) (by decide) (by decide) (by decide))).trans (V_main_arg7 m c),
      (rest_keeps m dats r h c main_arg8 rfl (by decide) (hostOps1_writes main_arg8 (by decide) (by decide) (by decide) (by decide) (by decide) (by decide))).trans (V_main_arg8 m c),
      (rest_keeps m dats r h c main_arg9 rfl (by decide) (hostOps1_writes main_arg9 (by decide) (by decide) (by decide) (by decide) (by decide) (by decide))).trans (V_main_arg9 m c),
      (rest_keeps m dats r h c main_arg10 rfl (by decide) (hostOps1_writes main_arg10 (by decide) (by decide) (by decide) (by decide) (by decide) (by decide))).trans (V_main_arg10 m c),
      (rest_keeps m dats r h c main_arg11 rfl (by decide) (hostOps1_writes main_arg11 (by decide) (by decide) (by decide) (by decide) (by decide) (by decide))).trans (V_main_arg11 m c),
      (rest_keeps m dats r h c main_arg12 rfl (by decide) (hostOps1_writes main_arg12 (by decide) (by decide) (by decide) (by decide) (by decide) (by decide))).trans (V_main_arg12 m c),
      (rest_keeps m dats r h c main_arg13 rfl (by decide) (hostOps1_writes main_arg13 (by decide) (by decide) (by decide) (by decide) (by decide) (by decide))).trans (V_main_arg13 m c),
      (rest_keeps m dats r h c main_arg14 rfl (by decide) (hostOps1_writes main_arg14 (by decide) (by decide) (by decide) (by decide) (by decide) (by decide))).trans (V_main_arg14 m c),
      (rest_keeps m dats r h c main_arg15 rfl (by decide) (hostOps1_writes main_arg15 (by decide) (by decide) (by decide) (by decide) (by decide) (by decide))).trans (V_main_arg15 m c)⟩) h

/-! ## The body's accesses -/

/-- Every load and store of the body goes through the whole-buffer rectangle of its buffer's shape. -/
abbrev r3600x9 : Rect S3600x9 := Rect.unit (s := S3600x9) ![0, 0] S3600x9.size inb_S3600x9_S3600x9_0_0
abbrev r3600x64 : Rect S3600x64 := Rect.unit (s := S3600x64) ![0, 0] S3600x64.size inb_S3600x64_S3600x64_0_0
abbrev r4x12 : Rect S4x12 := Rect.unit (s := S4x12) ![0, 0] S4x12.size inb_S4x12_S4x12_0_0
abbrev r1x12 : Rect S1x12 := Rect.unit (s := S1x12) ![0, 0] S1x12.size inb_S1x12_S1x12_0_0
abbrev r4x128 : Rect S4x128 := Rect.unit (s := S4x128) ![0, 0] S4x128.size inb_S4x128_S4x128_0_0
abbrev r32x128 : Rect S32x128 := Rect.unit (s := S32x128) ![0, 0] S32x128.size inb_S32x128_S32x128_0_0
abbrev r1x128 : Rect S1x128 := Rect.unit (s := S1x128) ![0, 0] S1x128.size inb_S1x128_S1x128_0_0
abbrev r32x1 : Rect S32x1 := Rect.unit (s := S32x1) ![0, 0] S32x1.size inb_S32x1_S32x1_0_0
abbrev r1x1 : Rect S1x1 := Rect.unit (s := S1x1) ![0, 0] S1x1.size inb_S1x1_S1x1_0_0
abbrev r3600x1 : Rect S3600x1 := Rect.unit (s := S3600x1) ![0, 0] S3600x1.size inb_S3600x1_S3600x1_0_0

/-- The whole-buffer rectangles start at the origin. -/
theorem hz : (![0, 0] : Fin 2 → Nat) = fun _ => 0 := funext fun a => by fin_cases a <;> rfl

/-! ## What the body leaves in each output window's buffer -/

/-- Window 12's buffer after the body, from the input windows' blocks: its one store. -/
def out0_12 (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) (x10 : Vec F S32x1 .bf16) (x11 : Vec F S1x1 .f32) : Vec F S3600x1 .f32 :=
  View.canon [⟨r3600x1, k0_pay15 (k0_pay3 (View.ld x0 r3600x9)) (k0_pay5 (View.ld x1 r3600x64)) (k0_pay6 (View.ld x1 r3600x64)) (k0_pay9 (View.ld x0 r3600x9) (View.ld x2 r4x12) (View.ld x3 r4x12) (View.ld x4 r1x12) (View.ld x5 r1x12)) (k0_pay10 (View.ld x0 r3600x9) (View.ld x2 r4x12) (View.ld x3 r4x12) (View.ld x4 r1x12) (View.ld x5 r1x12)) (k0_pay11 (F := F)) (View.ld x6 r4x128) (View.ld x7 r32x128) (View.ld x8 r1x128) (View.ld x9 r1x128) (View.ld x10 r32x1) (View.ld x11 r1x1)⟩]

/-- Window 13's buffer after the body, from the input windows' blocks: its one store. -/
def out0_13 (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) : Vec F S3600x64 .f32 :=
  View.canon [⟨r3600x64, k0_pay1 (k0_pay13 (k0_pay3 (View.ld x0 r3600x9)) (k0_pay5 (View.ld x1 r3600x64)) (k0_pay6 (View.ld x1 r3600x64)) (k0_pay9 (View.ld x0 r3600x9) (View.ld x2 r4x12) (View.ld x3 r4x12) (View.ld x4 r1x12) (View.ld x5 r1x12)) (k0_pay10 (View.ld x0 r3600x9) (View.ld x2 r4x12) (View.ld x3 r4x12) (View.ld x4 r1x12) (View.ld x5 r1x12)) (k0_pay11 (F := F)) (View.ld x6 r4x128) (View.ld x7 r32x128) (View.ld x8 r1x128) (View.ld x9 r1x128)) (k0_pay14 (k0_pay3 (View.ld x0 r3600x9)) (k0_pay5 (View.ld x1 r3600x64)) (k0_pay6 (View.ld x1 r3600x64)) (k0_pay9 (View.ld x0 r3600x9) (View.ld x2 r4x12) (View.ld x3 r4x12) (View.ld x4 r1x12) (View.ld x5 r1x12)) (k0_pay10 (View.ld x0 r3600x9) (View.ld x2 r4x12) (View.ld x3 r4x12) (View.ld x4 r1x12) (View.ld x5 r1x12)) (k0_pay11 (F := F)) (View.ld x6 r4x128) (View.ld x7 r32x128) (View.ld x8 r1x128) (View.ld x9 r1x128))⟩]

/-- The one store fills the buffer, and the loads read whole blocks: window 12's buffer is the body's last payload of the blocks. -/
theorem out0_12_eq (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) (x10 : Vec F S32x1 .bf16) (x11 : Vec F S1x1 .f32) :
    out0_12 x0 x1 x2 x3 x4 x5 x6 x7 x8 x9 x10 x11 = k0_pay15 (k0_pay3 x0) (k0_pay5 x1) (k0_pay6 x1) (k0_pay9 x0 x2 x3 x4 x5) (k0_pay10 x0 x2 x3 x4 x5) (k0_pay11 (F := F)) x6 x7 x8 x9 x10 x11 := by
  unfold out0_12
  rw [View.canon_unit_zero hz]
  simp only [View.ld_unit_zero (S := S3600x9) hz, View.ld_unit_zero (S := S3600x64) hz, View.ld_unit_zero (S := S4x12) hz, View.ld_unit_zero (S := S1x12) hz, View.ld_unit_zero (S := S4x128) hz, View.ld_unit_zero (S := S32x128) hz, View.ld_unit_zero (S := S1x128) hz, View.ld_unit_zero (S := S32x1) hz, View.ld_unit_zero (S := S1x1) hz]

/-- The same for window 13: the two halves of the new state side by side. -/
theorem out0_13_eq (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) :
    out0_13 x0 x1 x2 x3 x4 x5 x6 x7 x8 x9 = k0_pay1 (k0_pay13 (k0_pay3 x0) (k0_pay5 x1) (k0_pay6 x1) (k0_pay9 x0 x2 x3 x4 x5) (k0_pay10 x0 x2 x3 x4 x5) (k0_pay11 (F := F)) x6 x7 x8 x9) (k0_pay14 (k0_pay3 x0) (k0_pay5 x1) (k0_pay6 x1) (k0_pay9 x0 x2 x3 x4 x5) (k0_pay10 x0 x2 x3 x4 x5) (k0_pay11 (F := F)) x6 x7 x8 x9) := by
  unfold out0_13
  rw [View.canon_unit_zero hz]
  simp only [View.ld_unit_zero (S := S3600x9) hz, View.ld_unit_zero (S := S3600x64) hz, View.ld_unit_zero (S := S4x12) hz, View.ld_unit_zero (S := S1x12) hz, View.ld_unit_zero (S := S4x128) hz, View.ld_unit_zero (S := S32x128) hz, View.ld_unit_zero (S := S1x128) hz]

/-- Each output's one store covers its buffer. -/
theorem cover0_12 (p0 : Vec F S3600x1 .f32) (y : S3600x1.Idx) :
    ∃ pc ∈ ([⟨r3600x1, p0⟩] : List (View.Piece (Elt F) S3600x1 .f32)), y ∈ pc.1.set :=
  View.cover_of_tiled [⟨r3600x1, p0⟩] S3600x1.size (by rfl) y
theorem cover0_13 (p0 : Vec F S3600x64 .f32) (y : S3600x64.Idx) :
    ∃ pc ∈ ([⟨r3600x64, p0⟩] : List (View.Piece (Elt F) S3600x64 .f32)), y ∈ pc.1.set :=
  View.cover_of_tiled [⟨r3600x64, p0⟩] S3600x64.size (by rfl) y

/-! ## The body's triple -/

set_option maxHeartbeats 1000000 in
/-- The body on whole staging memrefs, the inputs' at read contents and the outputs' at anything, runs to the
    continuation holding the inputs' as they were and each output's at its one store's value over the inputs'. -/
theorem sound_kernel (c : Dev nD) (E : Set ℕ) (i : grid0.Coords) (arg1 : Memref sig .tc .vmem S3600x9 .f32) (harg1 : arg1.IsWhole) (arg2 : Memref sig .tc .vmem S3600x64 .f32) (harg2 : arg2.IsWhole) (arg3 : Memref sig .tc .vmem S4x12 .bf16) (harg3 : arg3.IsWhole) (arg4 : Memref sig .tc .vmem S4x12 .bf16) (harg4 : arg4.IsWhole) (arg5 : Memref sig .tc .vmem S1x12 .f32) (harg5 : arg5.IsWhole) (arg6 : Memref sig .tc .vmem S1x12 .f32) (harg6 : arg6.IsWhole) (arg7 : Memref sig .tc .vmem S4x128 .bf16) (harg7 : arg7.IsWhole) (arg8 : Memref sig .tc .vmem S32x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S32x1 .bf16) (harg11 : arg11.IsWhole) (arg12 : Memref sig .tc .vmem S1x1 .f32) (harg12 : arg12.IsWhole) (arg13 : Memref sig .tc .vmem S3600x1 .f32) (harg13 : arg13.IsWhole) (arg14 : Memref sig .tc .vmem S3600x64 .f32) (harg14 : arg14.IsWhole)
    (x0 : Vec F S3600x9 .f32) (x1 : Vec F S3600x64 .f32) (x2 : Vec F S4x12 .bf16) (x3 : Vec F S4x12 .bf16) (x4 : Vec F S1x12 .f32) (x5 : Vec F S1x12 .f32) (x6 : Vec F S4x128 .bf16) (x7 : Vec F S32x128 .bf16) (x8 : Vec F S1x128 .f32) (x9 : Vec F S1x128 .f32) (x10 : Vec F S32x1 .bf16) (x11 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The region's proof data -/

/-- The proof data of the region on core `c`: the arrays as the region finds them; after the body at point `t` each
    input's buffer at its block and each output's at its store's value over the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' memrefs hold their blocks, so the body's triple applies; the invariant and the
    core's owed waits pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program on the TensorCores terminates, and
    every final state has every array of the region at what the proof data's write-backs leave and every other unscoped
    buffer as the last stretch of host operations leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Frm.run_main' depends on axioms: [propext, Classical.choice, Quot.sound] -/
#guard_msgs in #print axioms run_main

/-- The frame: every argument array ends every run as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.KernelIdeal.Frm

end
-- ==== Proof.Spec.lean ====
/-
  The dense part of the recurrent graph layer AT ONE NODE, as plain functions on the extended reals.
  A node carries its features `xr` (4), the sum `sr` (4) and the count `cn` of the weighted messages that reached it,
  and its previous hidden and cell states `hr`, `cr` (32 each). The parameters are read in the layout the arguments
  have: `wih j k`, `whh j k` are the gated unit's two 12×4 tables with their biases `bih`, `bhh`; `lwi j k` (128×4),
  `lwh j k` (128×32), `lbi`, `lbh` the long-short-term cell's; `lw k`, `lb` the linear head's.
    mean of the messages      agg k   = sr k / max cn 1
    the two affine maps       gi j    = Σ_k agg k · wih j k + bih j ,   gh j = Σ_k xr k · whh j k + bhh j
    reset, update, candidate  rg k    = σ (gi k + gh k) ,  zg k = σ (gi (4+k) + gh (4+k)) ,  ng k = tanh (gi (8+k) + rg k · gh (8+k))
    the gated unit's output   hc k    = (1 − zg k) · ng k + zg k · xr k
    the cell's four gates     gates j = ((Σ_k hc k · lwi j k + lbi j) + Σ_k hr k · lwh j k) + lbh j
    new cell and hidden       cnew j  = σ (gates (32+j)) · cr j + σ (gates j) · tanh (gates (64+j)) ,
                              hnew j  = σ (gates (96+j)) · tanh (cnew j)
    the head                  out     = Σ_k max (hnew k) 0 · lw k + lb
  with σ x = 1 / (1 + e^(−x)). The constants one and zero are kept as the float words both programs print.
-/
import Idealize.ShloMosaic.PureOps.Ideal
import Idealize.ShloMosaic.Lib.ValueIdx

noncomputable section

open scoped BigOperators

namespace Cert.RowSpec

open Idealize.ShloMosaic

/-- The float word of 1.0, read on the extended reals. -/
abbrev one : EReal := Ideal.ofBits .f32 0x3F800000#32
/-- The float word of 0.0, read on the extended reals. -/
abbrev zero : EReal := Ideal.ofBits .f32 0x00000000#32

/-- The word 1.0 denotes the real 1. -/
theorem one_eq : one = 1 := by
  simp [one, Ideal.ofBits, Ideal.ieee, -EReal.coe_mul]; norm_num

/-- Column `o + k` of a table with `n` columns. -/
abbrev sh {n m : Nat} (o : Nat) (k : Fin m) (h : o + m ≤ n) : Fin n := ⟨o + k.val, by have := k.isLt; omega⟩

variable (xr sr : Fin 4 → EReal) (cn : EReal) (hr cr : Fin 32 → EReal)
  (wih whh : Fin 12 → Fin 4 → EReal) (bih bhh : Fin 12 → EReal)
  (lwi : Fin 128 → Fin 4 → EReal) (lwh : Fin 128 → Fin 32 → EReal) (lbi lbh : Fin 128 → EReal)
  (lw : Fin 32 → EReal) (lb : EReal)

/-- The mean of the messages that reached the node (a node nothing reached divides by one). -/
def agg (k : Fin 4) : EReal := Ideal.div (sr k) (max cn one)

/-- The gated unit's affine map of the aggregated messages. -/
def gi (j : Fin 12) : EReal := (∑ k : Fin 4, agg sr cn k * wih j k) + bih j
/-- The gated unit's affine map of the node's own features. -/
def gh (j : Fin 12) : EReal := (∑ k : Fin 4, xr k * whh j k) + bhh j

/-- The reset gate. -/
def rg (k : Fin 4) : EReal :=
  Ideal.logistic (gi sr cn wih bih (sh 0 k (by decide)) + gh xr whh bhh (sh 0 k (by decide)))
/-- The update gate. -/
def zg (k : Fin 4) : EReal :=
  Ideal.logistic (gi sr cn wih bih (sh 4 k (by decide)) + gh xr whh bhh (sh 4 k (by decide)))
/-- The candidate state. -/
def ng (k : Fin 4) : EReal :=
  Ideal.tanh (gi sr cn wih bih (sh 8 k (by decide)) + rg xr sr cn wih whh bih bhh k * gh xr whh bhh (sh 8 k (by decide)))
/-- The gated unit's output: the candidate and the node's features mixed by the update gate. -/
def hc (k : Fin 4) : EReal :=
  (one - zg xr sr cn wih whh bih bhh k) * ng xr sr cn wih whh bih bhh k + zg xr sr cn wih whh bih bhh k * xr k

/-- The cell's four gates before their squashing, 32 columns each (input, forget, candidate, output). -/
def gates (j : Fin 128) : EReal :=
  (((∑ k : Fin 4, hc xr sr cn wih whh bih bhh k * lwi j k) + lbi j) + ∑ k : Fin 32, hr k * lwh j k) + lbh j

/-- The new cell state. -/
def cnew (j : Fin 32) : EReal :=
  Ideal.logistic (gates xr sr cn hr wih whh bih bhh lwi lwh lbi lbh (sh 32 j (by decide))) * cr j
    + Ideal.logistic (gates xr sr cn hr wih whh bih bhh lwi lwh lbi lbh (sh 0 j (by decide)))
      * Ideal.tanh (gates xr sr cn hr wih whh bih bhh lwi lwh lbi lbh (sh 64 j (by decide)))
/-- The new hidden state. -/
def hnew (j : Fin 32) : EReal :=
  Ideal.logistic (gates xr sr cn hr wih whh bih bhh lwi lwh lbi lbh (sh 96 j (by decide)))
    * Ideal.tanh (cnew xr sr cn hr cr wih whh bih bhh lwi lwh lbi lbh j)
/-- The head: the rectified hidden state against the head's weights, plus its bias. -/
def out : EReal :=
  (∑ k : Fin 32, max (hnew xr sr cn hr cr wih whh bih bhh lwi lwh lbi lbh k) zero * lw k) + lb

end Cert.RowSpec

end
-- ==== Proof.HostTerms.lean ====
/-
  The host operations that precede the kernel's region, as named terms of the arguments (for any float instance).
  In order: the product `x · W` of the node features with the convolution's weights; for every edge the product's row
  at the edge's source (negative indices wrapped by the number of nodes, rows whose wrapped index is no node number
  filled with the fill word), scaled by the edge's weight; these rows with a fifth column of ones, summed per
  destination node in ONE segment sum (columns 0…3: the weighted messages that reached the node; column 4: how many
  edges reached it); the node arrays packed side by side (features | message sums | count, and hidden | cell) and
  padded with 1600 zero rows to 56 blocks of 3600.
-/
import proofs.«415627_j68650757260096_3_alg».proof.Proof.EntryI
import proofs.«415627_j68650757260096_3_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.HostTerms

open Cert.KernelIdeal Cert.KernelIdeal.Gen
open Idealize.ShloMosaic Idealize.ShloMosaic.TcCoe Idealize.ShloMosaic.ValueIdx Idealize.ShloMosaic.StableHlo
open Idealize.SL Idealize.SL.Sem

/-! ## The prefix as named terms -/

section Terms

variable {F : FTy → Type} [FloatOps F]
variable (x0 : (⟨S200000x4, .f32⟩ : BufTy).Contents (Elt F)) (x1 : (⟨S2x12800000, .i32⟩ : BufTy).Contents (Elt F))
  (x2 : (⟨S12800000, .f32⟩ : BufTy).Contents (Elt F)) (x5 : (⟨S4x4, .f32⟩ : BufTy).Contents (Elt F))

/-- The edges' source indices: row 0 of the edge list. -/
def srcRow : (⟨S12800000, .i32⟩ : BufTy).Contents (Elt F) :=
  shapeCast S12800000 (extractStridedSlice S1x12800000 ![0, 0] x1 slices_S2x12800000_S1x12800000_0_0) shapeCasts_S1x12800000_S12800000
/-- The edges' destination indices: row 1 of the edge list. -/
def dstRow : (⟨S12800000, .i32⟩ : BufTy).Contents (Elt F) :=
  shapeCast S12800000 (extractStridedSlice S1x12800000 ![1, 0] x1 slices_S2x12800000_S1x12800000_1_0) shapeCasts_S1x12800000_S12800000
/-- The node features times the convolution's weights. -/
def prod : (⟨S200000x4, .f32⟩ : BufTy).Contents (Elt F) := Host.dotGeneral dot_S200000x4_S4x4_S200000x4_1_0_0_1_n_n none x0 x5
/-- The source indices with the number of nodes added where they are negative. -/
def wrapped : (⟨S12800000, .i32⟩ : BufTy).Contents (Elt F) :=
  select (cmpi .slt (srcRow (F := F) x1) (broadcastInDim S12800000 ![] bcast_S_S12800000 (constantI S_ 32 0#32)))
    (addi (srcRow (F := F) x1) (broadcastInDim S12800000 ![] bcast_S_S12800000 (constantI S_ 32 200000#32))) (srcRow (F := F) x1)
/-- The same as a column of start indices. -/
def startIdx : (⟨S12800000x1, .i32⟩ : BufTy).Contents (Elt F) := broadcastInDim S12800000x1 ![0] bcast_S12800000_S12800000x1_0 (wrapped (F := F) x1)
/-- Per edge: is the wrapped source a node number (at least 0 and at most 199999)? -/
def inRange : (⟨S12800000, .i1⟩ : BufTy).Contents (Elt F) :=
  Host.reduce IntOp.andi
    (andi (cmpi .sge (startIdx (F := F) x1) (broadcastInDim S12800000x1 ![] bcast_S_S12800000x1 (constantI S_ 32 0#32)))
      (cmpi .sle (startIdx (F := F) x1) (broadcastInDim S12800000x1 ![0, 1] bcast_S1x1_S12800000x1_0_1 (broadcastInDim S1x1 ![1] bcast_S1_S1x1_1 (constantI S1 32 199999#32)))))
    (constantI S_ 1 1#1) reducesTo_S12800000x1_S12800000_d1 h_S_
/-- The product's rows at the start indices (the gather clamps an index that is no row). -/
def gathered : (⟨S12800000x4, .f32⟩ : BufTy).Contents (Elt F) :=
  Host.gather gather_S200000x4_S12800000x1_S12800000x4_1_0_n_n_0_1_14 (prod (F := F) x0 x5) (startIdx (F := F) x1)
/-- The taken rows: the gathered row where the index is a node number, the fill word elsewhere. -/
def taken : (⟨S12800000x4, .f32⟩ : BufTy).Contents (Elt F) :=
  select (broadcastInDim S12800000x4 ![0] bcast_S12800000_S12800000x4_0 (inRange (F := F) x1)) (gathered (F := F) x0 x1 x5)
    (broadcastInDim S12800000x4 ![] bcast_S_S12800000x4 (constant (F := F) S_ .f32 0x7FC00000#32))
/-- The messages: the taken rows scaled by the edge weights. -/
def msgs : (⟨S12800000x4, .f32⟩ : BufTy).Contents (Elt F) :=
  mulf (taken (F := F) x0 x1 x5) (broadcastInDim S12800000x4 ![0, 1] bcast_S12800000x1_S12800000x4_0_1 (broadcastInDim S12800000x1 ![0] bcast_S12800000_S12800000x1_0 x2))
/-- The messages with a fifth column of ones. -/
def payload5 : (⟨S12800000x5, .f32⟩ : BufTy).Contents (Elt F) :=
  concatenate S12800000x5 1 [⟨S12800000x4, msgs x0 x1 x2 x5⟩, ⟨S12800000x1, broadcastInDim S12800000x1 ![] bcast_S_S12800000x1 (constant (F := F) S_ .f32 0x3F800000#32)⟩]
    concatenates_S12800000x4_S12800000x1_S12800000x5_d1
/-- The 5-column rows summed per destination node. -/
def sums5 : (⟨S200000x5, .f32⟩ : BufTy).Contents (Elt F) :=
  Host.scatterAdd scatter_S200000x5_S12800000x1_S12800000x5_1_0_0_1
    (broadcastInDim S200000x5 ![] bcast_S_S200000x5 (constant (F := F) S_ .f32 0x00000000#32))
    (broadcastInDim S12800000x1 ![0] bcast_S12800000_S12800000x1_0 (dstRow (F := F) x1)) (payload5 (F := F) x0 x1 x2 x5)
/-- Features | message sums | count, side by side. -/
def packed9 : (⟨S200000x9, .f32⟩ : BufTy).Contents (Elt F) :=
  concatenate S200000x9 1 [⟨S200000x4, x0⟩, ⟨S200000x4, extractStridedSlice S200000x4 ![0, 0] (sums5 (F := F) x0 x1 x2 x5) slices_S200000x5_S200000x4_0_0⟩,
      ⟨S200000x1, extractStridedSlice S200000x1 ![0, 4] (sums5 (F := F) x0 x1 x2 x5) slices_S200000x5_S200000x1_0_4⟩]
    concatenates_S200000x4_S200000x4_S200000x1_S200000x9_d1
/-- The same padded with 1600 rows of the zero word. -/
def padded9 : (⟨S201600x9, .f32⟩ : BufTy).Contents (Elt F) :=
  pad S201600x9 ![0, 0] ![1600, 0] ![0, 0] (packed9 (F := F) x0 x1 x2 x5) (sitofp (F := F) .f32 (constantI S_ 32 0#32)) pads_S200000x9_S201600x9_016000_000 h_S_

variable (x3 x4 : (⟨S1x200000x32, .f32⟩ : BufTy).Contents (Elt F))

/-- Hidden | cell states side by side, padded with 1600 rows of the zero word. -/
def padded64 : (⟨S201600x64, .f32⟩ : BufTy).Contents (Elt F) :=
  pad S201600x64 ![0, 0] ![1600, 0] ![0, 0]
    (concatenate S200000x64 1 [⟨S200000x32, shapeCast S200000x32 x3 shapeCasts_S1x200000x32_S200000x32⟩, ⟨S200000x32, shapeCast S200000x32 x4 shapeCasts_S1x200000x32_S200000x32⟩]
      concatenates_S200000x32_S200000x32_S200000x64_d1)
    (sitofp (F := F) .f32 (constantI S_ 32 0#32)) pads_S200000x64_S201600x64_016000_000 h_S_

end Terms

end Cert.KernelIdeal.HostTerms

end
-- ==== Proof.LibNary3.lean ====
/-
  A host operation over a LITERAL family of three references (a three-piece concatenate) leaves at its result
  buffer its function of the three operands' contents, each AT ITS OWN REFERENCE — so that the contents of the operands,
  themselves results of earlier operations, can go on being rewritten (under the binder `fun k => F (![x, a, b] k)` the
  reference is no literal and no result lemma applies). The library states this for four references; this is the
  same statement for three, with the rewriting loop that uses it before the general one.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type} {x a b y : Ref sig .tc}

/-- The result of a three-operand host operation, the operands' contents read at their own references. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the index, for use by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The three operands' contents as a family over `Fin 3`, read at its three literal indices. -/
theorem cons3_0 (p : ((![x, a, b] : Fin 3 → Ref sig .tc) 0).ty.Contents Val) (q : ((![x, a, b] : Fin 3 → Ref sig .tc) 1).ty.Contents Val)
    (s : ((![x, a, b] : Fin 3 → Ref sig .tc) 2).ty.Contents Val) (r : (i : Fin 0) → ((![x, a, b] : Fin 3 → Ref sig .tc) i.succ.succ.succ).ty.Contents Val) :
    (Fin.cons (α := fun k : Fin 3 => ((![x, a, b] : Fin 3 → Ref sig .tc) k).ty.Contents Val) p (Fin.cons (α := fun i : Fin 2 => ((![x, a, b] : Fin 3 → Ref sig .tc) i.succ).ty.Contents Val) q
      (Fin.cons (α := fun i : Fin 1 => ((![x, a, b] : Fin 3 → Ref sig .tc) i.succ.succ).ty.Contents Val) s r))) 0 = p := rfl
theorem cons3_1 (p : ((![x, a, b] : Fin 3 → Ref sig .tc) 0).ty.Contents Val) (q : ((![x, a, b] : Fin 3 → Ref sig .tc) 1).ty.Contents Val)
    (s : ((![x, a, b] : Fin 3 → Ref sig .tc) 2).ty.Contents Val) (r : (i : Fin 0) → ((![x, a, b] : Fin 3 → Ref sig .tc) i.succ.succ.succ).ty.Contents Val) :
    (Fin.cons (α := fun k : Fin 3 => ((![x, a, b] : Fin 3 → Ref sig .tc) k).ty.Contents Val) p (Fin.cons (α := fun i : Fin 2 => ((![x, a, b] : Fin 3 → Ref sig .tc) i.succ).ty.Contents Val) q
      (Fin.cons (α := fun i : Fin 1 => ((![x, a, b] : Fin 3 → Ref sig .tc) i.succ.succ).ty.Contents Val) s r))) 1 = q := rfl
theorem cons3_2 (p : ((![x, a, b] : Fin 3 → Ref sig .tc) 0).ty.Contents Val) (q : ((![x, a, b] : Fin 3 → Ref sig .tc) 1).ty.Contents Val)
    (s : ((![x, a, b] : Fin 3 → Ref sig .tc) 2).ty.Contents Val) (r : (i : Fin 0) → ((![x, a, b] : Fin 3 → Ref sig .tc) i.succ.succ.succ).ty.Contents Val) :
    (Fin.cons (α := fun k : Fin 3 => ((![x, a, b] : Fin 3 → Ref sig .tc) k).ty.Contents Val) p (Fin.cons (α := fun i : Fin 2 => ((![x, a, b] : Fin 3 → Ref sig .tc) i.succ).ty.Contents Val) q
      (Fin.cons (α := fun i : Fin 1 => ((![x, a, b] : Fin 3 → Ref sig .tc) i.succ.succ).ty.Contents Val) s r))) 2 = s := rfl

end Cert.LibNary3

/-- The library's loop that rewrites each host operation's result at its own buffer to its function's value and at any
    other reference to what was there, with the three-reference form tried before the general one. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result] | rw [Idealize.ShloMosaic.StableHlo.binary_result]
               | rw [Idealize.ShloMosaic.StableHlo.ternary_result] | rw [Idealize.ShloMosaic.StableHlo.quaternary_result]
               | rw [Idealize.ShloMosaic.StableHlo.reshape_result] | rw [Idealize.ShloMosaic.StableHlo.binaryIndexed_result] | rw [Idealize.ShloMosaic.StableHlo.nary4_result]
               | rw [Cert.LibNary3.nary3_result] | rw [Idealize.ShloMosaic.StableHlo.nary_result] | rw [Idealize.ShloMosaic.StableHlo.unaryIndexed_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.quaternary_result_ne]; rotate_left; decide)
               | (rw [Idealize.ShloMosaic.StableHlo.reshape_result_ne]; rotate_left; decide)
               | (rw [Idealize.ShloMosaic.StableHlo.binaryIndexed_result_ne]; rotate_left; decide)
               | (rw [Idealize.ShloMosaic.StableHlo.nary_result_ne]; rotate_left; decide)
               | (rw [Idealize.ShloMosaic.StableHlo.unaryIndexed_result_ne]; rotate_left; decide))))

/-- The same computation as ONE simplification pass (each shared subterm visited once), for long lists of operations. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result',
      Idealize.ShloMosaic.StableHlo.nary4_result', Cert.LibNary3.nary3_result', Cert.LibNary3.cons3_0, Cert.LibNary3.cons3_1, Cert.LibNary3.cons3_2, Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

end
-- ==== Proof.HostIn.lean ====
/-
  The arrays the one region finds are the named terms of the arguments (at the ideal instance), and those terms read
  at a node: row `i < 200000` of the first padded array holds the node's features, its summed messages (columns 0…3 of
  the 5-column segment sum) and its message count (column 4); row `i` of the second its previous hidden and cell
  states; the parameter tables are the arguments' transposed, the bias vectors the arguments' as one-row tables.
-/
import proofs.«415627_j68650757260096_3_alg».proof.Proof.EntryI
import proofs.«415627_j68650757260096_3_alg».proof.Proof.HostTerms
import proofs.«415627_j68650757260096_3_alg».proof.Proof.LibNary3
import proofs.«415627_j68650757260096_3_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.HostIn

open Cert.KernelIdeal Cert.KernelIdeal.Gen Cert.KernelIdeal.Entry Cert.KernelIdeal.HostTerms
open Idealize.ShloMosaic Idealize.ShloMosaic.TcCoe Idealize.ShloMosaic.ValueIdx Idealize.ShloMosaic.StableHlo
open Idealize.SL Idealize.SL.Sem

/-! ## The region's arrays are those terms of the arguments -/

variable (m : (ℓ : Loc nD τ sig) → Buf (Elt Ideal) ℓ)

/-- The argument arrays at their literal types. -/
abbrev arg0 (c : Dev nD) : (⟨S200000x4, .f32⟩ : BufTy).Contents (Elt Ideal) := m ((c : Thread nD τ).loc main_arg0)
abbrev arg1 (c : Dev nD) : (⟨S2x12800000, .i32⟩ : BufTy).Contents (Elt Ideal) := m ((c : Thread nD τ).loc main_arg1)
abbrev arg2 (c : Dev nD) : (⟨S12800000, .f32⟩ : BufTy).Contents (Elt Ideal) := m ((c : Thread nD τ).loc main_arg2)
abbrev arg3 (c : Dev nD) : (⟨S1x200000x32, .f32⟩ : BufTy).Contents (Elt Ideal) := m ((c : Thread nD τ).loc main_arg3)
abbrev arg4 (c : Dev nD) : (⟨S1x200000x32, .f32⟩ : BufTy).Contents (Elt Ideal) := m ((c : Thread nD τ).loc main_arg4)
abbrev arg5 (c : Dev nD) : (⟨S4x4, .f32⟩ : BufTy).Contents (Elt Ideal) := m ((c : Thread nD τ).loc main_arg5)
abbrev arg6 (c : Dev nD) : (⟨S12x4, .f32⟩ : BufTy).Contents (Elt Ideal) := m ((c : Thread nD τ).loc main_arg6)
abbrev arg7 (c : Dev nD) : (⟨S12x4, .f32⟩ : BufTy).Contents (Elt Ideal) := m ((c : Thread nD τ).loc main_arg7)
abbrev arg8 (c : Dev nD) : (⟨S12, .f32⟩ : BufTy).Contents (Elt Ideal) := m ((c : Thread nD τ).loc main_arg8)
abbrev arg9 (c : Dev nD) : (⟨S12, .f32⟩ : BufTy).Contents (Elt Ideal) := m ((c : Thread nD τ).loc main_arg9)
abbrev arg10 (c : Dev nD) : (⟨S128x4, .f32⟩ : BufTy).Contents (Elt Ideal) := m ((c : Thread nD τ).loc main_arg10)
abbrev arg11 (c : Dev nD) : (⟨S128x32, .f32⟩ : BufTy).Contents (Elt Ideal) := m ((c : Thread nD τ).loc main_arg11)
abbrev arg12 (c : Dev nD) : (⟨S128, .f32⟩ : BufTy).Contents (Elt Ideal) := m ((c : Thread nD τ).loc main_arg12)
abbrev arg13 (c : Dev nD) : (⟨S128, .f32⟩ : BufTy).Contents (Elt Ideal) := m ((c : Thread nD τ).loc main_arg13)
abbrev arg14 (c : Dev nD) : (⟨S1x32, .f32⟩ : BufTy).Contents (Elt Ideal) := m ((c : Thread nD τ).loc main_arg14)
abbrev arg15 (c : Dev nD) : (⟨S1, .f32⟩ : BufTy).Contents (Elt Ideal) := m ((c : Thread nD τ).loc main_arg15)

set_option maxHeartbeats 4000000 in
/-- The first padded node array as the region finds it. The operations are taken in four parts, and over each part
    the values that the next part consumes are established first: up to the range test of the take (the product, the
    column of start indices, the range bits); from the gather to the messages and the column of ones; from their
    concatenation to the two slices of the segment sum; and from the packing of the node arrays on. -/
theorem v35_eq (c : Dev nD) : (V m c main_v35 : S201600x9.Idx → EReal)
    = padded9 (F := Ideal) (arg0 m c) (arg1 m c) (arg2 m c) (arg5 m c) := by
  have hsplit : List.flatten (pre (F := Ideal)) = (hostOps0 ++ (hostOps0_1 (F := Ideal)).take 18) ++ (((hostOps0_1 (F := Ideal)).drop 18 ++ (hostOps0_2 (F := Ideal)).take 5) ++ ((((hostOps0_2 (F := Ideal)).drop 5).take 11) ++ (((hostOps0_2 (F := Ideal)).drop 5).drop 11 ++ (hostOps0_3 ++ (hostOps0_4 ++ hostOps0_5))))) := by
    have e18 := List.take_append_drop 18 (hostOps0_1 (F := Ideal))
    have e5 := List.take_append_drop 5 (hostOps0_2 (F := Ideal))
    have e11 := List.take_append_drop 11 ((hostOps0_2 (F := Ideal)).drop 5)
    calc List.flatten (pre (F := Ideal)) = hostOps0 ++ (hostOps0_1 ++ (hostOps0_2 ++ (hostOps0_3 ++ (hostOps0_4 ++ hostOps0_5)))) := by
          simp only [pre, List.flatten_cons, List.flatten_nil, List.append_nil]
      _ = hostOps0 ++ (((hostOps0_1 (F := Ideal)).take 18 ++ (hostOps0_1 (F := Ideal)).drop 18) ++ (((hostOps0_2 (F := Ideal)).take 5 ++ ((((hostOps0_2 (F := Ideal)).drop 5).take 11) ++ ((hostOps0_2 (F := Ideal)).drop 5).drop 11)) ++ (hostOps0_3 ++ (hostOps0_4 ++ hostOps0_5)))) := by rw [e11, e5, e18]
      _ = _ := by simp only [List.append_assoc]
  -- the first part
  have h0a0 : StableHlo.after (hostOps0 ++ (hostOps0_1 (F := Ideal)).take 18) (fun b => m (c, b)) (Proc.devRef .tc main_arg0) = arg0 m c := by
    simp only [hostOps0, hostOps0_1, List.take_succ_cons, List.take_zero, List.cons_append, List.nil_append]
    after_results_simp3
    all_goals rfl
  have h0a1 : StableHlo.after (hostOps0 ++ (hostOps0_1 (F := Ideal)).take 18) (fun b => m (c, b)) (Proc.devRef .tc main_arg1) = arg1 m c := by
    simp only [hostOps0, hostOps0_1, List.take_succ_cons, List.take_zero, List.cons_append, List.nil_append]
    after_results_simp3
    all_goals rfl
  have h0a2 : StableHlo.after (hostOps0 ++ (hostOps0_1 (F := Ideal)).take 18) (fun b => m (c, b)) (Proc.devRef .tc main_arg2) = arg2 m c := by
    simp only [hostOps0, hostOps0_1, List.take_succ_cons, List.take_zero, List.cons_append, List.nil_append]
    after_results_simp3
    all_goals rfl
  have h0v0 : StableHlo.after (hostOps0 ++ (hostOps0_1 (F := Ideal)).take 18) (fun b => m (c, b)) (Proc.devRef .tc main_v0) = prod (F := Ideal) (arg0 m c) (arg5 m c) := by
    simp only [hostOps0, hostOps0_1, List.take_succ_cons, List.take_zero, List.cons_append, List.nil_append]
    after_results_simp3
    all_goals (unfold prod; rfl)
  have h0v5 : StableHlo.after (hostOps0 ++ (hostOps0_1 (F := Ideal)).take 18) (fun b => m (c, b)) (Proc.devRef .tc main_call0_v5) = startIdx (F := Ideal) (arg1 m c) := by
    simp only [hostOps0, hostOps0_1, List.take_succ_cons, List.take_zero, List.cons_append, List.nil_append]
    after_results_simp3
    all_goals (unfold startIdx wrapped srcRow; rfl)
  have h0v12 : StableHlo.after (hostOps0 ++ (hostOps0_1 (F := Ideal)).take 18) (fun b => m (c, b)) (Proc.devRef .tc main_call0_v12) = inRange (F := Ideal) (arg1 m c) := by
    simp only [hostOps0, hostOps0_1, List.take_succ_cons, List.take_zero, List.cons_append, List.nil_append]
    after_results_simp3
    simp only [StableHlo.TRef.toBuf, StableHlo.TRef.ofBuf, cast_eq]
    unfold inRange startIdx wrapped srcRow
    rfl
  dsimp only [V, V0]
  rw [hsplit, StableHlo.after_append, StableHlo.after_append, StableHlo.after_append]
  generalize StableHlo.after (hostOps0 ++ (hostOps0_1 (F := Ideal)).take 18) (fun b => m (c, b)) = U₀ at h0a0 h0a1 h0a2 h0v0 h0v5 h0v12 ⊢
  -- the second part
  have hU0 : StableHlo.after ((hostOps0_1 (F := Ideal)).drop 18 ++ (hostOps0_2 (F := Ideal)).take 5) U₀ (Proc.devRef .tc main_arg0) = arg0 m c := by
    simp only [hostOps0_1, hostOps0_2, List.drop_succ_cons, List.drop_zero, List.take_succ_cons, List.take_zero, List.cons_append, List.nil_append]
    after_results3
    all_goals exact h0a0
  have hU1 : StableHlo.after ((hostOps0_1 (F := Ideal)).drop 18 ++ (hostOps0_2 (F := Ideal)).take 5) U₀ (Proc.devRef .tc main_arg1) = arg1 m c := by
    simp only [hostOps0_1, hostOps0_2, List.drop_succ_cons, List.drop_zero, List.take_succ_cons, List.take_zero, List.cons_append, List.nil_append]
    after_results3
    all_goals exact h0a1
  have hU6 : StableHlo.after ((hostOps0_1 (F := Ideal)).drop 18 ++ (hostOps0_2 (F := Ideal)).take 5) U₀ (Proc.devRef .tc main_v6) = msgs (F := Ideal) (arg0 m c) (arg1 m c) (arg2 m c) (arg5 m c) := by
    have t0 : ∀ v : (⟨S12800000x4, .f32⟩ : BufTy).Contents (Elt Ideal), (StableHlo.TRef.of main_v3 : StableHlo.TRef sig ⟨S12800000x4, .f32⟩).toBuf v = v := fun _ => rfl
    have o0 : ∀ v : (⟨S12800000x4, .f32⟩ : BufTy).Contents (Elt Ideal), (StableHlo.TRef.of main_v3 : StableHlo.TRef sig ⟨S12800000x4, .f32⟩).ofBuf v = v := fun _ => rfl
    have t1 : ∀ v : (⟨S12800000x4, .i1⟩ : BufTy).Contents (Elt Ideal), (StableHlo.TRef.of main_call0_v14 : StableHlo.TRef sig ⟨S12800000x4, .i1⟩).toBuf v = v := fun _ => rfl
    have o1 : ∀ v : (⟨S12800000x4, .i1⟩ : BufTy).Contents (Elt Ideal), (StableHlo.TRef.of main_call0_v14 : StableHlo.TRef sig ⟨S12800000x4, .i1⟩).ofBuf v = v := fun _ => rfl
    have t2 : ∀ v : (⟨S12800000, .i1⟩ : BufTy).Contents (Elt Ideal), (StableHlo.TRef.of main_call0_v12 : StableHlo.TRef sig ⟨S12800000, .i1⟩).toBuf v = v := fun _ => rfl
    have o2 : ∀ v : (⟨S12800000, .i1⟩ : BufTy).Contents (Elt Ideal), (StableHlo.TRef.of main_call0_v12 : StableHlo.TRef sig ⟨S12800000, .i1⟩).ofBuf v = v := fun _ => rfl
    have t3 : ∀ v : (⟨S12800000x4, .f32⟩ : BufTy).Contents (Elt Ideal), (StableHlo.TRef.of main_call0_v13 : StableHlo.TRef sig ⟨S12800000x4, .f32⟩).toBuf v = v := fun _ => rfl
    have o3 : ∀ v : (⟨S12800000x4, .f32⟩ : BufTy).Contents (Elt Ideal), (StableHlo.TRef.of main_call0_v13 : StableHlo.TRef sig ⟨S12800000x4, .f32⟩).ofBuf v = v := fun _ => rfl
    have t4 : ∀ v : (⟨S200000x4, .f32⟩ : BufTy).Contents (Elt Ideal), (StableHlo.TRef.of main_v0 : StableHlo.TRef sig ⟨S200000x4, .f32⟩).toBuf v = v := fun _ => rfl
    have o4 : ∀ v : (⟨S200000x4, .f32⟩ : BufTy).Contents (Elt Ideal), (StableHlo.TRef.of main_v0 : StableHlo.TRef sig ⟨S200000x4, .f32⟩).ofBuf v = v := fun _ => rfl
    have t5 : ∀ v : (⟨S12800000x1, .i32⟩ : BufTy).Contents (Elt Ideal), (StableHlo.TRef.of main_call0_v5 : StableHlo.TRef sig ⟨S12800000x1, .i32⟩).toBuf v = v := fun _ => rfl
    have o5 : ∀ v : (⟨S12800000x1, .i32⟩ : BufTy).Contents (Elt Ideal), (StableHlo.TRef.of main_call0_v5 : StableHlo.TRef sig ⟨S12800000x1, .i32⟩).ofBuf v = v := fun _ => rfl
    have t6 : ∀ v : (⟨S12800000x4, .f32⟩ : BufTy).Contents (Elt Ideal), (StableHlo.TRef.of main_call0_v15 : StableHlo.TRef sig ⟨S12800000x4, .f32⟩).toBuf v = v := fun _ => rfl
    have o6 : ∀ v : (⟨S12800000x4, .f32⟩ : BufTy).Contents (Elt Ideal), (StableHlo.TRef.of main_call0_v15 : StableHlo.TRef sig ⟨S12800000x4, .f32⟩).ofBuf v = v := fun _ => rfl
    have t7 : ∀ v : (⟨S_, .f32⟩ : BufTy).Contents (Elt Ideal), (StableHlo.TRef.of main_call0_cst : StableHlo.TRef sig ⟨S_, .f32⟩).toBuf v = v := fun _ => rfl
    have o7 : ∀ v : (⟨S_, .f32⟩ : BufTy).Contents (Elt Ideal), (StableHlo.TRef.of main_call0_cst : StableHlo.TRef sig ⟨S_, .f32⟩).ofBuf v = v := fun _ => rfl
    simp only [hostOps0_1, hostOps0_2, List.drop_succ_cons, List.drop_zero, List.take_succ_cons, List.take_zero, List.cons_append, List.nil_append]
    after_results3
    all_goals (rw [h0v12, h0v5, h0v0, h0a2]; simp only [t0, o0, t1, o1, t2, o2, t3, o3, t4, o4, t5, o5, t6, o6, t7, o7]; unfold msgs taken gathered; rfl)
  have hU7 : StableHlo.after ((hostOps0_1 (F := Ideal)).drop 18 ++ (hostOps0_2 (F := Ideal)).take 5) U₀ (Proc.devRef .tc main_v7)
      = broadcastInDim S12800000x1 ![] bcast_S_S12800000x1 (constant (F := Ideal) S_ .f32 0x3F800000#32) := by
    simp only [hostOps0_1, hostOps0_2, List.drop_succ_cons, List.drop_zero, List.take_succ_cons, List.take_zero, List.cons_append, List.nil_append]
    after_results3
    all_goals rfl
  generalize StableHlo.after ((hostOps0_1 (F := Ideal)).drop 18 ++ (hostOps0_2 (F := Ideal)).take 5) U₀ = U at hU0 hU1 hU6 hU7 ⊢
  -- the third part
  have hW0 : StableHlo.after (((hostOps0_2 (F := Ideal)).drop 5).take 11) U (Proc.devRef .tc main_arg0) = arg0 m c := by
    simp only [hostOps0_2, List.drop_succ_cons, List.drop_zero, List.take_succ_cons, List.take_zero]
    after_results3
    all_goals exact hU0
  have hW14 : StableHlo.after (((hostOps0_2 (F := Ideal)).drop 5).take 11) U (Proc.devRef .tc main_v14)
      = extractStridedSlice S200000x4 ![0, 0] (sums5 (F := Ideal) (arg0 m c) (arg1 m c) (arg2 m c) (arg5 m c)) slices_S200000x5_S200000x4_0_0 := by
    simp only [hostOps0_2, List.drop_succ_cons, List.drop_zero, List.take_succ_cons, List.take_zero]
    after_results3
    all_goals (rw [hU1, hU6, hU7]; unfold sums5 payload5 dstRow; rfl)
  have hW15 : StableHlo.after (((hostOps0_2 (F := Ideal)).drop 5).take 11) U (Proc.devRef .tc main_v15)
      = extractStridedSlice S200000x1 ![0, 4] (sums5 (F := Ideal) (arg0 m c) (arg1 m c) (arg2 m c) (arg5 m c)) slices_S200000x5_S200000x1_0_4 := by
    simp only [hostOps0_2, List.drop_succ_cons, List.drop_zero, List.take_succ_cons, List.take_zero]
    after_results3
    all_goals (rw [hU1, hU6, hU7]; unfold sums5 payload5 dstRow; rfl)
  generalize StableHlo.after (((hostOps0_2 (F := Ideal)).drop 5).take 11) U = W at hW0 hW14 hW15 ⊢
  -- the fourth part
  simp only [hostOps0_2, List.drop_succ_cons, List.drop_zero, hostOps0_3, hostOps0_4, hostOps0_5, List.cons_append, List.nil_append, List.append_nil]
  after_results3
  all_goals (rw [hW0, hW14, hW15]; unfold padded9 packed9; rfl)

set_option maxHeartbeats 4000000 in
theorem v36_eq (c : Dev nD) : (V m c main_v36 : S201600x64.Idx → EReal)
    = padded64 (F := Ideal) (arg3 m c) (arg4 m c) := by
  dsimp only [V, V0, pre]
  simp only [hostOps0, hostOps0_1, hostOps0_2, hostOps0_3, hostOps0_4, hostOps0_5, List.flatten_cons, List.flatten_nil, List.append_nil, List.cons_append, List.nil_append]
  after_results3
  all_goals (unfold padded64; rfl)

/-! ## The named terms read at a node -/

section Read

variable (x0 : (⟨S200000x4, .f32⟩ : BufTy).Contents (Elt Ideal)) (x1 : (⟨S2x12800000, .i32⟩ : BufTy).Contents (Elt Ideal)) (x2 : (⟨S12800000, .f32⟩ : BufTy).Contents (Elt Ideal)) (x5 : (⟨S4x4, .f32⟩ : BufTy).Contents (Elt Ideal))
  (x3 x4 : (⟨S1x200000x32, .f32⟩ : BufTy).Contents (Elt Ideal))

/-- Below the padding a padded array is its operand (9 columns). -/
theorem pad9_at (x : S200000x9.Idx → EReal) (v : S_.Idx → EReal) (n : Fin 201600) (i : Fin 200000) (h : n.val = i.val) (q : Fin 9) :
    pad S201600x9 ![0, 0] ![1600, 0] ![0, 0] x v pads_S200000x9_S201600x9_016000_000 h_S_ (ix2 n q) = x (ix2 i q) := by
  have hi := i.isLt
  have hin : ∀ a : Fin 2, (![0, 0] : Fin 2 → Nat) a ≤ ((ix2 n q : S201600x9.Idx) (a.cast pads_S200000x9_S201600x9_016000_000.1)).val
      ∧ (((ix2 n q : S201600x9.Idx) (a.cast pads_S200000x9_S201600x9_016000_000.1)).val - (![0, 0] : Fin 2 → Nat) a) % ((![0, 0] : Fin 2 → Nat) a + 1) = 0
      ∧ (((ix2 n q : S201600x9.Idx) (a.cast pads_S200000x9_S201600x9_016000_000.1)).val - (![0, 0] : Fin 2 → Nat) a) / ((![0, 0] : Fin 2 → Nat) a + 1) < S200000x9.size a := fun a =>
    match a with
    | ⟨0, _⟩ => by
      refine ⟨Nat.zero_le _, ?_, ?_⟩
      · show (n.val - 0) % (0 + 1) = 0; omega
      · show (n.val - 0) / (0 + 1) < 200000; omega
    | ⟨1, _⟩ => by
      have hq := q.isLt
      refine ⟨Nat.zero_le _, ?_, ?_⟩
      · show (q.val - 0) % (0 + 1) = 0; omega
      · show (q.val - 0) / (0 + 1) < 9; omega
  unfold pad
  rw [dif_pos hin]
  refine congrArg x (funext fun a => Fin.ext ?_)
  match a with
  | ⟨0, _⟩ => show (n.val - 0) / (0 + 1) = i.val; omega
  | ⟨1, _⟩ => show (q.val - 0) / (0 + 1) = q.val; omega

/-- Below the padding a padded array is its operand (64 columns). -/
theorem pad64_at (x : S200000x64.Idx → EReal) (v : S_.Idx → EReal) (n : Fin 201600) (i : Fin 200000) (h : n.val = i.val) (q : Fin 64) :
    pad S201600x64 ![0, 0] ![1600, 0] ![0, 0] x v pads_S200000x64_S201600x64_016000_000 h_S_ (ix2 n q) = x (ix2 i q) := by
  have hi := i.isLt
  have hin : ∀ a : Fin 2, (![0, 0] : Fin 2 → Nat) a ≤ ((ix2 n q : S201600x64.Idx) (a.cast pads_S200000x64_S201600x64_016000_000.1)).val
      ∧ (((ix2 n q : S201600x64.Idx) (a.cast pads_S200000x64_S201600x64_016000_000.1)).val - (![0, 0] : Fin 2 → Nat) a) % ((![0, 0] : Fin 2 → Nat) a + 1) = 0
      ∧ (((ix2 n q : S201600x64.Idx) (a.cast pads_S200000x64_S201600x64_016000_000.1)).val - (![0, 0] : Fin 2 → Nat) a) / ((![0, 0] : Fin 2 → Nat) a + 1) < S200000x64.size a := fun a =>
    match a with
    | ⟨0, _⟩ => by
      refine ⟨Nat.zero_le _, ?_, ?_⟩
      · show (n.val - 0) % (0 + 1) = 0; omega
      · show (n.val - 0) / (0 + 1) < 200000; omega
    | ⟨1, _⟩ => by
      have hq := q.isLt
      refine ⟨Nat.zero_le _, ?_, ?_⟩
      · show (q.val - 0) % (0 + 1) = 0; omega
      · show (q.val - 0) / (0 + 1) < 64; omega
  unfold pad
  rw [dif_pos hin]
  refine congrArg x (funext fun a => Fin.ext ?_)
  match a with
  | ⟨0, _⟩ => show (n.val - 0) / (0 + 1) = i.val; omega
  | ⟨1, _⟩ => show (q.val - 0) / (0 + 1) = q.val; omega

/-- A three-piece row concatenation (4 | 4 | 1 columns) read in its first piece, … -/
theorem cat9_x (A B : S200000x4.Idx → EReal) (C : S200000x1.Idx → EReal) (i : Fin 200000) (k : Fin 4) :
    concatenate S200000x9 1 [⟨S200000x4, A⟩, ⟨S200000x4, B⟩, ⟨S200000x1, C⟩] concatenates_S200000x4_S200000x4_S200000x1_S200000x9_d1
      (ix2 i (RowSpec.sh (n := 9) 0 k (by decide))) = A (ix2 i k) := by
  refine concatenate_apply_piece (1 : Fin S200000x9.rank) [⟨S200000x4, A⟩, ⟨S200000x4, B⟩, ⟨S200000x1, C⟩]
    concatenates_S200000x4_S200000x4_S200000x1_S200000x9_d1 (ix2 i (RowSpec.sh (n := 9) 0 k (by decide))) 0 (Nat.zero_lt_succ _) S200000x4 A rfl rfl 0 rfl (ix2 i k) ?_ ?_
  · intro b hb
    match b, hb with
    | ⟨0, _⟩, _ => rfl
    | ⟨1, _⟩, hb => exact absurd rfl hb
  · show 0 + k.val = 0 + k.val; rfl

/-- … in its second piece, … -/
theorem cat9_s (A B : S200000x4.Idx → EReal) (C : S200000x1.Idx → EReal) (i : Fin 200000) (k : Fin 4) :
    concatenate S200000x9 1 [⟨S200000x4, A⟩, ⟨S200000x4, B⟩, ⟨S200000x1, C⟩] concatenates_S200000x4_S200000x4_S200000x1_S200000x9_d1
      (ix2 i (RowSpec.sh (n := 9) 4 k (by decide))) = B (ix2 i k) := by
  refine concatenate_apply_piece (1 : Fin S200000x9.rank) [⟨S200000x4, A⟩, ⟨S200000x4, B⟩, ⟨S200000x1, C⟩]
    concatenates_S200000x4_S200000x4_S200000x1_S200000x9_d1 (ix2 i (RowSpec.sh (n := 9) 4 k (by decide))) 1 (Nat.succ_lt_succ (Nat.zero_lt_succ _)) S200000x4 B rfl rfl 4 rfl (ix2 i k) ?_ ?_
  · intro b hb
    match b, hb with
    | ⟨0, _⟩, _ => rfl
    | ⟨1, _⟩, hb => exact absurd rfl hb
  · show 4 + k.val = 4 + k.val; rfl

/-- … and in its third. -/
theorem cat9_c (A B : S200000x4.Idx → EReal) (C : S200000x1.Idx → EReal) (i : Fin 200000) :
    concatenate S200000x9 1 [⟨S200000x4, A⟩, ⟨S200000x4, B⟩, ⟨S200000x1, C⟩] concatenates_S200000x4_S200000x4_S200000x1_S200000x9_d1
      (ix2 i (⟨8, by decide⟩ : Fin 9)) = C (ix2 i (0 : Fin 1)) := by
  refine concatenate_apply_piece (1 : Fin S200000x9.rank) [⟨S200000x4, A⟩, ⟨S200000x4, B⟩, ⟨S200000x1, C⟩]
    concatenates_S200000x4_S200000x4_S200000x1_S200000x9_d1 (ix2 i (⟨8, by decide⟩ : Fin 9)) 2 (Nat.succ_lt_succ (Nat.succ_lt_succ (Nat.zero_lt_succ _))) S200000x1 C rfl rfl 8 rfl (ix2 i (0 : Fin 1)) ?_ ?_
  · intro b hb
    match b, hb with
    | ⟨0, _⟩, _ => rfl
    | ⟨1, _⟩, hb => exact absurd rfl hb
  · show 8 + 0 = 8; rfl

/-- A two-piece row concatenation (32 | 32 columns) read in its first piece, … -/
theorem cat64_h (A B : S200000x32.Idx → EReal) (i : Fin 200000) (k : Fin 32) :
    concatenate S200000x64 1 [⟨S200000x32, A⟩, ⟨S200000x32, B⟩] concatenates_S200000x32_S200000x32_S200000x64_d1
      (ix2 i (RowSpec.sh (n := 64) 0 k (by decide))) = A (ix2 i k) := by
  refine concatenate_pair_apply_left (1 : Fin S200000x64.rank) A B concatenates_S200000x32_S200000x32_S200000x64_d1
    (ix2 i (RowSpec.sh (n := 64) 0 k (by decide))) rfl (ix2 i k) ?_
  intro b
  match b with
  | ⟨0, _⟩ => rfl
  | ⟨1, _⟩ => show k.val = 0 + k.val; omega

/-- … and in its second. -/
theorem cat64_c (A B : S200000x32.Idx → EReal) (i : Fin 200000) (k : Fin 32) :
    concatenate S200000x64 1 [⟨S200000x32, A⟩, ⟨S200000x32, B⟩] concatenates_S200000x32_S200000x32_S200000x64_d1
      (ix2 i (RowSpec.sh (n := 64) 32 k (by decide))) = B (ix2 i k) := by
  refine concatenate_pair_apply_right (1 : Fin S200000x64.rank) A B concatenates_S200000x32_S200000x32_S200000x64_d1
    (ix2 i (RowSpec.sh (n := 64) 32 k (by decide))) rfl rfl (ix2 i k) ?_ ?_
  · intro b hb
    match b, hb with
    | ⟨0, _⟩, _ => rfl
    | ⟨1, _⟩, hb => exact absurd rfl hb
  · show k.val + 32 = 32 + k.val; omega

/-- Row `i` of the first padded array: the node's features, … -/
theorem padded9_x (n : Fin 201600) (i : Fin 200000) (h : n.val = i.val) (k : Fin 4) :
    padded9 (F := Ideal) x0 x1 x2 x5 (ix2 n (RowSpec.sh (n := 9) 0 k (by decide))) = x0 (ix2 i k) := by
  unfold padded9
  rw [pad9_at _ _ n i h]
  unfold packed9
  exact cat9_x _ _ _ i k

/-- … its summed messages (columns 0…3 of the segment sum), … -/
theorem padded9_s (n : Fin 201600) (i : Fin 200000) (h : n.val = i.val) (k : Fin 4) :
    padded9 (F := Ideal) x0 x1 x2 x5 (ix2 n (RowSpec.sh (n := 9) 4 k (by decide)))
      = sums5 (F := Ideal) x0 x1 x2 x5 (ix2 i (RowSpec.sh (n := 5) 0 k (by decide))) := by
  unfold padded9
  rw [pad9_at _ _ n i h]
  unfold packed9
  refine (cat9_s _ _ _ i k).trans ?_
  exact extractStridedSlice_apply _ _ _ _ _ (fun a => match a with
    | ⟨0, _⟩ => by show i.val = 0 + i.val; omega
    | ⟨1, _⟩ => by show 0 + k.val = 0 + k.val; rfl)

/-- … and its message count (column 4 of the segment sum). -/
theorem padded9_c (n : Fin 201600) (i : Fin 200000) (h : n.val = i.val) :
    padded9 (F := Ideal) x0 x1 x2 x5 (ix2 n (⟨8, by decide⟩ : Fin 9)) = sums5 (F := Ideal) x0 x1 x2 x5 (ix2 i (⟨4, by decide⟩ : Fin 5)) := by
  unfold padded9
  rw [pad9_at _ _ n i h]
  unfold packed9
  refine (cat9_c _ _ _ i).trans ?_
  exact extractStridedSlice_apply _ _ _ _ _ (fun a => match a with
    | ⟨0, _⟩ => by show i.val = 0 + i.val; omega
    | ⟨1, _⟩ => by show (4 : Nat) = 4 + 0; rfl)

/-- Row `i` of the second padded array: the node's previous hidden state, … -/
theorem padded64_h (n : Fin 201600) (i : Fin 200000) (h : n.val = i.val) (k : Fin 32) :
    padded64 (F := Ideal) x3 x4 (ix2 n (RowSpec.sh (n := 64) 0 k (by decide))) = x3 (ix3 (0 : Fin 1) i k) := by
  unfold padded64
  rw [pad64_at _ _ n i h, cat64_h]
  exact shapeCast_1ab_ab_apply x3 shapeCasts_S1x200000x32_S200000x32 i k

/-- … and its previous cell state. -/
theorem padded64_c (n : Fin 201600) (i : Fin 200000) (h : n.val = i.val) (k : Fin 32) :
    padded64 (F := Ideal) x3 x4 (ix2 n (RowSpec.sh (n := 64) 32 k (by decide))) = x4 (ix3 (0 : Fin 1) i k) := by
  unfold padded64
  rw [pad64_at _ _ n i h, cat64_c]
  exact shapeCast_1ab_ab_apply x4 shapeCasts_S1x200000x32_S200000x32 i k

end Read

/-! ## The parameter tables the region finds -/

set_option maxHeartbeats 4000000 in
/-- A weight table as the region finds it: the argument's transpose (the change of float format is the identity). -/
theorem v21_at (c : Dev nD) (k : Fin 4) (j : Fin 12) : (V m c main_v21 : S4x12.Idx → EReal) (ix2 k j) = arg6 m c (ix2 j k) := by
  have e : (V m c main_v21 : S4x12.Idx → EReal) = truncf (F := Ideal) .bf16 (transpose S4x12 [1, 0] (arg6 m c) transposes_S12x4_S4x12_1_0) bitsLt_bf16_f32 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact transpose_ix2_apply (arg6 m c) transposes_S12x4_S4x12_1_0 k j

set_option maxHeartbeats 4000000 in
/-- A weight table as the region finds it: the argument's transpose (the change of float format is the identity). -/
theorem v23_at (c : Dev nD) (k : Fin 4) (j : Fin 12) : (V m c main_v23 : S4x12.Idx → EReal) (ix2 k j) = arg7 m c (ix2 j k) := by
  have e : (V m c main_v23 : S4x12.Idx → EReal) = truncf (F := Ideal) .bf16 (transpose S4x12 [1, 0] (arg7 m c) transposes_S12x4_S4x12_1_0) bitsLt_bf16_f32 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact transpose_ix2_apply (arg7 m c) transposes_S12x4_S4x12_1_0 k j

set_option maxHeartbeats 4000000 in
/-- A bias vector as the region finds it: the argument as a one-row table. -/
theorem v30_at (c : Dev nD) (j : Fin 12) : (V m c main_v30 : S1x12.Idx → EReal) (ix2 (0 : Fin 1) j) = arg8 m c (ix1 j) := by
  have e : (V m c main_v30 : S1x12.Idx → EReal) = shapeCast S1x12 (arg8 m c) shapeCasts_S12_S1x12 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact shapeCast_a_1a_apply (arg8 m c) shapeCasts_S12_S1x12 (0 : Fin 1) j

set_option maxHeartbeats 4000000 in
/-- A bias vector as the region finds it: the argument as a one-row table. -/
theorem v31_at (c : Dev nD) (j : Fin 12) : (V m c main_v31 : S1x12.Idx → EReal) (ix2 (0 : Fin 1) j) = arg9 m c (ix1 j) := by
  have e : (V m c main_v31 : S1x12.Idx → EReal) = shapeCast S1x12 (arg9 m c) shapeCasts_S12_S1x12 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact shapeCast_a_1a_apply (arg9 m c) shapeCasts_S12_S1x12 (0 : Fin 1) j

set_option maxHeartbeats 4000000 in
/-- A weight table as the region finds it: the argument's transpose (the change of float format is the identity). -/
theorem v25_at (c : Dev nD) (k : Fin 4) (j : Fin 128) : (V m c main_v25 : S4x128.Idx → EReal) (ix2 k j) = arg10 m c (ix2 j k) := by
  have e : (V m c main_v25 : S4x128.Idx → EReal) = truncf (F := Ideal) .bf16 (transpose S4x128 [1, 0] (arg10 m c) transposes_S128x4_S4x128_1_0) bitsLt_bf16_f32 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact transpose_ix2_apply (arg10 m c) transposes_S128x4_S4x128_1_0 k j

set_option maxHeartbeats 4000000 in
/-- A weight table as the region finds it: the argument's transpose (the change of float format is the identity). -/
theorem v27_at (c : Dev nD) (k : Fin 32) (j : Fin 128) : (V m c main_v27 : S32x128.Idx → EReal) (ix2 k j) = arg11 m c (ix2 j k) := by
  have e : (V m c main_v27 : S32x128.Idx → EReal) = truncf (F := Ideal) .bf16 (transpose S32x128 [1, 0] (arg11 m c) transposes_S128x32_S32x128_1_0) bitsLt_bf16_f32 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact transpose_ix2_apply (arg11 m c) transposes_S128x32_S32x128_1_0 k j

set_option maxHeartbeats 4000000 in
/-- A bias vector as the region finds it: the argument as a one-row table. -/
theorem v32_at (c : Dev nD) (j : Fin 128) : (V m c main_v32 : S1x128.Idx → EReal) (ix2 (0 : Fin 1) j) = arg12 m c (ix1 j) := by
  have e : (V m c main_v32 : S1x128.Idx → EReal) = shapeCast S1x128 (arg12 m c) shapeCasts_S128_S1x128 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact shapeCast_a_1a_apply (arg12 m c) shapeCasts_S128_S1x128 (0 : Fin 1) j

set_option maxHeartbeats 4000000 in
/-- A bias vector as the region finds it: the argument as a one-row table. -/
theorem v33_at (c : Dev nD) (j : Fin 128) : (V m c main_v33 : S1x128.Idx → EReal) (ix2 (0 : Fin 1) j) = arg13 m c (ix1 j) := by
  have e : (V m c main_v33 : S1x128.Idx → EReal) = shapeCast S1x128 (arg13 m c) shapeCasts_S128_S1x128 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact shapeCast_a_1a_apply (arg13 m c) shapeCasts_S128_S1x128 (0 : Fin 1) j

set_option maxHeartbeats 4000000 in
/-- A weight table as the region finds it: the argument's transpose (the change of float format is the identity). -/
theorem v29_at (c : Dev nD) (k : Fin 32) (j : Fin 1) : (V m c main_v29 : S32x1.Idx → EReal) (ix2 k j) = arg14 m c (ix2 j k) := by
  have e : (V m c main_v29 : S32x1.Idx → EReal) = truncf (F := Ideal) .bf16 (transpose S32x1 [1, 0] (arg14 m c) transposes_S1x32_S32x1_1_0) bitsLt_bf16_f32 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact transpose_ix2_apply (arg14 m c) transposes_S1x32_S32x1_1_0 k j

set_option maxHeartbeats 4000000 in
/-- A bias vector as the region finds it: the argument as a one-row table. -/
theorem v34_at (c : Dev nD) (j : Fin 1) : (V m c main_v34 : S1x1.Idx → EReal) (ix2 (0 : Fin 1) j) = arg15 m c (ix1 j) := by
  have e : (V m c main_v34 : S1x1.Idx → EReal) = shapeCast S1x1 (arg15 m c) shapeCasts_S1_S1x1 := by
    dsimp only [V, V0, pre]
    simp only [hostOps0, hostOps0_1, hostOps0_2, hostOps0_3, hostOps0_4, hostOps0_5, List.flatten_cons, List.flatten_nil, List.append_nil, List.cons_append, List.nil_append]
    after_results_simp3
    all_goals rfl
  rw [e]
  exact shapeCast_a_1a_apply (arg15 m c) shapeCasts_S1_S1x1 (0 : Fin 1) j

end Cert.KernelIdeal.HostIn

end
-- ==== Proof.LibSegSum.lean ====
/-
  A host scatter-add whose every update row names ONE operand row (jax's segment sum: `zeros.at[ids].add(rows)`),
  read at an element on the extended reals: the operand's element plus the sum, over the updates whose start index
  is that row, of the update's element in the same column; an update whose index is no row of the operand adds
  nothing. Stated for updates that are rows of width `C` (operand `N × C`, updates `E × C`, indices `E × 1`) and for
  scalar updates (operand `N`, updates `E`, indices `E × 1`), for any dimension numbers of that form.
-/
import Idealize.ShloMosaic.PureOps.Ideal
import Idealize.ShloMosaic.PureOps.Contract
import Idealize.ShloMosaic.Lib.ValueIdx

noncomputable section

open scoped BigOperators

namespace Cert.LibSegSum

open Idealize.ShloMosaic Idealize.ShloMosaic.ValueIdx

/-! ## Updates that are rows of width `C` -/

/-- The dimension numbers of a row-wise segment sum as a literal record: the updates' axis 1 is the window axis, the
    operand's axis 0 is inserted and is the one axis the start index names, and the index vector lies on the scatter
    indices' axis 1. -/
abbrev rowsD {N E C : Nat}
    (wf : ScatterDims.WF (⟨2, ![N, C]⟩ : Shape) (⟨2, ![E, 1]⟩ : Shape) (⟨2, ![E, C]⟩ : Shape) [(1 : Fin 2)] [(0 : Fin 2)] [(0 : Fin 2)] 1) :
    ScatterDims (⟨2, ![N, C]⟩ : Shape) (⟨2, ![E, 1]⟩ : Shape) (⟨2, ![E, C]⟩ : Shape) :=
  ScatterDims.mk [(1 : Fin 2)] [(0 : Fin 2)] [(0 : Fin 2)] 1 wf

/-- Update index `j` reads its start index at the scatter-indices position `(j 0, 0)`: its own row on the update
    scatter axis, and the one component `0` on the index vector's axis. -/
theorem rows_siIdx {N E C : Nat}
    (wf : ScatterDims.WF (⟨2, ![N, C]⟩ : Shape) (⟨2, ![E, 1]⟩ : Shape) (⟨2, ![E, C]⟩ : Shape) [(1 : Fin 2)] [(0 : Fin 2)] [(0 : Fin 2)] 1)
    (j : (⟨2, ![E, C]⟩ : Shape).Idx) (c : Fin 1) :
    (rowsD wf).siIdx j c = ix2 (j 0) (0 : Fin 1) := by
  funext b
  match b with
  | ⟨0, _⟩ =>
    apply Fin.ext
    rfl
  | ⟨1, _⟩ =>
    apply Fin.ext
    have := c.isLt
    show c.val = 0
    omega

/-- On the operand's row axis the window starts at the index word of the update's row, read signed. -/
theorem rows_start0 {N E C w : Nat}
    (wf : ScatterDims.WF (⟨2, ![N, C]⟩ : Shape) (⟨2, ![E, 1]⟩ : Shape) (⟨2, ![E, C]⟩ : Shape) [(1 : Fin 2)] [(0 : Fin 2)] [(0 : Fin 2)] 1)
    (j : (⟨2, ![E, C]⟩ : Shape).Idx) (idx : IVec (⟨2, ![E, 1]⟩ : Shape) w) :
    (rowsD wf).start j idx 0 = (idx (ix2 (j 0) (0 : Fin 1))).toInt := by
  unfold ScatterDims.start
  rw [dif_pos (show (0 : Fin 2) ∈ [(0 : Fin 2)] by decide)]
  rw [rows_siIdx]
  rfl

/-- On the operand's column axis, which the start index does not name, the window starts at `0`. -/
theorem rows_start1 {N E C w : Nat}
    (wf : ScatterDims.WF (⟨2, ![N, C]⟩ : Shape) (⟨2, ![E, 1]⟩ : Shape) (⟨2, ![E, C]⟩ : Shape) [(1 : Fin 2)] [(0 : Fin 2)] [(0 : Fin 2)] 1)
    (j : (⟨2, ![E, C]⟩ : Shape).Idx) (idx : IVec (⟨2, ![E, 1]⟩ : Shape) w) :
    (rowsD wf).start j idx 1 = 0 := by
  unfold ScatterDims.start
  rw [dif_neg (show (1 : Fin 2) ∉ [(0 : Fin 2)] by decide)]

/-- The operand's row axis is inserted, so the window coordinate on it is `0`. -/
theorem rows_window0 {N E C : Nat}
    (wf : ScatterDims.WF (⟨2, ![N, C]⟩ : Shape) (⟨2, ![E, 1]⟩ : Shape) (⟨2, ![E, C]⟩ : Shape) [(1 : Fin 2)] [(0 : Fin 2)] [(0 : Fin 2)] 1)
    (j : (⟨2, ![E, C]⟩ : Shape).Idx) :
    (rowsD wf).window j 0 = 0 := by
  unfold ScatterDims.window
  have h : (0 : Fin 2) ∉ (rowsD wf).sKept := by
    show (0 : Fin 2) ∉ (List.finRange 2).filter (· ∉ [(0 : Fin 2)])
    decide
  rw [dif_neg h]

/-- The operand's column axis is its one kept axis, so the window coordinate on it is the update's column. -/
theorem rows_window1 {N E C : Nat}
    (wf : ScatterDims.WF (⟨2, ![N, C]⟩ : Shape) (⟨2, ![E, 1]⟩ : Shape) (⟨2, ![E, C]⟩ : Shape) [(1 : Fin 2)] [(0 : Fin 2)] [(0 : Fin 2)] 1)
    (j : (⟨2, ![E, C]⟩ : Shape).Idx) :
    (rowsD wf).window j 1 = (j 1).val := by
  unfold ScatterDims.window
  have h : (1 : Fin 2) ∈ (rowsD wf).sKept := by
    show (1 : Fin 2) ∈ (List.finRange 2).filter (· ∉ [(0 : Fin 2)])
    decide
  rw [dif_pos h]
  rfl

/-- Update `j` lands at operand element `(i, k)` exactly when the index word of `j`'s row, read signed, is `i` and
    `j`'s column is `k`. From left to right the landing index is in range, so the signed word is a natural number
    below `N` and equals `i`; from right to left the word `i` is in range and the column `k` is below `C`, so the
    update is not dropped. -/
theorem rows_resultIdx_iff {N E C w : Nat}
    (wf : ScatterDims.WF (⟨2, ![N, C]⟩ : Shape) (⟨2, ![E, 1]⟩ : Shape) (⟨2, ![E, C]⟩ : Shape) [(1 : Fin 2)] [(0 : Fin 2)] [(0 : Fin 2)] 1)
    (j : (⟨2, ![E, C]⟩ : Shape).Idx) (idx : IVec (⟨2, ![E, 1]⟩ : Shape) w) (i : Fin N) (k : Fin C) :
    (rowsD wf).resultIdx? j idx = some (ix2 i k)
      ↔ (idx (ix2 (j 0) (0 : Fin 1))).toInt = (i.val : Int) ∧ j 1 = k := by
  have hs0 := rows_start0 wf j idx
  have hs1 := rows_start1 wf j idx
  have hw0 := rows_window0 wf j
  have hw1 := rows_window1 wf j
  have hi := i.isLt
  have hk := k.isLt
  have hj1 : (j 1).val < C := (j 1).isLt
  unfold ScatterDims.resultIdx?
  split
  · rename_i h
    rw [Option.some.injEq]
    have h0 := h 0
    have h1 := h 1
    rw [hs0, hw0] at h0
    rw [hs1, hw1] at h1
    constructor
    · intro hf
      have e0 : ((rowsD wf).start j idx 0 + ((rowsD wf).window j 0 : Nat)).toNat = i.val :=
        congrArg (fun f => (f 0).val) hf
      have e1 : ((rowsD wf).start j idx 1 + ((rowsD wf).window j 1 : Nat)).toNat = k.val :=
        congrArg (fun f => (f 1).val) hf
      rw [hs0, hw0] at e0
      rw [hs1, hw1] at e1
      refine ⟨by omega, Fin.ext (by omega)⟩
    · rintro ⟨ht, hjk⟩
      funext a
      match a with
      | ⟨0, _⟩ =>
        apply Fin.ext
        show ((rowsD wf).start j idx 0 + ((rowsD wf).window j 0 : Nat)).toNat = i.val
        rw [hs0, hw0]; omega
      | ⟨1, _⟩ =>
        apply Fin.ext
        show ((rowsD wf).start j idx 1 + ((rowsD wf).window j 1 : Nat)).toNat = k.val
        rw [hs1, hw1, ← hjk]; omega
  · rename_i h
    constructor
    · intro hf; exact absurd hf (by simp)
    · rintro ⟨ht, hjk⟩
      exfalso; apply h
      intro a
      match a with
      | ⟨0, _⟩ =>
        show 0 ≤ (rowsD wf).start j idx 0 + ((rowsD wf).window j 0 : Nat)
          ∧ (rowsD wf).start j idx 0 + ((rowsD wf).window j 0 : Nat) < (N : Int)
        rw [hs0, hw0]; omega
      | ⟨1, _⟩ =>
        show 0 ≤ (rowsD wf).start j idx 1 + ((rowsD wf).window j 1 : Nat)
          ∧ (rowsD wf).start j idx 1 + ((rowsD wf).window j 1 : Nat) < (C : Int)
        rw [hs1, hw1]; omega

/-- Rows of width `C`: element `(i, k)` of the result is the operand's plus the sum over the updates `e` whose index
    word, read signed, is `i`, of the update's element `(e, k)`. -/
theorem scatterAdd_rows_apply {N E C w : Nat} {φ : FTy}
    (d : ScatterDims (⟨2, ![N, C]⟩ : Shape) (⟨2, ![E, 1]⟩ : Shape) (⟨2, ![E, C]⟩ : Shape))
    (huw : d.updateWindowDims = [(1 : Fin 2)]) (hiw : d.insertedWindowDims = [(0 : Fin 2)])
    (hsd : d.scatterDimsToOperandDims = [(0 : Fin 2)]) (hiv : d.indexVectorDim = 1)
    (x : FVec Ideal (⟨2, ![N, C]⟩ : Shape) φ) (idx : IVec (⟨2, ![E, 1]⟩ : Shape) w)
    (upd : FVec Ideal (⟨2, ![E, C]⟩ : Shape) φ) (i : Fin N) (k : Fin C) :
    Host.scatterAdd d x idx upd (ix2 i k)
      = x (ix2 i k)
        + ∑ e ∈ Finset.univ.filter (fun e : Fin E => (idx (ix2 e (0 : Fin 1))).toInt = (i.val : Int)), upd (ix2 e k) := by
  -- The four field equations make the record literal.
  obtain ⟨uw, iw, sd, iv, wf⟩ := d
  simp only at huw hiw hsd hiv
  subst huw hiw hsd hiv
  show x (ix2 i k) + ∑ j ∈ Finset.univ.filter (fun j => (rowsD wf).resultIdx? j idx = some (ix2 i k)), upd j = _
  congr 1
  -- The updates landing at `(i, k)` are the `(e, k)` with `e` an edge whose index word is `i`: the sums agree along
  -- the bijection `j ↦ j 0`, with inverse `e ↦ (e, k)`.
  refine Finset.sum_nbij' (fun j => j 0) (fun e => ix2 e k) ?_ ?_ ?_ ?_ ?_
  · intro j hj
    rw [Finset.mem_filter] at hj
    exact Finset.mem_filter.2 ⟨Finset.mem_univ _, ((rows_resultIdx_iff wf j idx i k).1 hj.2).1⟩
  · intro e he
    rw [Finset.mem_filter] at he
    exact Finset.mem_filter.2 ⟨Finset.mem_univ _, (rows_resultIdx_iff wf (ix2 e k) idx i k).2 ⟨he.2, rfl⟩⟩
  · intro j hj
    rw [Finset.mem_filter] at hj
    have hjk := ((rows_resultIdx_iff wf j idx i k).1 hj.2).2
    show ix2 (j 0) k = j
    rw [← hjk]; exact (eq_ix2 j).symm
  · intro e he
    rfl
  · intro j hj
    rw [Finset.mem_filter] at hj
    have hjk := ((rows_resultIdx_iff wf j idx i k).1 hj.2).2
    have hje : j = ix2 (j 0) k := by rw [← hjk]; exact eq_ix2 j
    exact congrArg upd hje

/-! ## Scalar updates -/

/-- The dimension numbers of a segment sum of scalars as a literal record: the updates have no window axis, the
    operand's one axis is inserted and is the axis the start index names, and the index vector lies on the scatter
    indices' axis 1. -/
abbrev scalD {N E : Nat}
    (wf : ScatterDims.WF (⟨1, ![N]⟩ : Shape) (⟨2, ![E, 1]⟩ : Shape) (⟨1, ![E]⟩ : Shape) [] [(0 : Fin 1)] [(0 : Fin 1)] 1) :
    ScatterDims (⟨1, ![N]⟩ : Shape) (⟨2, ![E, 1]⟩ : Shape) (⟨1, ![E]⟩ : Shape) :=
  ScatterDims.mk [] [(0 : Fin 1)] [(0 : Fin 1)] 1 wf

/-- Update index `j` reads its start index at the scatter-indices position `(j 0, 0)`. -/
theorem scal_siIdx {N E : Nat}
    (wf : ScatterDims.WF (⟨1, ![N]⟩ : Shape) (⟨2, ![E, 1]⟩ : Shape) (⟨1, ![E]⟩ : Shape) [] [(0 : Fin 1)] [(0 : Fin 1)] 1)
    (j : (⟨1, ![E]⟩ : Shape).Idx) (c : Fin 1) :
    (scalD wf).siIdx j c = ix2 (j 0) (0 : Fin 1) := by
  funext b
  match b with
  | ⟨0, _⟩ =>
    apply Fin.ext
    rfl
  | ⟨1, _⟩ =>
    apply Fin.ext
    have := c.isLt
    show c.val = 0
    omega

/-- On the operand's one axis the window starts at the update's index word, read signed. -/
theorem scal_start0 {N E w : Nat}
    (wf : ScatterDims.WF (⟨1, ![N]⟩ : Shape) (⟨2, ![E, 1]⟩ : Shape) (⟨1, ![E]⟩ : Shape) [] [(0 : Fin 1)] [(0 : Fin 1)] 1)
    (j : (⟨1, ![E]⟩ : Shape).Idx) (idx : IVec (⟨2, ![E, 1]⟩ : Shape) w) :
    (scalD wf).start j idx 0 = (idx (ix2 (j 0) (0 : Fin 1))).toInt := by
  unfold ScatterDims.start
  rw [dif_pos (show (0 : Fin 1) ∈ [(0 : Fin 1)] by decide)]
  rw [scal_siIdx]
  rfl

/-- The operand's one axis is inserted, so the window coordinate on it is `0`. -/
theorem scal_window0 {N E : Nat}
    (wf : ScatterDims.WF (⟨1, ![N]⟩ : Shape) (⟨2, ![E, 1]⟩ : Shape) (⟨1, ![E]⟩ : Shape) [] [(0 : Fin 1)] [(0 : Fin 1)] 1)
    (j : (⟨1, ![E]⟩ : Shape).Idx) :
    (scalD wf).window j 0 = 0 := by
  unfold ScatterDims.window
  have h : (0 : Fin 1) ∉ (scalD wf).sKept := by
    show (0 : Fin 1) ∉ (List.finRange 1).filter (· ∉ [(0 : Fin 1)])
    decide
  rw [dif_neg h]

/-- Update `j` lands at operand element `i` exactly when its index word, read signed, is `i`. -/
theorem scal_resultIdx_iff {N E w : Nat}
    (wf : ScatterDims.WF (⟨1, ![N]⟩ : Shape) (⟨2, ![E, 1]⟩ : Shape) (⟨1, ![E]⟩ : Shape) [] [(0 : Fin 1)] [(0 : Fin 1)] 1)
    (j : (⟨1, ![E]⟩ : Shape).Idx) (idx : IVec (⟨2, ![E, 1]⟩ : Shape) w) (i : Fin N) :
    (scalD wf).resultIdx? j idx = some (ix1 i)
      ↔ (idx (ix2 (j 0) (0 : Fin 1))).toInt = (i.val : Int) := by
  have hs0 := scal_start0 wf j idx
  have hw0 := scal_window0 wf j
  have hi := i.isLt
  unfold ScatterDims.resultIdx?
  split
  · rename_i h
    rw [Option.some.injEq]
    have h0 := h 0
    rw [hs0, hw0] at h0
    constructor
    · intro hf
      have e0 : ((scalD wf).start j idx 0 + ((scalD wf).window j 0 : Nat)).toNat = i.val :=
        congrArg (fun f => (f 0).val) hf
      rw [hs0, hw0] at e0
      omega
    · intro ht
      funext a
      match a with
      | ⟨0, _⟩ =>
        apply Fin.ext
        show ((scalD wf).start j idx 0 + ((scalD wf).window j 0 : Nat)).toNat = i.val
        rw [hs0, hw0]; omega
  · rename_i h
    constructor
    · intro hf; exact absurd hf (by simp)
    · intro ht
      exfalso; apply h
      intro a
      match a with
      | ⟨0, _⟩ =>
        show 0 ≤ (scalD wf).start j idx 0 + ((scalD wf).window j 0 : Nat)
          ∧ (scalD wf).start j idx 0 + ((scalD wf).window j 0 : Nat) < (N : Int)
        rw [hs0, hw0]; omega

/-- Scalar updates: element `i` of the result is the operand's plus the sum over the updates `e` whose index word,
    read signed, is `i`, of the update `e`. -/
theorem scatterAdd_scalars_apply {N E w : Nat} {φ : FTy}
    (d : ScatterDims (⟨1, ![N]⟩ : Shape) (⟨2, ![E, 1]⟩ : Shape) (⟨1, ![E]⟩ : Shape))
    (huw : d.updateWindowDims = []) (hiw : d.insertedWindowDims = [(0 : Fin 1)])
    (hsd : d.scatterDimsToOperandDims = [(0 : Fin 1)]) (hiv : d.indexVectorDim = 1)
    (x : FVec Ideal (⟨1, ![N]⟩ : Shape) φ) (idx : IVec (⟨2, ![E, 1]⟩ : Shape) w)
    (upd : FVec Ideal (⟨1, ![E]⟩ : Shape) φ) (i : Fin N) :
    Host.scatterAdd d x idx upd (ix1 i)
      = x (ix1 i)
        + ∑ e ∈ Finset.univ.filter (fun e : Fin E => (idx (ix2 e (0 : Fin 1))).toInt = (i.val : Int)), upd (ix1 e) := by
  obtain ⟨uw, iw, sd, iv, wf⟩ := d
  simp only at huw hiw hsd hiv
  subst huw hiw hsd hiv
  show x (ix1 i) + ∑ j ∈ Finset.univ.filter (fun j => (scalD wf).resultIdx? j idx = some (ix1 i)), upd j = _
  congr 1
  -- The updates landing at `i` are the edges whose index word is `i`; the sums agree along `j ↦ j 0`.
  refine Finset.sum_nbij' (fun j => j 0) (fun e => ix1 e) ?_ ?_ ?_ ?_ ?_
  · intro j hj
    rw [Finset.mem_filter] at hj
    exact Finset.mem_filter.2 ⟨Finset.mem_univ _, (scal_resultIdx_iff wf j idx i).1 hj.2⟩
  · intro e he
    rw [Finset.mem_filter] at he
    exact Finset.mem_filter.2 ⟨Finset.mem_univ _, (scal_resultIdx_iff wf (ix1 e) idx i).2 he.2⟩
  · intro j hj
    exact (eq_ix1 j).symm
  · intro e he
    rfl
  · intro j hj
    exact congrArg upd (eq_ix1 j)

end Cert.LibSegSum

end
-- ==== Proof.PreIdx.lean ====
/-
  What the precondition says of the edge list's source row: every source index, read as a signed word, is a node
  number, `0 ≤ src e < 200000`. (The precondition is the conjunction of the inputs' finiteness with the two tests
  `src ≥ 0` and `src < 200000`, each reduced by "and" over all edges.) And what a word in that range does in the
  take of rows: the wrap of negative indices leaves it alone, and it passes both range tests of the fill mask.
-/
import proofs.«415627_j68650757260096_3_alg».proof.Pre_finite_inputs
import Idealize.ShloMosaic.Lib.ReduceAll
import Idealize.ShloMosaic.Lib.ValueIdx
import Idealize.ShloMosaic.Lib.Affine
import Idealize.ShloMosaic.Lib.Pipeline.Value

noncomputable section

namespace Cert.PreIdx

open Cert.Pre_finite_inputs Idealize.ShloMosaic Idealize.ShloMosaic.ValueIdx

variable {F : FTy → Type} [FloatOps F] [hF : Cert.Pre_finite_inputs.Facts]

/-- The source row read at an edge: the reshape of the slice of the first row is the edge list at row 0. -/
theorem src_apply (a1 : IVec S2x12800000 32) (e : Fin 12800000) :
    shapeCast S12800000 (extractStridedSlice S1x12800000 ![0, 0] a1 Facts.slices_S2x12800000_S1x12800000_0_0)
      Facts.shapeCasts_S1x12800000_S12800000 (ix1 e) = a1 (ix2 (0 : Fin 2) e) := by
  rw [shapeCast_apply _ Facts.shapeCasts_S1x12800000_S12800000 (ix1 e) (ix2 (0 : Fin 1) e)
    (by rewrite [Shape.rowMajor_val_two, Shape.rowMajor_val_one]; show 0 * 12800000 + e.val = e.val; omega)]
  exact extractStridedSlice_apply ![0, 0] a1 Facts.slices_S2x12800000_S1x12800000_0_0 (ix2 (0 : Fin 1) e) (ix2 (0 : Fin 2) e)
    (fun a => match a with
      | ⟨0, _⟩ => by show (0 : Nat) = 0 + 0; omega
      | ⟨1, _⟩ => by show e.val = 0 + e.val; omega)

/-- Under the precondition every source index is a node number. -/
theorem src_in_range (a0 : FVec F S200000x4 .f32) (a1 : IVec S2x12800000 32) (a2 : FVec F S12800000 .f32)
    (a3 a4 : FVec F S1x200000x32 .f32) (a5 : FVec F S4x4 .f32) (a6 a7 : FVec F S12x4 .f32) (a8 a9 : FVec F S12 .f32)
    (a10 : FVec F S128x4 .f32) (a11 : FVec F S128x32 .f32) (a12 a13 : FVec F S128 .f32) (a14 : FVec F S1x32 .f32)
    (a15 : FVec F S1 .f32)
    (h : fn (F := F) a0 a1 a2 a3 a4 a5 a6 a7 a8 a9 a10 a11 a12 a13 a14 a15 = fun _ => 1#1) (e : Fin 12800000) :
    0 ≤ (a1 (ix2 (0 : Fin 2) e)).toInt ∧ (a1 (ix2 (0 : Fin 2) e)).toInt < 200000 := by
  have h0 := congrFun h ix0
  dsimp only [fn, fn_part1, fn_part2, fn_part3, fn_part4] at h0
  obtain ⟨h1, h84⟩ := IntOp.andi_eq_one.1 h0
  obtain ⟨-, h78⟩ := IntOp.andi_eq_one.1 h1
  haveI : Subsingleton S_.Idx := ⟨fun a b => funext fun d => d.elim0⟩
  have g78 := Host.reduce_andi_all _ _ Facts.reducesTo_S12800000_S_d0 Facts.h_S_ ix0 h78 (ix1 e)
  have g84 := Host.reduce_andi_all _ _ Facts.reducesTo_S12800000_S_d0 Facts.h_S_ ix0 h84 (ix1 e)
  have b0 : broadcastInDim S12800000 ![] Facts.bcast_S_S12800000 (constantI S_ 32 0#32) (ix1 e) = 0#32 :=
    broadcastInDim_apply ![] Facts.bcast_S_S12800000 _ (ix1 e) ix0 (fun a => a.elim0)
  have b1 : broadcastInDim S12800000 ![] Facts.bcast_S_S12800000 (constantI S_ 32 200000#32) (ix1 e) = 200000#32 :=
    broadcastInDim_apply ![] Facts.bcast_S_S12800000 _ (ix1 e) ix0 (fun a => a.elim0)
  have c78 : IntOp.cmpi .sge _ _ = 1#1 := g78
  have c84 : IntOp.cmpi .slt _ _ = 1#1 := g84
  rw [src_apply a1 e, b0] at c78
  rw [src_apply a1 e, b1] at c84
  have hz : (0#32 : BitVec 32).toInt = 0 := by decide
  have hn : (200000#32 : BitVec 32).toInt = 200000 := by decide
  have l := IntOp.cmpi_sge.1 c78
  have u := IntOp.cmpi_slt.1 c84
  rw [hz] at l
  rw [hn] at u
  exact ⟨l, u⟩

/-- A word that is a node number: adding the extent where it is negative changes nothing, and it is at least zero
    and at most the last node number. -/
theorem wrap_pass (a : BitVec 32) (h0 : 0 ≤ a.toInt) (h1 : a.toInt < 200000) :
    Scalar.select (IntOp.cmpi .slt a 0#32) (IntOp.addi a 200000#32) a = a
      ∧ IntOp.cmpi .sge a 0#32 = 1#1 ∧ IntOp.cmpi .sle a 199999#32 = 1#1 := by
  have hz : (0#32 : BitVec 32).toInt = 0 := by decide
  have hm : (199999#32 : BitVec 32).toInt = 199999 := by decide
  refine ⟨?_, IntOp.cmpi_sge.2 (by rw [hz]; exact h0), IntOp.cmpi_sle.2 (by rw [hm]; omega)⟩
  have hc : ¬ IntOp.cmpi .slt a 0#32 = 1#1 := fun hc => by
    have := IntOp.cmpi_slt.1 hc; rw [hz] at this; omega
  rw [eq_zero_of_ne_one hc, select_zero]

end Cert.PreIdx

end
-- ==== Proof.SegBridge.lean ====
/-
  The kernel's one segment sum against the reference's two (on the extended reals).
  When every source index is a node number, the take's fill mask is all ones, so the kernel's messages are the
  reference's (the gathered rows of `x · W` scaled by the edge weights: the two programs' terms are the same). Summed
  per destination node, columns 0…3 of the kernel's 5-column sum are the reference's summed messages, and column 4
  (the ones) is the reference's edge count: each is the sum, over the edges arriving at the node, of the same terms.
-/
import proofs.«415627_j68650757260096_3_alg».proof.Proof.HostTerms
import proofs.«415627_j68650757260096_3_alg».proof.Proof.Gen.ReferenceIdeal.Read
import proofs.«415627_j68650757260096_3_alg».proof.Proof.LibSegSum
import proofs.«415627_j68650757260096_3_alg».proof.Proof.PreIdx
import proofs.«415627_j68650757260096_3_alg».proof.Proof.Gen.Pre_finite_inputs
import proofs.«415627_j68650757260096_3_alg».proof.Proof.Spec
import Idealize.ShloMosaic.PureOps.Reduce
import Idealize.ShloMosaic.Lib.Affine

set_option maxRecDepth 16384

noncomputable section

open scoped BigOperators

namespace Cert.SegBridge

open Idealize.ShloMosaic Idealize.ShloMosaic.ValueIdx
open Cert.KernelIdeal.HostTerms

variable (x0 : (⟨Cert.KernelIdeal.S200000x4, .f32⟩ : BufTy).Contents (Elt Ideal)) (x1 : (⟨Cert.KernelIdeal.S2x12800000, .i32⟩ : BufTy).Contents (Elt Ideal))
  (x2 : (⟨Cert.KernelIdeal.S12800000, .f32⟩ : BufTy).Contents (Elt Ideal)) (x5 : (⟨Cert.KernelIdeal.S4x4, .f32⟩ : BufTy).Contents (Elt Ideal))

/-- Every source index of the edge list, read as a signed word, is a node number. -/
def SrcOk : Prop := ∀ e : Fin 12800000, 0 ≤ (x1 (ix2 (0 : Fin 2) e)).toInt ∧ (x1 (ix2 (0 : Fin 2) e)).toInt < 200000

/-- A fold by "and" from 1 over bits that are all 1 is 1. -/
theorem foldl_andi_ones {ι : Type} (x : ι → BitVec 1) : ∀ (l : List ι), (∀ i ∈ l, x i = 1#1) →
    l.foldl (fun r i => IntOp.andi r (x i)) 1#1 = 1#1
  | [], _ => rfl
  | a :: l, h => by
    rw [List.foldl_cons, h a (List.mem_cons_self ..), show IntOp.andi (1#1 : BitVec 1) 1#1 = 1#1 from by decide]
    exact foldl_andi_ones x l (fun i hi => h i (List.mem_cons_of_mem _ hi))

/-- The source row at an edge is the edge list's row 0. -/
theorem srcRow_at (e : Fin 12800000) : srcRow (F := Ideal) x1 (ix1 e) = x1 (ix2 (0 : Fin 2) e) :=
  Cert.PreIdx.src_apply x1 e

/-- A source index that is a node number is left alone by the wrap of negative indices. -/
theorem wrapped_at (h : SrcOk x1) (e : Fin 12800000) : wrapped (F := Ideal) x1 (ix1 e) = x1 (ix2 (0 : Fin 2) e) := by
  show Scalar.select (IntOp.cmpi .slt (srcRow (F := Ideal) x1 (ix1 e)) 0#32) (IntOp.addi (srcRow (F := Ideal) x1 (ix1 e)) 200000#32)
      (srcRow (F := Ideal) x1 (ix1 e)) = _
  rw [srcRow_at]
  exact (Cert.PreIdx.wrap_pass _ (h e).1 (h e).2).1

/-- The column of start indices at an edge. -/
theorem startIdx_at (e : Fin 12800000) : startIdx (F := Ideal) x1 (ix2 e (0 : Fin 1)) = wrapped (F := Ideal) x1 (ix1 e) := by
  unfold startIdx
  exact broadcastInDim_apply _ _ (wrapped (F := Ideal) x1) (ix2 e (0 : Fin 1)) (ix1 e) (fun a => match a with
    | ⟨0, _⟩ => by show e.val = if (12800000 : Nat) = 1 then 0 else e.val; rw [if_neg (by decide)])

/-- So every edge passes the take's range test. -/
theorem inRange_at (h : SrcOk x1) (e : Fin 12800000) : inRange (F := Ideal) x1 (ix1 e) = 1#1 := by
  unfold inRange
  rw [Host.reduce_eq_foldl]
  refine foldl_andi_ones _ _ (fun i _ => ?_)
  obtain ⟨e', q, rfl⟩ : ∃ (e' : Fin 12800000) (q : Fin 1), i = ix2 e' q := ⟨i 0, i 1, eq_ix2 i⟩
  obtain rfl : q = 0 := Subsingleton.elim _ _
  show IntOp.andi (IntOp.cmpi .sge (startIdx (F := Ideal) x1 (ix2 e' (0 : Fin 1))) 0#32)
      (IntOp.cmpi .sle (startIdx (F := Ideal) x1 (ix2 e' (0 : Fin 1))) 199999#32) = 1#1
  rw [startIdx_at, wrapped_at x1 h]
  have hw := Cert.PreIdx.wrap_pass _ (h e').1 (h e').2
  exact IntOp.andi_eq_one.2 ⟨hw.2.1, hw.2.2⟩

/-- The taken rows are the gathered rows. -/
theorem taken_at (h : SrcOk x1) (e : Fin 12800000) (k : Fin 4) :
    taken (F := Ideal) x0 x1 x5 (ix2 e k) = gathered (F := Ideal) x0 x1 x5 (ix2 e k) := by
  have hm : broadcastInDim Cert.KernelIdeal.S12800000x4 ![0] Cert.KernelIdeal.Gen.bcast_S12800000_S12800000x4_0 (inRange (F := Ideal) x1) (ix2 e k) = 1#1 :=
    (broadcastInDim_apply ![0] Cert.KernelIdeal.Gen.bcast_S12800000_S12800000x4_0 (inRange (F := Ideal) x1) (ix2 e k) (ix1 e) (fun a => match a with
      | ⟨0, _⟩ => by show e.val = if (12800000 : Nat) = 1 then 0 else e.val; rw [if_neg (by decide)])).trans (inRange_at x1 h e)
  unfold taken
  rw [select_apply, hm, select_one]

/-- The gathered rows, and the broadcast edge weights, are the reference's own terms. -/
theorem gathered_eq : gathered (F := Ideal) x0 x1 x5 = Cert.ReferenceIdeal.Read.val_main_v11 (F := Ideal) x0 x1 x5 := rfl
theorem weights_eq : broadcastInDim Cert.KernelIdeal.S12800000x4 ![0, 1] Cert.KernelIdeal.Gen.bcast_S12800000x1_S12800000x4_0_1
      (broadcastInDim Cert.KernelIdeal.S12800000x1 ![0] Cert.KernelIdeal.Gen.bcast_S12800000_S12800000x1_0 x2) = Cert.ReferenceIdeal.Read.val_main_v13 (F := Ideal) x2 := rfl
theorem dstIdx_eq : broadcastInDim Cert.KernelIdeal.S12800000x1 ![0] Cert.KernelIdeal.Gen.bcast_S12800000_S12800000x1_0 (dstRow (F := Ideal) x1)
      = Cert.ReferenceIdeal.Read.val_main_v16 (F := Ideal) x1 := rfl
theorem dstIdx_eq' : broadcastInDim Cert.KernelIdeal.S12800000x1 ![0] Cert.KernelIdeal.Gen.bcast_S12800000_S12800000x1_0 (dstRow (F := Ideal) x1)
      = Cert.ReferenceIdeal.Read.val_main_v20 (F := Ideal) x1 := rfl

/-- The kernel's messages at an edge are the reference's. -/
theorem msgs_at (h : SrcOk x1) (e : Fin 12800000) (k : Fin 4) :
    msgs (F := Ideal) x0 x1 x2 x5 (ix2 e k) = Cert.ReferenceIdeal.Read.val_main_v14 (F := Ideal) x0 x1 x2 x5 (ix2 e k) := by
  unfold msgs
  rw [mulf_apply, taken_at x0 x1 x5 h, gathered_eq, weights_eq]
  rfl

/-- The 5-column payload at an edge: the message in columns 0…3, … -/
theorem payload_msg (e : Fin 12800000) (k : Fin 4) :
    payload5 (F := Ideal) x0 x1 x2 x5 (ix2 e (RowSpec.sh (n := 5) 0 k (by decide))) = msgs (F := Ideal) x0 x1 x2 x5 (ix2 e k) := by
  unfold payload5
  refine concatenate_pair_apply_left (1 : Fin Cert.KernelIdeal.S12800000x5.rank) _ _ Cert.KernelIdeal.Gen.concatenates_S12800000x4_S12800000x1_S12800000x5_d1
    (ix2 e (RowSpec.sh (n := 5) 0 k (by decide))) rfl (ix2 e k) ?_
  intro b
  match b with
  | ⟨0, _⟩ => rfl
  | ⟨1, _⟩ => show k.val = 0 + k.val; omega

/-- … and the word one in column 4. -/
theorem payload_one (e : Fin 12800000) :
    payload5 (F := Ideal) x0 x1 x2 x5 (ix2 e (⟨4, by decide⟩ : Fin 5)) = RowSpec.one := by
  unfold payload5
  refine (concatenate_pair_apply_right (1 : Fin Cert.KernelIdeal.S12800000x5.rank) _ _ Cert.KernelIdeal.Gen.concatenates_S12800000x4_S12800000x1_S12800000x5_d1
    (ix2 e (⟨4, by decide⟩ : Fin 5)) rfl rfl (ix2 e (0 : Fin 1)) ?_ ?_).trans ?_
  · intro b hb
    match b, hb with
    | ⟨0, _⟩, _ => rfl
    | ⟨1, _⟩, hb => exact absurd rfl hb
  · show (0 : Nat) + 4 = 4; rfl
  · rfl

/-- Columns 0…3 of the kernel's segment sum are the reference's summed messages. -/
theorem summed_eq (h : SrcOk x1) (i : Fin 200000) (k : Fin 4) :
    sums5 (F := Ideal) x0 x1 x2 x5 (ix2 i (RowSpec.sh (n := 5) 0 k (by decide))) = Cert.ReferenceIdeal.Read.val_main_v17 (F := Ideal) x0 x1 x2 x5 (ix2 i k) := by
  unfold sums5 Cert.ReferenceIdeal.Read.val_main_v17
  rw [Cert.LibSegSum.scatterAdd_rows_apply _ rfl rfl rfl rfl, Cert.LibSegSum.scatterAdd_rows_apply _ rfl rfl rfl rfl, dstIdx_eq]
  refine congrArg₂ (· + ·) rfl (Finset.sum_congr rfl fun e _ => ?_)
  rw [payload_msg]
  exact msgs_at x0 x1 x2 x5 h e k

/-- Column 4 of the kernel's segment sum is the reference's edge count. -/
theorem count_eq (i : Fin 200000) :
    sums5 (F := Ideal) x0 x1 x2 x5 (ix2 i (⟨4, by decide⟩ : Fin 5)) = Cert.ReferenceIdeal.Read.val_main_v21 (F := Ideal) x1 (ix1 i) := by
  unfold sums5 Cert.ReferenceIdeal.Read.val_main_v21
  rw [Cert.LibSegSum.scatterAdd_rows_apply _ rfl rfl rfl rfl, Cert.LibSegSum.scatterAdd_scalars_apply _ rfl rfl rfl rfl, dstIdx_eq']
  refine congrArg₂ (· + ·) rfl (Finset.sum_congr rfl fun e _ => ?_)
  rw [payload_one]
  rfl

end Cert.SegBridge

end
-- ==== Proof.RowPay.lean ====
/-
  What the kernel body stores at one row of a block, on the extended reals: with the block's loads `v0` (features |
  message sums | count, 9 columns), `v5` (hidden | cell, 64 columns) and the parameter tables as the body finds them
  (the weight tables transposed, the biases as one-row tables), row `r` of the head's 3600×1 result is the dense
  chain's `out` at that node, and row `r` of the 3600×64 result is the new hidden state in columns 0…31 and the new
  cell state in columns 32…63 (the specification `Cert.RowSpec`).
-/
import proofs.«415627_j68650757260096_3_alg».proof.Proof.Gen.KernelIdeal.Skeleton
import proofs.«415627_j68650757260096_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowPay

open Cert.KernelIdeal Cert.KernelIdeal.Gen Idealize.ShloMosaic Idealize.ShloMosaic.ValueIdx

variable (v0 : Vec Ideal S3600x9 .f32) (v5 : Vec Ideal S3600x64 .f32) (v13 v15 : Vec Ideal S4x12 .bf16)
  (v17 v19 : Vec Ideal S1x12 .f32) (v47 : Vec Ideal S4x128 .bf16) (v49 : Vec Ideal S32x128 .bf16)
  (v51 v53 : Vec Ideal S1x128 .f32) (v77 : Vec Ideal S32x1 .bf16) (v79 : Vec Ideal S1x1 .f32)

/-- Row `r` of the first block: the node's features, `k < 4`. -/
abbrev bx (r : Fin 3600) : Fin 4 → EReal := fun k => v0 (ix2 r (RowSpec.sh (n := 9) 0 k (by decide)))
/-- The node's summed messages, columns 4…7. -/
abbrev bs (r : Fin 3600) : Fin 4 → EReal := fun k => v0 (ix2 r (RowSpec.sh (n := 9) 4 k (by decide)))
/-- The node's message count, column 8. -/
abbrev bc (r : Fin 3600) : EReal := v0 (ix2 r (8 : Fin 9))
/-- Row `r` of the second block: the node's previous hidden state, columns 0…31. -/
abbrev bh (r : Fin 3600) : Fin 32 → EReal := fun k => v5 (ix2 r (RowSpec.sh (n := 64) 0 k (by decide)))
/-- The node's previous cell state, columns 32…63. -/
abbrev bcell (r : Fin 3600) : Fin 32 → EReal := fun k => v5 (ix2 r (RowSpec.sh (n := 64) 32 k (by decide)))
/-- A transposed weight table read back in the arguments' layout: entry `(j, k)` is the table's `(k, j)`. -/
abbrev tr {a b : Nat} (w : (⟨2, ![a, b]⟩ : Shape).Idx → EReal) : Fin b → Fin a → EReal := fun j k => w (ix2 k j)
/-- A one-row table as a function of its column. -/
abbrev row1 {b : Nat} (w : (⟨2, ![1, b]⟩ : Shape).Idx → EReal) : Fin b → EReal := fun j => w (ix2 (0 : Fin 1) j)

/-! ## Layout operations read at a row and a column -/

/-- A block cut along its columns from column `o`, read at row `r` and column `k`, is the block at column `o + k`. -/
theorem slice_at {α : Type} {n0 n1 m : Nat} (o : Nat) (X : (⟨2, ![n0, n1]⟩ : Shape).Idx → α)
    (h : (⟨2, ![n0, n1]⟩ : Shape).Slices ![0, o] ⟨2, ![n0, m]⟩) (hle : o + m ≤ n1) (r : Fin n0) (k : Fin m) :
    extractStridedSlice ⟨2, ![n0, m]⟩ ![0, o] X h (ix2 r k) = X (ix2 r (RowSpec.sh (n := n1) o k hle)) :=
  slice2_axis1_apply o X h r k _ rfl

/-- One column spread over `b` columns reads, at `(p, c)`, the column's entry at row `p`. -/
theorem bcast_col_at {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The logistic of a vector at an index is the logistic of the element. -/
theorem logistic_at {s : Shape} {φ : FTy} (a : FVec Ideal s φ) (i : s.Idx) : logistic a i = Ideal.logistic (a i) := rfl
/-- The hyperbolic tangent of a vector at an index is that of the element. -/
theorem tanh_at {s : Shape} {φ : FTy} (a : FVec Ideal s φ) (i : s.Idx) : tanh a i = Ideal.tanh (a i) := rfl

/-! ## The four products -/

/-! The product of a 3600×4 block with a 4×12 table: where each operand is read. -/
theorem lhs_mm12_0 (i : S3600x12.Idx) (q : dot_S3600x4_S4x12_S3600x12_1_0_0_1_n_n.contr.Idx) :
    (dot_S3600x4_S4x12_S3600x12_1_0_0_1_n_n.lhsIdx i q 0).val = (i 0).val := by
  unfold DotDims.lhsIdx
  rw [dif_neg (show ¬(0 : Fin S3600x4.rank) ∈ dot_S3600x4_S4x12_S3600x12_1_0_0_1_n_n.lhsBatch by decide), dif_pos (show (0 : Fin S3600x4.rank) ∈ dot_S3600x4_S4x12_S3600x12_1_0_0_1_n_n.lhsNonContracting by decide)]
  rfl
theorem lhs_mm12_1 (i : S3600x12.Idx) (q : dot_S3600x4_S4x12_S3600x12_1_0_0_1_n_n.contr.Idx) :
    (dot_S3600x4_S4x12_S3600x12_1_0_0_1_n_n.lhsIdx i q 1).val = (q ⟨0, by decide⟩).val :=
  dot_S3600x4_S4x12_S3600x12_1_0_0_1_n_n.lhsIdx_val_of_single rfl i q
theorem rhs_mm12_0 (i : S3600x12.Idx) (q : dot_S3600x4_S4x12_S3600x12_1_0_0_1_n_n.contr.Idx) :
    (dot_S3600x4_S4x12_S3600x12_1_0_0_1_n_n.rhsIdx i q 0).val = (q ⟨0, by decide⟩).val :=
  dot_S3600x4_S4x12_S3600x12_1_0_0_1_n_n.rhsIdx_val_of_single rfl i q
theorem rhs_mm12_1 (i : S3600x12.Idx) (q : dot_S3600x4_S4x12_S3600x12_1_0_0_1_n_n.contr.Idx) :
    (dot_S3600x4_S4x12_S3600x12_1_0_0_1_n_n.rhsIdx i q 1).val = (i 1).val := by
  unfold DotDims.rhsIdx
  rw [dif_neg (show ¬(1 : Fin S4x12.rank) ∈ dot_S3600x4_S4x12_S3600x12_1_0_0_1_n_n.rhsBatch by decide), dif_pos (show (1 : Fin S4x12.rank) ∈ dot_S3600x4_S4x12_S3600x12_1_0_0_1_n_n.rhsNonContracting by decide)]
  rfl

/-- Into the zero table, entry `(r, j)` of the product is the sum over `k` of the block's `(r, k)` times the table's `(k, j)`. -/
theorem mm12_at (l : FVec Ideal S3600x4 .bf16) (w : FVec Ideal S4x12 .bf16) (r : Fin 3600) (j : Fin 12) :
    matmul dot_S3600x4_S4x12_S3600x12_1_0_0_1_n_n none l w (constant (F := Ideal) S3600x12 .f32 0x00000000#32) (ix2 r j)
      = ∑ k : Fin 4, l (ix2 r k) * w (ix2 k j) := by
  refine (Ideal.matmul_constant_zero_apply dot_S3600x4_S4x12_S3600x12_1_0_0_1_n_n none l w (ix2 r j)).trans ?_
  rw [← Equiv.sum_comp (contrEquiv1 dot_S3600x4_S4x12_S3600x12_1_0_0_1_n_n 4 rfl rfl).symm]
  refine Finset.sum_congr rfl fun k _ => ?_
  have hk := contrEquiv1_symm_val dot_S3600x4_S4x12_S3600x12_1_0_0_1_n_n 4 rfl rfl k
  have el : dot_S3600x4_S4x12_S3600x12_1_0_0_1_n_n.lhsIdx (ix2 r j) ((contrEquiv1 dot_S3600x4_S4x12_S3600x12_1_0_0_1_n_n 4 rfl rfl).symm k) = ix2 r k := funext fun a => Fin.ext (by
    match a with
    | ⟨0, _⟩ => exact lhs_mm12_0 _ _
    | ⟨1, _⟩ => exact (lhs_mm12_1 _ _).trans hk)
  have er : dot_S3600x4_S4x12_S3600x12_1_0_0_1_n_n.rhsIdx (ix2 r j) ((contrEquiv1 dot_S3600x4_S4x12_S3600x12_1_0_0_1_n_n 4 rfl rfl).symm k) = ix2 k j := funext fun a => Fin.ext (by
    match a with
    | ⟨0, _⟩ => exact (rhs_mm12_0 _ _).trans hk
    | ⟨1, _⟩ => exact rhs_mm12_1 _ _)
  rw [el, er]

/-! The product of a 3600×4 block with a 4×128 table: where each operand is read. -/
theorem lhs_mm128_0 (i : S3600x128.Idx) (q : dot_S3600x4_S4x128_S3600x128_1_0_0_1_n_n.contr.Idx) :
    (dot_S3600x4_S4x128_S3600x128_1_0_0_1_n_n.lhsIdx i q 0).val = (i 0).val := by
  unfold DotDims.lhsIdx
  rw [dif_neg (show ¬(0 : Fin S3600x4.rank) ∈ dot_S3600x4_S4x128_S3600x128_1_0_0_1_n_n.lhsBatch by decide), dif_pos (show (0 : Fin S3600x4.rank) ∈ dot_S3600x4_S4x128_S3600x128_1_0_0_1_n_n.lhsNonContracting by decide)]
  rfl
theorem lhs_mm128_1 (i : S3600x128.Idx) (q : dot_S3600x4_S4x128_S3600x128_1_0_0_1_n_n.contr.Idx) :
    (dot_S3600x4_S4x128_S3600x128_1_0_0_1_n_n.lhsIdx i q 1).val = (q ⟨0, by decide⟩).val :=
  dot_S3600x4_S4x128_S3600x128_1_0_0_1_n_n.lhsIdx_val_of_single rfl i q
theorem rhs_mm128_0 (i : S3600x128.Idx) (q : dot_S3600x4_S4x128_S3600x128_1_0_0_1_n_n.contr.Idx) :
    (dot_S3600x4_S4x128_S3600x128_1_0_0_1_n_n.rhsIdx i q 0).val = (q ⟨0, by decide⟩).val :=
  dot_S3600x4_S4x128_S3600x128_1_0_0_1_n_n.rhsIdx_val_of_single rfl i q
theorem rhs_mm128_1 (i : S3600x128.Idx) (q : dot_S3600x4_S4x128_S3600x128_1_0_0_1_n_n.contr.Idx) :
    (dot_S3600x4_S4x128_S3600x128_1_0_0_1_n_n.rhsIdx i q 1).val = (i 1).val := by
  unfold DotDims.rhsIdx
  rw [dif_neg (show ¬(1 : Fin S4x128.rank) ∈ dot_S3600x4_S4x128_S3600x128_1_0_0_1_n_n.rhsBatch by decide), dif_pos (show (1 : Fin S4x128.rank) ∈ dot_S3600x4_S4x128_S3600x128_1_0_0_1_n_n.rhsNonContracting by decide)]
  rfl

/-- Into the zero table, entry `(r, j)` of the product is the sum over `k` of the block's `(r, k)` times the table's `(k, j)`. -/
theorem mm128_at (l : FVec Ideal S3600x4 .bf16) (w : FVec Ideal S4x128 .bf16) (r : Fin 3600) (j : Fin 128) :
    matmul dot_S3600x4_S4x128_S3600x128_1_0_0_1_n_n none l w (constant (F := Ideal) S3600x128 .f32 0x00000000#32) (ix2 r j)
      = ∑ k : Fin 4, l (ix2 r k) * w (ix2 k j) := by
  refine (Ideal.matmul_constant_zero_apply dot_S3600x4_S4x128_S3600x128_1_0_0_1_n_n none l w (ix2 r j)).trans ?_
  rw [← Equiv.sum_comp (contrEquiv1 dot_S3600x4_S4x128_S3600x128_1_0_0_1_n_n 4 rfl rfl).symm]
  refine Finset.sum_congr rfl fun k _ => ?_
  have hk := contrEquiv1_symm_val dot_S3600x4_S4x128_S3600x128_1_0_0_1_n_n 4 rfl rfl k
  have el : dot_S3600x4_S4x128_S3600x128_1_0_0_1_n_n.lhsIdx (ix2 r j) ((contrEquiv1 dot_S3600x4_S4x128_S3600x128_1_0_0_1_n_n 4 rfl rfl).symm k) = ix2 r k := funext fun a => Fin.ext (by
    match a with
    | ⟨0, _⟩ => exact lhs_mm128_0 _ _
    | ⟨1, _⟩ => exact (lhs_mm128_1 _ _).trans hk)
  have er : dot_S3600x4_S4x128_S3600x128_1_0_0_1_n_n.rhsIdx (ix2 r j) ((contrEquiv1 dot_S3600x4_S4x128_S3600x128_1_0_0_1_n_n 4 rfl rfl).symm k) = ix2 k j := funext fun a => Fin.ext (by
    match a with
    | ⟨0, _⟩ => exact (rhs_mm128_0 _ _).trans hk
    | ⟨1, _⟩ => exact rhs_mm128_1 _ _)
  rw [el, er]

/-! The product of a 3600×32 block with a 32×128 table: where each operand is read. -/
theorem lhs_mmh128_0 (i : S3600x128.Idx) (q : dot_S3600x32_S32x128_S3600x128_1_0_0_1_n_n.contr.Idx) :
    (dot_S3600x32_S32x128_S3600x128_1_0_0_1_n_n.lhsIdx i q 0).val = (i 0).val := by
  unfold DotDims.lhsIdx
  rw [dif_neg (show ¬(0 : Fin S3600x32.rank) ∈ dot_S3600x32_S32x128_S3600x128_1_0_0_1_n_n.lhsBatch by decide), dif_pos (show (0 : Fin S3600x32.rank) ∈ dot_S3600x32_S32x128_S3600x128_1_0_0_1_n_n.lhsNonContracting by decide)]
  rfl
theorem lhs_mmh128_1 (i : S3600x128.Idx) (q : dot_S3600x32_S32x128_S3600x128_1_0_0_1_n_n.contr.Idx) :
    (dot_S3600x32_S32x128_S3600x128_1_0_0_1_n_n.lhsIdx i q 1).val = (q ⟨0, by decide⟩).val :=
  dot_S3600x32_S32x128_S3600x128_1_0_0_1_n_n.lhsIdx_val_of_single rfl i q
theorem rhs_mmh128_0 (i : S3600x128.Idx) (q : dot_S3600x32_S32x128_S3600x128_1_0_0_1_n_n.contr.Idx) :
    (dot_S3600x32_S32x128_S3600x128_1_0_0_1_n_n.rhsIdx i q 0).val = (q ⟨0, by decide⟩).val :=
  dot_S3600x32_S32x128_S3600x128_1_0_0_1_n_n.rhsIdx_val_of_single rfl i q
theorem rhs_mmh128_1 (i : S3600x128.Idx) (q : dot_S3600x32_S32x128_S3600x128_1_0_0_1_n_n.contr.Idx) :
    (dot_S3600x32_S32x128_S3600x128_1_0_0_1_n_n.rhsIdx i q 1).val = (i 1).val := by
  unfold DotDims.rhsIdx
  rw [dif_neg (show ¬(1 : Fin S32x128.rank) ∈ dot_S3600x32_S32x128_S3600x128_1_0_0_1_n_n.rhsBatch by decide), dif_pos (show (1 : Fin S32x128.rank) ∈ dot_S3600x32_S32x128_S3600x128_1_0_0_1_n_n.rhsNonContracting by decide)]
  rfl

/-- Into the zero table, entry `(r, j)` of the product is the sum over `k` of the block's `(r, k)` times the table's `(k, j)`. -/
theorem mmh128_at (l : FVec Ideal S3600x32 .bf16) (w : FVec Ideal S32x128 .bf16) (r : Fin 3600) (j : Fin 128) :
    matmul dot_S3600x32_S32x128_S3600x128_1_0_0_1_n_n none l w (constant (F := Ideal) S3600x128 .f32 0x00000000#32) (ix2 r j)
      = ∑ k : Fin 32, l (ix2 r k) * w (ix2 k j) := by
  refine (Ideal.matmul_constant_zero_apply dot_S3600x32_S32x128_S3600x128_1_0_0_1_n_n none l w (ix2 r j)).trans ?_
  rw [← Equiv.sum_comp (contrEquiv1 dot_S3600x32_S32x128_S3600x128_1_0_0_1_n_n 32 rfl rfl).symm]
  refine Finset.sum_congr rfl fun k _ => ?_
  have hk := contrEquiv1_symm_val dot_S3600x32_S32x128_S3600x128_1_0_0_1_n_n 32 rfl rfl k
  have el : dot_S3600x32_S32x128_S3600x128_1_0_0_1_n_n.lhsIdx (ix2 r j) ((contrEquiv1 dot_S3600x32_S32x128_S3600x128_1_0_0_1_n_n 32 rfl rfl).symm k) = ix2 r k := funext fun a => Fin.ext (by
    match a with
    | ⟨0, _⟩ => exact lhs_mmh128_0 _ _
    | ⟨1, _⟩ => exact (lhs_mmh128_1 _ _).trans hk)
  have er : dot_S3600x32_S32x128_S3600x128_1_0_0_1_n_n.rhsIdx (ix2 r j) ((contrEquiv1 dot_S3600x32_S32x128_S3600x128_1_0_0_1_n_n 32 rfl rfl).symm k) = ix2 k j := funext fun a => Fin.ext (by
    match a with
    | ⟨0, _⟩ => exact (rhs_mmh128_0 _ _).trans hk
    | ⟨1, _⟩ => exact rhs_mmh128_1 _ _)
  rw [el, er]

/-! The product of a 3600×32 block with a 32×1 table: where each operand is read. -/
theorem lhs_mm1_0 (i : S3600x1.Idx) (q : dot_S3600x32_S32x1_S3600x1_1_0_0_1_n_n.contr.Idx) :
    (dot_S3600x32_S32x1_S3600x1_1_0_0_1_n_n.lhsIdx i q 0).val = (i 0).val := by
  unfold DotDims.lhsIdx
  rw [dif_neg (show ¬(0 : Fin S3600x32.rank) ∈ dot_S3600x32_S32x1_S3600x1_1_0_0_1_n_n.lhsBatch by decide), dif_pos (show (0 : Fin S3600x32.rank) ∈ dot_S3600x32_S32x1_S3600x1_1_0_0_1_n_n.lhsNonContracting by decide)]
  rfl
theorem lhs_mm1_1 (i : S3600x1.Idx) (q : dot_S3600x32_S32x1_S3600x1_1_0_0_1_n_n.contr.Idx) :
    (dot_S3600x32_S32x1_S3600x1_1_0_0_1_n_n.lhsIdx i q 1).val = (q ⟨0, by decide⟩).val :=
  dot_S3600x32_S32x1_S3600x1_1_0_0_1_n_n.lhsIdx_val_of_single rfl i q
theorem rhs_mm1_0 (i : S3600x1.Idx) (q : dot_S3600x32_S32x1_S3600x1_1_0_0_1_n_n.contr.Idx) :
    (dot_S3600x32_S32x1_S3600x1_1_0_0_1_n_n.rhsIdx i q 0).val = (q ⟨0, by decide⟩).val :=
  dot_S3600x32_S32x1_S3600x1_1_0_0_1_n_n.rhsIdx_val_of_single rfl i q
theorem rhs_mm1_1 (i : S3600x1.Idx) (q : dot_S3600x32_S32x1_S3600x1_1_0_0_1_n_n.contr.Idx) :
    (dot_S3600x32_S32x1_S3600x1_1_0_0_1_n_n.rhsIdx i q 1).val = (i 1).val := by
  unfold DotDims.rhsIdx
  rw [dif_neg (show ¬(1 : Fin S32x1.rank) ∈ dot_S3600x32_S32x1_S3600x1_1_0_0_1_n_n.rhsBatch by decide), dif_pos (show (1 : Fin S32x1.rank) ∈ dot_S3600x32_S32x1_S3600x1_1_0_0_1_n_n.rhsNonContracting by decide)]
  rfl

/-- Into the zero table, entry `(r, j)` of the product is the sum over `k` of the block's `(r, k)` times the table's `(k, j)`. -/
theorem mm1_at (l : FVec Ideal S3600x32 .bf16) (w : FVec Ideal S32x1 .bf16) (r : Fin 3600) (j : Fin 1) :
    matmul dot_S3600x32_S32x1_S3600x1_1_0_0_1_n_n none l w (constant (F := Ideal) S3600x1 .f32 0x00000000#32) (ix2 r j)
      = ∑ k : Fin 32, l (ix2 r k) * w (ix2 k j) := by
  refine (Ideal.matmul_constant_zero_apply dot_S3600x32_S32x1_S3600x1_1_0_0_1_n_n none l w (ix2 r j)).trans ?_
  rw [← Equiv.sum_comp (contrEquiv1 dot_S3600x32_S32x1_S3600x1_1_0_0_1_n_n 32 rfl rfl).symm]
  refine Finset.sum_congr rfl fun k _ => ?_
  have hk := contrEquiv1_symm_val dot_S3600x32_S32x1_S3600x1_1_0_0_1_n_n 32 rfl rfl k
  have el : dot_S3600x32_S32x1_S3600x1_1_0_0_1_n_n.lhsIdx (ix2 r j) ((contrEquiv1 dot_S3600x32_S32x1_S3600x1_1_0_0_1_n_n 32 rfl rfl).symm k) = ix2 r k := funext fun a => Fin.ext (by
    match a with
    | ⟨0, _⟩ => exact lhs_mm1_0 _ _
    | ⟨1, _⟩ => exact (lhs_mm1_1 _ _).trans hk)
  have er : dot_S3600x32_S32x1_S3600x1_1_0_0_1_n_n.rhsIdx (ix2 r j) ((contrEquiv1 dot_S3600x32_S32x1_S3600x1_1_0_0_1_n_n 32 rfl rfl).symm k) = ix2 k j := funext fun a => Fin.ext (by
    match a with
    | ⟨0, _⟩ => exact (rhs_mm1_0 _ _).trans hk
    | ⟨1, _⟩ => exact rhs_mm1_1 _ _)
  rw [el, er]

/-! ## The loads' slices -/

/-- The features' slice at `(r, k)` is the first block's column `k`. -/
theorem pay3_at (r : Fin 3600) (k : Fin 4) : k0_pay3 (F := Ideal) v0 (ix2 r k) = bx v0 r k := by
  unfold k0_pay3 k0_pay2
  rw [shapeCast_self]
  exact slice_at 0 v0 _ (by decide) r k

/-- The hidden state's slice at `(r, k)` is the second block's column `k`. -/
theorem pay5_at (r : Fin 3600) (k : Fin 32) : k0_pay5 (F := Ideal) v5 (ix2 r k) = bh v5 r k := by
  unfold k0_pay5 k0_pay4
  rw [shapeCast_self]
  exact slice_at 0 v5 _ (by decide) r k

/-- The cell state's slice at `(r, k)` is the second block's column `32 + k`. -/
theorem pay6_at (r : Fin 3600) (k : Fin 32) : k0_pay6 (F := Ideal) v5 (ix2 r k) = bcell v5 r k := by
  unfold k0_pay6 k0_pay4
  rw [shapeCast_self]
  exact slice_at 32 v5 _ (by decide) r k

/-! ## The gated unit's two affine maps -/

/-- The affine map of the mean message at `(r, j)`. -/
theorem pay7_at (r : Fin 3600) (j : Fin 12) :
    k0_pay7 (F := Ideal) v0 v13 v17 (ix2 r j) = RowSpec.gi (bs v0 r) (bc v0 r) (tr v13) (row1 v17) j := by
  unfold k0_pay7 k0_pay2 RowSpec.gi
  simp only [shapeCast_self]
  rw [addf_apply, mm12_at, broadcastTo_1b_ab_apply]
  refine congrArg (· + v17 (ix2 (0 : Fin 1) j)) (Finset.sum_congr rfl fun k _ => ?_)
  rw [truncf_apply, divf_apply, bcast_col_at, maximumf_apply, broadcast_apply,
    slice_at 4 v0 _ (by decide) r k, slice_at 8 v0 _ (by decide) r (0 : Fin 1)]
  rfl

/-- The affine map of the node's own features at `(r, j)`. -/
theorem pay8_at (r : Fin 3600) (j : Fin 12) :
    k0_pay8 (F := Ideal) v0 v15 v19 (ix2 r j) = RowSpec.gh (bx v0 r) (tr v15) (row1 v19) j := by
  unfold k0_pay8 RowSpec.gh
  simp only [shapeCast_self]
  rw [addf_apply, mm12_at, broadcastTo_1b_ab_apply]
  refine congrArg (· + v19 (ix2 (0 : Fin 1) j)) (Finset.sum_congr rfl fun k _ => ?_)
  rw [truncf_apply, pay3_at]

/-! ## The gates of the gated unit -/

/-- The update gate at `(r, k)`. -/
theorem pay9_at (r : Fin 3600) (k : Fin 4) :
    k0_pay9 (F := Ideal) v0 v13 v15 v17 v19 (ix2 r k)
      = RowSpec.zg (bx v0 r) (bs v0 r) (bc v0 r) (tr v13) (tr v15) (row1 v17) (row1 v19) k := by
  unfold k0_pay9 RowSpec.zg
  rw [logistic_at, addf_apply, slice_at 4 (k0_pay7 (F := Ideal) v0 v13 v17) _ (by decide) r k,
    slice_at 4 (k0_pay8 (F := Ideal) v0 v15 v19) _ (by decide) r k, pay7_at, pay8_at]

/-- The candidate state at `(r, k)`; the reset gate is computed on the way. -/
theorem pay10_at (r : Fin 3600) (k : Fin 4) :
    k0_pay10 (F := Ideal) v0 v13 v15 v17 v19 (ix2 r k)
      = RowSpec.ng (bx v0 r) (bs v0 r) (bc v0 r) (tr v13) (tr v15) (row1 v17) (row1 v19) k := by
  unfold k0_pay10 RowSpec.ng RowSpec.rg
  rw [tanh_at, addf_apply, mulf_apply, logistic_at, addf_apply,
    slice_at 8 (k0_pay7 (F := Ideal) v0 v13 v17) _ (by decide) r k,
    slice_at 0 (k0_pay7 (F := Ideal) v0 v13 v17) _ (by decide) r k,
    slice_at 0 (k0_pay8 (F := Ideal) v0 v15 v19) _ (by decide) r k,
    slice_at 8 (k0_pay8 (F := Ideal) v0 v15 v19) _ (by decide) r k, pay7_at, pay7_at, pay8_at, pay8_at]

/-- The splat of the word 1.0. -/
theorem pay11_at (r : Fin 3600) (k : Fin 4) : k0_pay11 (F := Ideal) (ix2 r k) = RowSpec.one := rfl

/-! ## The long-short-term cell and the head, over any vectors that hold the node's data at row `r` -/

section Cell

variable (v2 : FVec Ideal S3600x4 .f32) (v7 v8 : FVec Ideal S3600x32 .f32) (v38 v41 v42 : FVec Ideal S3600x4 .f32)
  (r : Fin 3600) (xr sr : Fin 4 → EReal) (cn : EReal) (hr cr : Fin 32 → EReal)
  (wih whh : Fin 12 → Fin 4 → EReal) (bih bhh : Fin 12 → EReal)
  (h2 : ∀ k, v2 (ix2 r k) = xr k) (h7 : ∀ k, v7 (ix2 r k) = hr k) (h8 : ∀ k, v8 (ix2 r k) = cr k)
  (h38 : ∀ k, v38 (ix2 r k) = RowSpec.zg xr sr cn wih whh bih bhh k)
  (h41 : ∀ k, v41 (ix2 r k) = RowSpec.ng xr sr cn wih whh bih bhh k)
  (h42 : ∀ k, v42 (ix2 r k) = RowSpec.one)

include h2 h7 h38 h41 h42 in
/-- The cell's four gates before their squashing, at `(r, j)`. -/
theorem pay12_at (j : Fin 128) :
    k0_pay12 (F := Ideal) v2 v7 v38 v41 v42 v47 v49 v51 v53 (ix2 r j)
      = RowSpec.gates xr sr cn hr wih whh bih bhh (tr v47) (tr v49) (row1 v51) (row1 v53) j := by
  unfold k0_pay12 RowSpec.gates RowSpec.hc
  simp only [shapeCast_self]
  rw [addf_apply, addf_apply, addf_apply, mm128_at, mmh128_at, broadcastTo_1b_ab_apply, broadcastTo_1b_ab_apply]
  simp only [truncf_apply, addf_apply, mulf_apply, subf_apply, h2, h7, h38, h41, h42]

include h2 h7 h8 h38 h41 h42 in
/-- The new cell state at `(r, j)`. -/
theorem pay13_at (j : Fin 32) :
    k0_pay13 (F := Ideal) v2 v7 v8 v38 v41 v42 v47 v49 v51 v53 (ix2 r j)
      = RowSpec.cnew xr sr cn hr cr wih whh bih bhh (tr v47) (tr v49) (row1 v51) (row1 v53) j := by
  unfold k0_pay13 RowSpec.cnew
  rw [addf_apply, mulf_apply, mulf_apply, logistic_at, logistic_at, tanh_at, h8,
    slice_at 32 (k0_pay12 (F := Ideal) v2 v7 v38 v41 v42 v47 v49 v51 v53) _ (by decide) r j,
    slice_at 0 (k0_pay12 (F := Ideal) v2 v7 v38 v41 v42 v47 v49 v51 v53) _ (by decide) r j,
    slice_at 64 (k0_pay12 (F := Ideal) v2 v7 v38 v41 v42 v47 v49 v51 v53) _ (by decide) r j,
    pay12_at v47 v49 v51 v53 v2 v7 v38 v41 v42 r xr sr cn hr wih whh bih bhh h2 h7 h38 h41 h42,
    pay12_at v47 v49 v51 v53 v2 v7 v38 v41 v42 r xr sr cn hr wih whh bih bhh h2 h7 h38 h41 h42,
    pay12_at v47 v49 v51 v53 v2 v7 v38 v41 v42 r xr sr cn hr wih whh bih bhh h2 h7 h38 h41 h42]

include h2 h7 h8 h38 h41 h42 in
/-- The new hidden state at `(r, j)`. -/
theorem pay14_at (j : Fin 32) :
    k0_pay14 (F := Ideal) v2 v7 v8 v38 v41 v42 v47 v49 v51 v53 (ix2 r j)
      = RowSpec.hnew xr sr cn hr cr wih whh bih bhh (tr v47) (tr v49) (row1 v51) (row1 v53) j := by
  unfold k0_pay14 RowSpec.hnew
  rw [mulf_apply, logistic_at, tanh_at,
    slice_at 96 (k0_pay12 (F := Ideal) v2 v7 v38 v41 v42 v47 v49 v51 v53) _ (by decide) r j,
    pay12_at v47 v49 v51 v53 v2 v7 v38 v41 v42 r xr sr cn hr wih whh bih bhh h2 h7 h38 h41 h42,
    pay13_at v47 v49 v51 v53 v2 v7 v8 v38 v41 v42 r xr sr cn hr cr wih whh bih bhh h2 h7 h8 h38 h41 h42]

include h2 h7 h8 h38 h41 h42 in
/-- The head's value at row `r`. -/
theorem pay15_at :
    k0_pay15 (F := Ideal) v2 v7 v8 v38 v41 v42 v47 v49 v51 v53 v77 v79 (ix2 r (0 : Fin 1))
      = RowSpec.out xr sr cn hr cr wih whh bih bhh (tr v47) (tr v49) (row1 v51) (row1 v53)
          (fun k => v77 (ix2 k (0 : Fin 1))) (v79 (ix2 (0 : Fin 1) (0 : Fin 1))) := by
  unfold k0_pay15 RowSpec.out
  simp only [shapeCast_self]
  rw [addf_apply, mm1_at, broadcastTo_1b_ab_apply]
  refine congrArg (· + v79 (ix2 (0 : Fin 1) (0 : Fin 1))) (Finset.sum_congr rfl fun k _ => ?_)
  rw [truncf_apply, maximumf_apply, broadcast_apply,
    pay14_at v47 v49 v51 v53 v2 v7 v8 v38 v41 v42 r xr sr cn hr cr wih whh bih bhh h2 h7 h8 h38 h41 h42]
  rfl

end Cell

/-! ## The two pieces of the stored state block -/

/-- A column below 32 of the joined block reads its first piece. -/
theorem pay1_left (v74 v76 : FVec Ideal S3600x32 .f32) (r : Fin 3600) (j : Fin 32) :
    k0_pay1 (F := Ideal) v74 v76 (ix2 r (RowSpec.sh (n := 64) 0 j (by decide))) = v76 (ix2 r j) := by
  unfold k0_pay1
  refine concatenate_pair_apply_left (t := S3600x64) (1 : Fin S3600x64.rank) v76 v74
    concatenates_S3600x32_S3600x32_S3600x64_d1 (ix2 r (RowSpec.sh (n := 64) 0 j (by decide))) rfl (ix2 r j) fun b => ?_
  match b with
  | ⟨0, _⟩ => rfl
  | ⟨1, _⟩ => exact (Nat.zero_add _).symm

/-- A column from 32 on reads its second piece, 32 columns back. -/
theorem pay1_right (v74 v76 : FVec Ideal S3600x32 .f32) (r : Fin 3600) (j : Fin 32) :
    k0_pay1 (F := Ideal) v74 v76 (ix2 r (RowSpec.sh (n := 64) 32 j (by decide))) = v74 (ix2 r j) := by
  unfold k0_pay1
  refine concatenate_pair_apply_right (t := S3600x64) (1 : Fin S3600x64.rank) v76 v74
    concatenates_S3600x32_S3600x32_S3600x64_d1 (ix2 r (RowSpec.sh (n := 64) 32 j (by decide))) rfl rfl (ix2 r j)
    (fun b hb => ?_) (Nat.add_comm j.val 32)
  match b, hb with
  | ⟨0, _⟩, _ => rfl
  | ⟨1, _⟩, hb => exact absurd rfl hb

/-! ## The stored values -/

/-- The head's stored value at row `r` is the dense chain's output at that node. -/
theorem head_at (r : Fin 3600) :
    k0_pay15 (F := Ideal) (k0_pay3 v0) (k0_pay5 v5) (k0_pay6 v5) (k0_pay9 v0 v13 v15 v17 v19) (k0_pay10 v0 v13 v15 v17 v19)
        (k0_pay11 (F := Ideal)) v47 v49 v51 v53 v77 v79 (ix2 r (0 : Fin 1))
      = RowSpec.out (bx v0 r) (bs v0 r) (bc v0 r) (bh v5 r) (bcell v5 r) (tr v13) (tr v15) (row1 v17) (row1 v19)
          (tr v47) (tr v49) (row1 v51) (row1 v53) (fun k => v77 (ix2 k (0 : Fin 1))) (v79 (ix2 (0 : Fin 1) (0 : Fin 1))) := by
  exact pay15_at v47 v49 v51 v53 v77 v79 (k0_pay3 v0) (k0_pay5 v5) (k0_pay6 v5) (k0_pay9 v0 v13 v15 v17 v19) (k0_pay10 v0 v13 v15 v17 v19)
      (k0_pay11 (F := Ideal)) r (bx v0 r) (bs v0 r) (bc v0 r) (bh v5 r) (bcell v5 r) (tr v13) (tr v15) (row1 v17) (row1 v19)
      (pay3_at v0 r) (pay5_at v5 r) (pay6_at v5 r) (pay9_at v0 v13 v15 v17 v19 r) (pay10_at v0 v13 v15 v17 v19 r) (pay11_at r)

/-- The state block's stored value at row `r`: the new hidden state in its first 32 columns, … -/
theorem state_hidden_at (r : Fin 3600) (j : Fin 32) :
    k0_pay1 (F := Ideal)
        (k0_pay13 (k0_pay3 v0) (k0_pay5 v5) (k0_pay6 v5) (k0_pay9 v0 v13 v15 v17 v19) (k0_pay10 v0 v13 v15 v17 v19) (k0_pay11 (F := Ideal)) v47 v49 v51 v53)
        (k0_pay14 (k0_pay3 v0) (k0_pay5 v5) (k0_pay6 v5) (k0_pay9 v0 v13 v15 v17 v19) (k0_pay10 v0 v13 v15 v17 v19) (k0_pay11 (F := Ideal)) v47 v49 v51 v53)
        (ix2 r (RowSpec.sh (n := 64) 0 j (by decide)))
      = RowSpec.hnew (bx v0 r) (bs v0 r) (bc v0 r) (bh v5 r) (bcell v5 r) (tr v13) (tr v15) (row1 v17) (row1 v19)
          (tr v47) (tr v49) (row1 v51) (row1 v53) j := by
  exact (pay1_left _ _ r j).trans
    (pay14_at v47 v49 v51 v53 (k0_pay3 v0) (k0_pay5 v5) (k0_pay6 v5) (k0_pay9 v0 v13 v15 v17 v19) (k0_pay10 v0 v13 v15 v17 v19)
      (k0_pay11 (F := Ideal)) r (bx v0 r) (bs v0 r) (bc v0 r) (bh v5 r) (bcell v5 r) (tr v13) (tr v15) (row1 v17) (row1 v19)
      (pay3_at v0 r) (pay5_at v5 r) (pay6_at v5 r) (pay9_at v0 v13 v15 v17 v19 r) (pay10_at v0 v13 v15 v17 v19 r) (pay11_at r) j)

/-- … and the new cell state in its last 32. -/
theorem state_cell_at (r : Fin 3600) (j : Fin 32) :
    k0_pay1 (F := Ideal)
        (k0_pay13 (k0_pay3 v0) (k0_pay5 v5) (k0_pay6 v5) (k0_pay9 v0 v13 v15 v17 v19) (k0_pay10 v0 v13 v15 v17 v19) (k0_pay11 (F := Ideal)) v47 v49 v51 v53)
        (k0_pay14 (k0_pay3 v0) (k0_pay5 v5) (k0_pay6 v5) (k0_pay9 v0 v13 v15 v17 v19) (k0_pay10 v0 v13 v15 v17 v19) (k0_pay11 (F := Ideal)) v47 v49 v51 v53)
        (ix2 r (RowSpec.sh (n := 64) 32 j (by decide)))
      = RowSpec.cnew (bx v0 r) (bs v0 r) (bc v0 r) (bh v5 r) (bcell v5 r) (tr v13) (tr v15) (row1 v17) (row1 v19)
          (tr v47) (tr v49) (row1 v51) (row1 v53) j := by
  exact (pay1_right _ _ r j).trans
    (pay13_at v47 v49 v51 v53 (k0_pay3 v0) (k0_pay5 v5) (k0_pay6 v5) (k0_pay9 v0 v13 v15 v17 v19) (k0_pay10 v0 v13 v15 v17 v19)
      (k0_pay11 (F := Ideal)) r (bx v0 r) (bs v0 r) (bc v0 r) (bh v5 r) (bcell v5 r) (tr v13) (tr v15) (row1 v17) (row1 v19)
      (pay3_at v0 r) (pay5_at v5 r) (pay6_at v5 r) (pay9_at v0 v13 v15 v17 v19 r) (pay10_at v0 v13 v15 v17 v19 r) (pay11_at r) j)

end Cert.KernelIdeal.RowPay

end
-- ==== Proof.NodeOut.lean ====
/-
  From what each grid point writes back to the two result arrays whole (at the ideal instance).
  Point `t` of the 56 works on nodes `3600·t … 3600·t + 3599`: its two data blocks are those rows of the padded
  node arrays, its ten parameter blocks are the whole parameter tables, and what it writes back to the head's array
  and to the state array are those rows of ONE function of the region's arrays: row `n` of the head's array is the dense
  chain's output at node `n`, row `n` of the state array its new hidden state (columns 0…31) and new cell state
  (columns 32…63), read off row `n` of the two padded node arrays. The 56 blocks cover the 201600 rows.
-/
import proofs.«415627_j68650757260096_3_alg».proof.Proof.FrameI
import proofs.«415627_j68650757260096_3_alg».proof.Proof.RowPay
import Idealize.ShloMosaic.Lib.Pipeline.Value

set_option maxRecDepth 16384

noncomputable section

open scoped BigOperators

namespace Cert.KernelIdeal.NodeOut

open Cert.KernelIdeal Cert.KernelIdeal.Gen Cert.KernelIdeal.Entry Cert.KernelIdeal.Frm
open Idealize.ShloMosaic Idealize.ShloMosaic.TcCoe Idealize.SL.Sem Idealize.ShloMosaic.ValueIdx
open Idealize.ShloMosaic.Pipeline (Dat)

/-! ## The two result arrays as functions of the region's arrays -/

section Spec

variable (A0 : Vec Ideal S201600x9 .f32) (A1 : Vec Ideal S201600x64 .f32) (P2 P3 : Vec Ideal S4x12 .bf16) (P4 P5 : Vec Ideal S1x12 .f32) (P6 : Vec Ideal S4x128 .bf16) (P7 : Vec Ideal S32x128 .bf16) (P8 P9 : Vec Ideal S1x128 .f32)
  (P10 : Vec Ideal S32x1 .bf16) (P11 : Vec Ideal S1x1 .f32)

/-- Node `n`'s features in the first padded array. -/
abbrev rowX (A0 : Vec Ideal S201600x9 .f32) (n : Fin 201600) : Fin 4 → EReal := fun k => A0 (ix2 n (RowSpec.sh (n := 9) 0 k (by decide)))
/-- Node `n`'s summed messages. -/
abbrev rowS (A0 : Vec Ideal S201600x9 .f32) (n : Fin 201600) : Fin 4 → EReal := fun k => A0 (ix2 n (RowSpec.sh (n := 9) 4 k (by decide)))
/-- Node `n`'s previous hidden state in the second padded array. -/
abbrev rowH (A1 : Vec Ideal S201600x64 .f32) (n : Fin 201600) : Fin 32 → EReal := fun k => A1 (ix2 n (RowSpec.sh (n := 64) 0 k (by decide)))
/-- Node `n`'s previous cell state. -/
abbrev rowC (A1 : Vec Ideal S201600x64 .f32) (n : Fin 201600) : Fin 32 → EReal := fun k => A1 (ix2 n (RowSpec.sh (n := 64) 32 k (by decide)))

/-- The head's array: at row `n` the dense chain's output at node `n`. -/
def headOf : Vec Ideal S201600x1 .f32 := fun i =>
  RowSpec.out (rowX A0 (i 0)) (rowS A0 (i 0)) (A0 (ix2 (i 0) (8 : Fin 9))) (rowH A1 (i 0)) (rowC A1 (i 0)) (RowPay.tr P2) (RowPay.tr P3) (RowPay.row1 P4) (RowPay.row1 P5) (RowPay.tr P6) (RowPay.tr P7) (RowPay.row1 P8) (RowPay.row1 P9) (fun k => P10 (ix2 k (0 : Fin 1))) (P11 (ix2 (0 : Fin 1) (0 : Fin 1)))

/-- The state array: at row `n` the new hidden state in columns 0…31 and the new cell state in columns 32…63. -/
def stateOf : Vec Ideal S201600x64 .f32 := fun i =>
  if h : (i 1).val < 32 then RowSpec.hnew (rowX A0 (i 0)) (rowS A0 (i 0)) (A0 (ix2 (i 0) (8 : Fin 9))) (rowH A1 (i 0)) (rowC A1 (i 0)) (RowPay.tr P2) (RowPay.tr P3) (RowPay.row1 P4) (RowPay.row1 P5) (RowPay.tr P6) (RowPay.tr P7) (RowPay.row1 P8) (RowPay.row1 P9) ⟨(i 1).val, h⟩
  else RowSpec.cnew (rowX A0 (i 0)) (rowS A0 (i 0)) (A0 (ix2 (i 0) (8 : Fin 9))) (rowH A1 (i 0)) (rowC A1 (i 0)) (RowPay.tr P2) (RowPay.tr P3) (RowPay.row1 P4) (RowPay.row1 P5) (RowPay.tr P6) (RowPay.tr P7) (RowPay.row1 P8) (RowPay.row1 P9) ⟨(i 1).val - 32, by have := idx2_lt1 i; omega⟩

/-- The head's array at row `n`. -/
theorem headOf_at (n : Fin 201600) : headOf A0 A1 P2 P3 P4 P5 P6 P7 P8 P9 P10 P11 (ix2 n (0 : Fin 1))
    = RowSpec.out (rowX A0 n) (rowS A0 n) (A0 (ix2 n (8 : Fin 9))) (rowH A1 n) (rowC A1 n) (RowPay.tr P2) (RowPay.tr P3) (RowPay.row1 P4) (RowPay.row1 P5) (RowPay.tr P6) (RowPay.tr P7) (RowPay.row1 P8) (RowPay.row1 P9) (fun k => P10 (ix2 k (0 : Fin 1))) (P11 (ix2 (0 : Fin 1) (0 : Fin 1))) := rfl

/-- The state array at row `n`, a hidden-state column. -/
theorem stateOf_lt (n : Fin 201600) (j : Fin 64) (h : j.val < 32) : stateOf A0 A1 P2 P3 P4 P5 P6 P7 P8 P9 (ix2 n j)
    = RowSpec.hnew (rowX A0 n) (rowS A0 n) (A0 (ix2 n (8 : Fin 9))) (rowH A1 n) (rowC A1 n) (RowPay.tr P2) (RowPay.tr P3) (RowPay.row1 P4) (RowPay.row1 P5) (RowPay.tr P6) (RowPay.tr P7) (RowPay.row1 P8) (RowPay.row1 P9) ⟨j.val, h⟩ := by
  show (if h : j.val < 32 then RowSpec.hnew (rowX A0 n) (rowS A0 n) (A0 (ix2 n (8 : Fin 9))) (rowH A1 n) (rowC A1 n) (RowPay.tr P2) (RowPay.tr P3) (RowPay.row1 P4) (RowPay.row1 P5) (RowPay.tr P6) (RowPay.tr P7) (RowPay.row1 P8) (RowPay.row1 P9) ⟨j.val, h⟩
    else RowSpec.cnew (rowX A0 n) (rowS A0 n) (A0 (ix2 n (8 : Fin 9))) (rowH A1 n) (rowC A1 n) (RowPay.tr P2) (RowPay.tr P3) (RowPay.row1 P4) (RowPay.row1 P5) (RowPay.tr P6) (RowPay.tr P7) (RowPay.row1 P8) (RowPay.row1 P9) ⟨j.val - 32, by have := j.isLt; omega⟩) = _
  exact dif_pos h

/-- The state array at row `n`, a cell-state column. -/
theorem stateOf_ge (n : Fin 201600) (j : Fin 64) (h : ¬ j.val < 32) : stateOf A0 A1 P2 P3 P4 P5 P6 P7 P8 P9 (ix2 n j)
    = RowSpec.cnew (rowX A0 n) (rowS A0 n) (A0 (ix2 n (8 : Fin 9))) (rowH A1 n) (rowC A1 n) (RowPay.tr P2) (RowPay.tr P3) (RowPay.row1 P4) (RowPay.row1 P5) (RowPay.tr P6) (RowPay.tr P7) (RowPay.row1 P8) (RowPay.row1 P9) ⟨j.val - 32, by have := j.isLt; omega⟩ := by
  show (if h : j.val < 32 then RowSpec.hnew (rowX A0 n) (rowS A0 n) (A0 (ix2 n (8 : Fin 9))) (rowH A1 n) (rowC A1 n) (RowPay.tr P2) (RowPay.tr P3) (RowPay.row1 P4) (RowPay.row1 P5) (RowPay.tr P6) (RowPay.tr P7) (RowPay.row1 P8) (RowPay.row1 P9) ⟨j.val, h⟩
    else RowSpec.cnew (rowX A0 n) (rowS A0 n) (A0 (ix2 n (8 : Fin 9))) (rowH A1 n) (rowC A1 n) (RowPay.tr P2) (RowPay.tr P3) (RowPay.row1 P4) (RowPay.row1 P5) (RowPay.tr P6) (RowPay.tr P7) (RowPay.row1 P8) (RowPay.row1 P9) ⟨j.val - 32, by have := j.isLt; omega⟩) = _
  exact dif_neg h

variable (x0 : Vec Ideal S3600x9 .f32) (x1 : Vec Ideal S3600x64 .f32)

/-- Row `r` of a point's head block, when the point's data blocks hold node `n`'s rows at `r`. -/
theorem head_row (n : Fin 201600) (r : Fin 3600) (h0 : ∀ q : Fin 9, x0 (ix2 r q) = A0 (ix2 n q)) (h1 : ∀ q : Fin 64, x1 (ix2 r q) = A1 (ix2 n q)) :
    k0_pay15 (F := Ideal) (k0_pay3 x0) (k0_pay5 x1) (k0_pay6 x1) (k0_pay9 x0 P2 P3 P4 P5) (k0_pay10 x0 P2 P3 P4 P5) (k0_pay11 (F := Ideal)) P6 P7 P8 P9 P10 P11 (ix2 r (0 : Fin 1))
      = headOf A0 A1 P2 P3 P4 P5 P6 P7 P8 P9 P10 P11 (ix2 n (0 : Fin 1)) := by
  have e0 : RowPay.bx x0 r = rowX A0 n := funext fun k => h0 _
  have e1 : RowPay.bs x0 r = rowS A0 n := funext fun k => h0 _
  have e2 : RowPay.bc x0 r = A0 (ix2 n (8 : Fin 9)) := h0 _
  have e3 : RowPay.bh x1 r = rowH A1 n := funext fun k => h1 _
  have e4 : RowPay.bcell x1 r = rowC A1 n := funext fun k => h1 _
  rw [RowPay.head_at, headOf_at, e0, e1, e2, e3, e4]

/-- Row `r` of a point's state block, column `j`. -/
theorem state_row (n : Fin 201600) (r : Fin 3600) (j : Fin 64) (h0 : ∀ q : Fin 9, x0 (ix2 r q) = A0 (ix2 n q)) (h1 : ∀ q : Fin 64, x1 (ix2 r q) = A1 (ix2 n q)) :
    k0_pay1 (F := Ideal) (k0_pay13 (k0_pay3 x0) (k0_pay5 x1) (k0_pay6 x1) (k0_pay9 x0 P2 P3 P4 P5) (k0_pay10 x0 P2 P3 P4 P5) (k0_pay11 (F := Ideal)) P6 P7 P8 P9)
        (k0_pay14 (k0_pay3 x0) (k0_pay5 x1) (k0_pay6 x1) (k0_pay9 x0 P2 P3 P4 P5) (k0_pay10 x0 P2 P3 P4 P5) (k0_pay11 (F := Ideal)) P6 P7 P8 P9) (ix2 r j)
      = stateOf A0 A1 P2 P3 P4 P5 P6 P7 P8 P9 (ix2 n j) := by
  have e0 : RowPay.bx x0 r = rowX A0 n := funext fun k => h0 _
  have e1 : RowPay.bs x0 r = rowS A0 n := funext fun k => h0 _
  have e2 : RowPay.bc x0 r = A0 (ix2 n (8 : Fin 9)) := h0 _
  have e3 : RowPay.bh x1 r = rowH A1 n := funext fun k => h1 _
  have e4 : RowPay.bcell x1 r = rowC A1 n := funext fun k => h1 _
  by_cases h : j.val < 32
  · have e : j = RowSpec.sh (n := 64) 0 (⟨j.val, h⟩ : Fin 32) (by decide) := Fin.ext (by show j.val = 0 + j.val; omega)
    rw [stateOf_lt A0 A1 P2 P3 P4 P5 P6 P7 P8 P9 n j h, ← e0, ← e1, ← e2, ← e3, ← e4]
    refine Eq.trans ?_ (RowPay.state_hidden_at x0 x1 P2 P3 P4 P5 P6 P7 P8 P9 r ⟨j.val, h⟩)
    exact congrArg (fun q : Fin 64 => k0_pay1 (F := Ideal) (k0_pay13 (k0_pay3 x0) (k0_pay5 x1) (k0_pay6 x1) (k0_pay9 x0 P2 P3 P4 P5) (k0_pay10 x0 P2 P3 P4 P5) (k0_pay11 (F := Ideal)) P6 P7 P8 P9) (k0_pay14 (k0_pay3 x0) (k0_pay5 x1) (k0_pay6 x1) (k0_pay9 x0 P2 P3 P4 P5) (k0_pay10 x0 P2 P3 P4 P5) (k0_pay11 (F := Ideal)) P6 P7 P8 P9) (ix2 r q)) e
  · have hj := j.isLt
    have e : j = RowSpec.sh (n := 64) 32 (⟨j.val - 32, by omega⟩ : Fin 32) (by decide) := Fin.ext (by show j.val = 32 + (j.val - 32); omega)
    rw [stateOf_ge A0 A1 P2 P3 P4 P5 P6 P7 P8 P9 n j h, ← e0, ← e1, ← e2, ← e3, ← e4]
    refine Eq.trans ?_ (RowPay.state_cell_at x0 x1 P2 P3 P4 P5 P6 P7 P8 P9 r ⟨j.val - 32, by omega⟩)
    exact congrArg (fun q : Fin 64 => k0_pay1 (F := Ideal) (k0_pay13 (k0_pay3 x0) (k0_pay5 x1) (k0_pay6 x1) (k0_pay9 x0 P2 P3 P4 P5) (k0_pay10 x0 P2 P3 P4 P5) (k0_pay11 (F := Ideal)) P6 P7 P8 P9) (k0_pay14 (k0_pay3 x0) (k0_pay5 x1) (k0_pay6 x1) (k0_pay9 x0 P2 P3 P4 P5) (k0_pay10 x0 P2 P3 P4 P5) (k0_pay11 (F := Ideal)) P6 P7 P8 P9) (ix2 r q)) e

end Spec

/-! ## The points' blocks -/

variable (m : (ℓ : Loc nD τ sig) → Buf (Elt Ideal) ℓ)

/-- The region's arrays at their literal types. -/
abbrev a35 (c : Dev nD) : Vec Ideal S201600x9 .f32 := V m c main_v35
abbrev a36 (c : Dev nD) : Vec Ideal S201600x64 .f32 := V m c main_v36
abbrev p2 (c : Dev nD) : Vec Ideal S4x12 .bf16 := V m c main_v21
abbrev p3 (c : Dev nD) : Vec Ideal S4x12 .bf16 := V m c main_v23
abbrev p4 (c : Dev nD) : Vec Ideal S1x12 .f32 := V m c main_v30
abbrev p5 (c : Dev nD) : Vec Ideal S1x12 .f32 := V m c main_v31
abbrev p6 (c : Dev nD) : Vec Ideal S4x128 .bf16 := V m c main_v25
abbrev p7 (c : Dev nD) : Vec Ideal S32x128 .bf16 := V m c main_v27
abbrev p8 (c : Dev nD) : Vec Ideal S1x128 .f32 := V m c main_v32
abbrev p9 (c : Dev nD) : Vec Ideal S1x128 .f32 := V m c main_v33
abbrev p10 (c : Dev nD) : Vec Ideal S32x1 .bf16 := V m c main_v29
abbrev p11 (c : Dev nD) : Vec Ideal S1x1 .f32 := V m c main_v34

/-- The printed index maps, decided over the 56 points: the two data windows and the two result windows are at block
    `(t, 0)`, every parameter window at block `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0 :=
  (by decide +kernel : ∀ t : Fin grid0.N, _)

theorem t_lt (t : Fin cfg0.N) : t.val < 56 := Nat.lt_of_lt_of_eq t.isLt N_0

/-- The node that row `r` of point `t`'s blocks is. -/
def node (t : Fin cfg0.N) (r : Fin 3600) : Fin 201600 := ⟨t.val * 3600 + r.val, by have := t_lt t; have := r.isLt; omega⟩

theorem blk0_at (c : Dev nD) (t : Fin cfg0.N) (r : Fin 3600) (q : Fin 9) : iblk m c 0 t (ix2 r q) = a35 m c (ix2 (node t r) q) := by
  show V m c main_v35 (((cfg0.win 0).blk t).view.emb (ix2 r q)) = V m c main_v35 (ix2 (node t r) q)
  refine congrArg _ (funext fun a => Fin.ext ?_)
  obtain ⟨e0, e1, -⟩ := idx_facts t
  match a with
  | ⟨0, _⟩ => show win0_0.index t (0 : Fin 2) * 3600 + 1 * r.val = t.val * 3600 + r.val; omega
  | ⟨1, _⟩ => show win0_0.index t (1 : Fin 2) * 9 + 1 * q.val = q.val; omega

theorem blk1_at (c : Dev nD) (t : Fin cfg0.N) (r : Fin 3600) (q : Fin 64) : iblk m c 1 t (ix2 r q) = a36 m c (ix2 (node t r) q) := by
  show V m c main_v36 (((cfg0.win 1).blk t).view.emb (ix2 r q)) = V m c main_v36 (ix2 (node t r) q)
  refine congrArg _ (funext fun a => Fin.ext ?_)
  obtain ⟨-, -, e0, e1, -⟩ := idx_facts t
  match a with
  | ⟨0, _⟩ => show win0_1.index t (0 : Fin 2) * 3600 + 1 * r.val = t.val * 3600 + r.val; omega
  | ⟨1, _⟩ => show win0_1.index t (1 : Fin 2) * 64 + 1 * q.val = q.val; omega

theorem blk2_eq (c : Dev nD) (t : Fin cfg0.N) : iblk m c 2 t = p2 m c := by
  funext y
  show V m c main_v21 (((cfg0.win 2).blk t).view.emb y) = V m c main_v21 y
  refine congrArg _ (funext fun a => Fin.ext ?_)
  have hf := idx_facts t
  obtain ⟨-, -, -, -, -, -, -, -, e0, e1, -⟩ := hf
  match a with
  | ⟨0, _⟩ => show win0_2.index t (0 : Fin 2) * 4 + 1 * (y 0).val = (y 0).val; omega
  | ⟨1, _⟩ => show win0_2.index t (1 : Fin 2) * 12 + 1 * (y 1).val = (y 1).val; omega

theorem blk3_eq (c : Dev nD) (t : Fin cfg0.N) : iblk m c 3 t = p3 m c := by
  funext y
  show V m c main_v23 (((cfg0.win 3).blk t).view.emb y) = V m c main_v23 y
  refine congrArg _ (funext fun a => Fin.ext ?_)
  have hf := idx_facts t
  obtain ⟨-, -, -, -, -, -, -, -, -, -, e0, e1, -⟩ := hf
  match a with
  | ⟨0, _⟩ => show win0_3.index t (0 : Fin 2) * 4 + 1 * (y 0).val = (y 0).val; omega
  | ⟨1, _⟩ => show win0_3.index t (1 : Fin 2) * 12 + 1 * (y 1).val = (y 1).val; omega

theorem blk4_eq (c : Dev nD) (t : Fin cfg0.N) : iblk m c 4 t = p4 m c := by
  funext y
  show V m c main_v30 (((cfg0.win 4).blk t).view.emb y) = V m c main_v30 y
  refine congrArg _ (funext fun a => Fin.ext ?_)
  have hf := idx_facts t
  obtain ⟨-, -, -, -, -, -, -, -, -, -, -, -, e0, e1, -⟩ := hf
  match a with
  | ⟨0, _⟩ => show win0_4.index t (0 : Fin 2) * 1 + 1 * (y 0).val = (y 0).val; omega
  | ⟨1, _⟩ => show win0_4.index t (1 : Fin 2) * 12 + 1 * (y 1).val = (y 1).val; omega

theorem blk5_eq (c : Dev nD) (t : Fin cfg0.N) : iblk m c 5 t = p5 m c := by
  funext y
  show V m c main_v31 (((cfg0.win 5).blk t).view.emb y) = V m c main_v31 y
  refine congrArg _ (funext fun a => Fin.ext ?_)
  have hf := idx_facts t
  obtain ⟨-, -, -, -, -, -, -, -, -, -, -, -, -, -, e0, e1, -⟩ := hf
  match a with
  | ⟨0, _⟩ => show win0_5.index t (0 : Fin 2) * 1 + 1 * (y 0).val = (y 0).val; omega
  | ⟨1, _⟩ => show win0_5.index t (1 : Fin 2) * 12 + 1 * (y 1).val = (y 1).val; omega

theorem blk6_eq (c : Dev nD) (t : Fin cfg0.N) : iblk m c 6 t = p6 m c := by
  funext y
  show V m c main_v25 (((cfg0.win 6).blk t).view.emb y) = V m c main_v25 y
  refine congrArg _ (funext fun a => Fin.ext ?_)
  have hf := idx_facts t
  obtain ⟨-, -, -, -, -, -, -, -, -, -, -, -, -, -, -, -, e0, e1, -⟩ := hf
  match a with
  | ⟨0, _⟩ => show win0_6.index t (0 : Fin 2) * 4 + 1 * (y 0).val = (y 0).val; omega
  | ⟨1, _⟩ => show win0_6.index t (1 : Fin 2) * 128 + 1 * (y 1).val = (y 1).val; omega

theorem blk7_eq (c : Dev nD) (t : Fin cfg0.N) : iblk m c 7 t = p7 m c := by
  funext y
  show V m c main_v27 (((cfg0.win 7).blk t).view.emb y) = V m c main_v27 y
  refine congrArg _ (funext fun a => Fin.ext ?_)
  have hf := idx_facts t
  obtain ⟨-, -, -, -, -, -, -, -, -, -, -, -, -, -, -, -, -, -, e0, e1, -⟩ := hf
  match a with
  | ⟨0, _⟩ => show win0_7.index t (0 : Fin 2) * 32 + 1 * (y 0).val = (y 0).val; omega
  | ⟨1, _⟩ => show win0_7.index t (1 : Fin 2) * 128 + 1 * (y 1).val = (y 1).val; omega

theorem blk8_eq (c : Dev nD) (t : Fin cfg0.N) : iblk m c 8 t = p8 m c := by
  funext y
  show V m c main_v32 (((cfg0.win 8).blk t).view.emb y) = V m c main_v32 y
  refine congrArg _ (funext fun a => Fin.ext ?_)
  have hf := idx_facts t
  obtain ⟨-, -, -, -, -, -, -, -, -, -, -, -, -, -, -, -, -, -, -, -, e0, e1, -⟩ := hf
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9_eq (c : Dev nD) (t : Fin cfg0.N) : iblk m c 9 t = p9 m c := by
  funext y
  show V m c main_v33 (((cfg0.win 9).blk t).view.emb y) = V m c main_v33 y
  refine congrArg _ (funext fun a => Fin.ext ?_)
  have hf := idx_facts t
  obtain ⟨-, -, -, -, -, -, -, -, -, -, -, -, -, -, -, -, -, -, -, -, -, -, e0, e1, -⟩ := hf
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem blk10_eq (c : Dev nD) (t : Fin cfg0.N) : iblk m c 10 t = p10 m c := by
  funext y
  show V m c main_v29 (((cfg0.win 10).blk t).view.emb y) = V m c main_v29 y
  refine congrArg _ (funext fun a => Fin.ext ?_)
  have hf := idx_facts t
  obtain ⟨-, -, -, -, -, -, -, -, -, -, -, -, -, -, -, -, -, -, -, -, -, -, -, -, e0, e1, -⟩ := hf
  match a with
  | ⟨0, _⟩ => show win0_10.index t (0 : Fin 2) * 32 + 1 * (y 0).val = (y 0).val; omega
  | ⟨1, _⟩ => show win0_10.index t (1 : Fin 2) * 1 + 1 * (y 1).val = (y 1).val; omega

theorem blk11_eq (c : Dev nD) (t : Fin cfg0.N) : iblk m c 11 t = p11 m c := by
  funext y
  show V m c main_v34 (((cfg0.win 11).blk t).view.emb y) = V m c main_v34 y
  refine congrArg _ (funext fun a => Fin.ext ?_)
  have hf := idx_facts t
  obtain ⟨-, -, -, -, -, -, -, -, -, -, -, -, -, -, -, -, -, -, -, -, -, -, -, -, -, -, e0, e1⟩ := hf
  match a with
  | ⟨0, _⟩ => show win0_11.index t (0 : Fin 2) * 1 + 1 * (y 0).val = (y 0).val; omega
  | ⟨1, _⟩ => show win0_11.index t (1 : Fin 2) * 1 + 1 * (y 1).val = (y 1).val; omega

/-! ## What a point writes back, and the arrays after the region -/

theorem emb12 (t : Fin cfg0.N) (r : Fin 3600) : ((cfg0.win 12).blk t).view.emb (ix2 r (0 : Fin 1)) = ix2 (node t r) (0 : Fin 1) := by
  refine funext fun a => Fin.ext ?_
  have hf := idx_facts t
  obtain ⟨-, -, -, -, e0, e1, -⟩ := hf
  match a with
  | ⟨0, _⟩ => show win0_12.index t (0 : Fin 2) * 3600 + 1 * r.val = t.val * 3600 + r.val; omega
  | ⟨1, _⟩ => show win0_12.index t (1 : Fin 2) * 1 + 1 * 0 = 0; omega

theorem emb13 (t : Fin cfg0.N) (r : Fin 3600) (j : Fin 64) : ((cfg0.win 13).blk t).view.emb (ix2 r j) = ix2 (node t r) j := by
  refine funext fun a => Fin.ext ?_
  have hf := idx_facts t
  obtain ⟨-, -, -, -, -, -, e0, e1, -⟩ := hf
  match a with
  | ⟨0, _⟩ => show win0_13.index t (0 : Fin 2) * 3600 + 1 * r.val = t.val * 3600 + r.val; omega
  | ⟨1, _⟩ => show win0_13.index t (1 : Fin 2) * 64 + 1 * j.val = j.val; omega

/-- The head's array as the region leaves it, from the region's arrays. -/
abbrev head (c : Dev nD) : Vec Ideal S201600x1 .f32 := headOf (a35 m c) (a36 m c) (p2 m c) (p3 m c) (p4 m c) (p5 m c) (p6 m c) (p7 m c) (p8 m c) (p9 m c) (p10 m c) (p11 m c)
/-- The state array as the region leaves it. -/
abbrev state (c : Dev nD) : Vec Ideal S201600x64 .f32 := stateOf (a35 m c) (a36 m c) (p2 m c) (p3 m c) (p4 m c) (p5 m c) (p6 m c) (p7 m c) (p8 m c) (p9 m c)

/-- Point `t` writes back block `t` of the head's array. -/
theorem flushed12_eq (c : Dev nD) (t : Fin cfg0.N) :
    (dats m 0 c).flushed 12 t = ((cfg0.win 12).blk t).view.read (Elt Ideal) (head m c) := by
  show (cfg0.win 12).cut (grid0.coords t) ((dats m 0 c).after 12 t) = _
  rw [after0_12, out0_12_eq, blk2_eq m c t, blk3_eq m c t, blk4_eq m c t, blk5_eq m c t, blk6_eq m c t, blk7_eq m c t, blk8_eq m c t, blk9_eq m c t, blk10_eq m c t, blk11_eq m c t]
  funext y
  obtain ⟨r, q, rfl⟩ : ∃ (r : Fin 3600) (q : Fin 1), y = ix2 r q := ⟨y 0, y 1, eq_ix2 y⟩
  obtain rfl : q = 0 := Subsingleton.elim _ _
  show k0_pay15 (F := Ideal) (k0_pay3 (iblk m c 0 t)) (k0_pay5 (iblk m c 1 t)) (k0_pay6 (iblk m c 1 t))
      (k0_pay9 (iblk m c 0 t) (p2 m c) (p3 m c) (p4 m c) (p5 m c)) (k0_pay10 (iblk m c 0 t) (p2 m c) (p3 m c) (p4 m c) (p5 m c)) (k0_pay11 (F := Ideal))
      (p6 m c) (p7 m c) (p8 m c) (p9 m c) (p10 m c) (p11 m c) (ix2 r (0 : Fin 1))
    = head m c (((cfg0.win 12).blk t).view.emb (ix2 r (0 : Fin 1)))
  rw [emb12]
  exact head_row (a35 m c) (a36 m c) (p2 m c) (p3 m c) (p4 m c) (p5 m c) (p6 m c) (p7 m c) (p8 m c) (p9 m c) (p10 m c) (p11 m c) (iblk m c 0 t) (iblk m c 1 t) (node t r) r (fun q => blk0_at m c t r q) (fun q => blk1_at m c t r q)

/-- Point `t` writes back block `t` of the state array. -/
theorem flushed13_eq (c : Dev nD) (t : Fin cfg0.N) :
    (dats m 0 c).flushed 13 t = ((cfg0.win 13).blk t).view.read (Elt Ideal) (state m c) := by
  show (cfg0.win 13).cut (grid0.coords t) ((dats m 0 c).after 13 t) = _
  rw [after0_13, out0_13_eq, blk2_eq m c t, blk3_eq m c t, blk4_eq m c t, blk5_eq m c t, blk6_eq m c t, blk7_eq m c t, blk8_eq m c t, blk9_eq m c t]
  funext y
  obtain ⟨r, j, rfl⟩ : ∃ (r : Fin 3600) (j : Fin 64), y = ix2 r j := ⟨y 0, y 1, eq_ix2 y⟩
  show k0_pay1 (F := Ideal)
      (k0_pay13 (k0_pay3 (iblk m c 0 t)) (k0_pay5 (iblk m c 1 t)) (k0_pay6 (iblk m c 1 t)) (k0_pay9 (iblk m c 0 t) (p2 m c) (p3 m c) (p4 m c) (p5 m c)) (k0_pay10 (iblk m c 0 t) (p2 m c) (p3 m c) (p4 m c) (p5 m c)) (k0_pay11 (F := Ideal)) (p6 m c) (p7 m c) (p8 m c) (p9 m c))
      (k0_pay14 (k0_pay3 (iblk m c 0 t)) (k0_pay5 (iblk m c 1 t)) (k0_pay6 (iblk m c 1 t)) (k0_pay9 (iblk m c 0 t) (p2 m c) (p3 m c) (p4 m c) (p5 m c)) (k0_pay10 (iblk m c 0 t) (p2 m c) (p3 m c) (p4 m c) (p5 m c)) (k0_pay11 (F := Ideal)) (p6 m c) (p7 m c) (p8 m c) (p9 m c))
      (ix2 r j)
    = state m c (((cfg0.win 13).blk t).view.emb (ix2 r j))
  rw [emb13]
  exact state_row (a35 m c) (a36 m c) (p2 m c) (p3 m c) (p4 m c) (p5 m c) (p6 m c) (p7 m c) (p8 m c) (p9 m c) (iblk m c 0 t) (iblk m c 1 t) (node t r) r j (fun q => blk0_at m c t r q) (fun q => blk1_at m c t r q)

/-- An index of the head's array is in point `t`'s block iff each coordinate is in the block's range. -/
theorem mem_blk12 (t : Fin cfg0.N) (i : S201600x1.Idx) :
    i ∈ ((cfg0.win 12).blk t).view.set ↔ ∀ a : Fin 2, win0_12.index t a * S3600x1.size a ≤ (i a).val ∧ (i a).val < win0_12.index t a * S3600x1.size a + S3600x1.size a := by
  show i ∈ ((View.whole main_v37_0).slice (win0_12.rect t)).set ↔ _
  rw [View.set_slice_whole, Rect.mem_set_unit]
  exact Iff.rfl

theorem mem_blk13 (t : Fin cfg0.N) (i : S201600x64.Idx) :
    i ∈ ((cfg0.win 13).blk t).view.set ↔ ∀ a : Fin 2, win0_13.index t a * S3600x64.size a ≤ (i a).val ∧ (i a).val < win0_13.index t a * S3600x64.size a + S3600x64.size a := by
  show i ∈ ((View.whole main_v37_1).slice (win0_13.rect t)).set ↔ _
  rw [View.set_slice_whole, Rect.mem_set_unit]
  exact Iff.rfl

/-- Row `n` is in block `n / 3600`: the 56 blocks cover the head's array. -/
theorem cover12 (i : S201600x1.Idx) : ∃ t : Fin cfg0.N, (cfg0.win 12).flush t = true ∧ i ∈ ((cfg0.win 12).blk t).view.set := by
  have hi0 : (i 0).val < 201600 := idx2_lt0 i
  have hi1 : (i 1).val < 1 := idx2_lt1 i
  refine ⟨⟨(i 0).val / 3600, Nat.lt_of_lt_of_eq (by omega : (i 0).val / 3600 < 56) N_0.symm⟩, flush0_12 _, ?_⟩
  rw [mem_blk12]
  have hf := idx_facts ⟨(i 0).val / 3600, Nat.lt_of_lt_of_eq (by omega : (i 0).val / 3600 < 56) N_0.symm⟩
  obtain ⟨-, -, -, -, e0, e1, -⟩ := hf
  intro a
  match a with
  | ⟨0, _⟩ => show win0_12.index _ (0 : Fin 2) * 3600 ≤ (i 0).val ∧ (i 0).val < win0_12.index _ (0 : Fin 2) * 3600 + 3600; rw [e0]; show (i 0).val / 3600 * 3600 ≤ (i 0).val ∧ (i 0).val < (i 0).val / 3600 * 3600 + 3600; omega
  | ⟨1, _⟩ => show win0_12.index _ (1 : Fin 2) * 1 ≤ (i 1).val ∧ (i 1).val < win0_12.index _ (1 : Fin 2) * 1 + 1; rw [e1]; omega

theorem cover13 (i : S201600x64.Idx) : ∃ t : Fin cfg0.N, (cfg0.win 13).flush t = true ∧ i ∈ ((cfg0.win 13).blk t).view.set := by
  have hi0 : (i 0).val < 201600 := idx2_lt0 i
  have hi1 : (i 1).val < 64 := idx2_lt1 i
  refine ⟨⟨(i 0).val / 3600, Nat.lt_of_lt_of_eq (by omega : (i 0).val / 3600 < 56) N_0.symm⟩, flush0_13 _, ?_⟩
  rw [mem_blk13]
  have hf := idx_facts ⟨(i 0).val / 3600, Nat.lt_of_lt_of_eq (by omega : (i 0).val / 3600 < 56) N_0.symm⟩
  obtain ⟨-, -, -, -, -, -, e0, e1, -⟩ := hf
  intro a
  match a with
  | ⟨0, _⟩ => show win0_13.index _ (0 : Fin 2) * 3600 ≤ (i 0).val ∧ (i 0).val < win0_13.index _ (0 : Fin 2) * 3600 + 3600; rw [e0]; show (i 0).val / 3600 * 3600 ≤ (i 0).val ∧ (i 0).val < (i 0).val / 3600 * 3600 + 3600; omega
  | ⟨1, _⟩ => show win0_13.index _ (1 : Fin 2) * 64 ≤ (i 1).val ∧ (i 1).val < win0_13.index _ (1 : Fin 2) * 64 + 64; rw [e1]; omega

/-- The head's array after the region. -/
theorem final12 (c : Dev nD) : (dats m 0 c).arrAt 12 cfg0.N = head m c :=
  (dats m 0 c).arrAt_eq_of_cover 12 (head m c) (fun t _ => flushed12_eq m c t) cover12

/-- The state array after the region. -/
theorem final13 (c : Dev nD) : (dats m 0 c).arrAt 13 cfg0.N = state m c :=
  (dats m 0 c).arrAt_eq_of_cover 13 (state m c) (fun t _ => flushed13_eq m c t) cover13

end Cert.KernelIdeal.NodeOut

end
-- ==== Proof.Results.lean ====
/-
  The kernel program's three results (at the ideal instance). After the region the host slices the two result
  arrays back to the 200000 nodes and splits the state array into its hidden and cell halves (adding a unit axis in
  front): so result 0 at node `i` is row `i` of the head's array, result 1 at `(0, i, j)` is column `j` of row `i` of
  the state array, and result 2 at `(0, i, j)` is column `32 + j`.
-/
import proofs.«415627_j68650757260096_3_alg».proof.Proof.NodeOut
import Idealize.ShloMosaic.Lib.StableHlo.Run
import Idealize.ShloMosaic.Lib.ValueLayout

set_option maxRecDepth 16384

noncomputable section

namespace Cert.KernelIdeal.Results

open Cert.KernelIdeal Cert.KernelIdeal.Gen Cert.KernelIdeal.Entry Cert.KernelIdeal.Frm Cert.KernelIdeal.NodeOut
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ)

/-- Node `i` as a row of the padded arrays. -/
def up (i : Fin 200000) : Fin 201600 := ⟨i.val, by have := i.isLt; omega⟩

/-- The region's exit contents at the head's array and at the state array. -/
theorem exit12 (c : Dev nD) : Pipeline.withArrays (cfgs 0).spec c (V0 m c) (fun w => (dats m 0 c).arrAt w (cfgs 0).N) (Proc.devRef .tc main_v37_0) = head m c :=
  (Pipeline.withArrays_arr spec0 launch0.win.arr_inj c _ _ 12).trans (final12 m c)
theorem exit13 (c : Dev nD) : Pipeline.withArrays (cfgs 0).spec c (V0 m c) (fun w => (dats m 0 c).arrAt w (cfgs 0).N) (Proc.devRef .tc main_v37_1) = state m c :=
  (Pipeline.withArrays_arr spec0 launch0.win.arr_inj c _ _ 13).trans (final13 m c)

/-- Result 0: the head's array sliced to the nodes. -/
def res0 (c : Dev nD) : Vec Ideal S200000x1 .f32 := extractStridedSlice S200000x1 ![0, 0] (head m c) slices_S201600x1_S200000x1_0_0
/-- The state array sliced to the nodes. -/
def st64 (c : Dev nD) : Vec Ideal S200000x64 .f32 := extractStridedSlice S200000x64 ![0, 0] (state m c) slices_S201600x64_S200000x64_0_0
/-- Result 1: the hidden half with a unit axis in front. -/
def res1 (c : Dev nD) : Vec Ideal S1x200000x32 .f32 :=
  broadcastInDim S1x200000x32 ![1, 2] bcast_S200000x32_S1x200000x32_1_2 (extractStridedSlice S200000x32 ![0, 0] (st64 m c) slices_S200000x64_S200000x32_0_0)
/-- Result 2: the cell half with a unit axis in front. -/
def res2 (c : Dev nD) : Vec Ideal S1x200000x32 .f32 :=
  broadcastInDim S1x200000x32 ![1, 2] bcast_S200000x32_S1x200000x32_1_2 (extractStridedSlice S200000x32 ![0, 32] (st64 m c) slices_S200000x64_S200000x32_0_32)

theorem tail38 (c : Dev nD) : Pipeline.afterTail₀ cfgs (dats m) 0 (V0 m) [hostOps1] c main_v38 = res0 m c := by
  unfold Pipeline.afterTail₀
  show StableHlo.after hostOps1 _ (Proc.devRef .tc main_v38) = _
  after_results
  rw [exit12]; rfl

theorem tail42 (c : Dev nD) : Pipeline.afterTail₀ cfgs (dats m) 0 (V0 m) [hostOps1] c main_v42 = res1 m c := by
  unfold Pipeline.afterTail₀
  show StableHlo.after hostOps1 _ (Proc.devRef .tc main_v42) = _
  after_results
  rw [exit13]; rfl

theorem tail43 (c : Dev nD) : Pipeline.afterTail₀ cfgs (dats m) 0 (V0 m) [hostOps1] c main_v43 = res2 m c := by
  unfold Pipeline.afterTail₀
  show StableHlo.after hostOps1 _ (Proc.devRef .tc main_v43) = _
  after_results
  rw [exit13]; rfl

/-- Result 0 at node `i`. -/
theorem res0_at (c : Dev nD) (i : Fin 200000) : res0 m c (ix2 i (0 : Fin 1)) = head m c (ix2 (up i) (0 : Fin 1)) := by
  unfold res0
  exact extractStridedSlice_apply _ _ _ _ _ (fun a => match a with
    | ⟨0, _⟩ => by show i.val = 0 + i.val; omega
    | ⟨1, _⟩ => by show (0 : Nat) = 0 + 0; omega)

theorem st64_at (c : Dev nD) (i : Fin 200000) (q : Fin 64) : st64 m c (ix2 i q) = state m c (ix2 (up i) q) := by
  unfold st64
  exact extractStridedSlice_apply _ _ _ _ _ (fun a => match a with
    | ⟨0, _⟩ => by show i.val = 0 + i.val; omega
    | ⟨1, _⟩ => by show q.val = 0 + q.val; omega)

/-- Result 1 at node `i`, column `j`. -/
theorem res1_at (c : Dev nD) (i : Fin 200000) (j : Fin 32) :
    res1 m c (ix3 (0 : Fin 1) i j) = state m c (ix2 (up i) (RowSpec.sh (n := 64) 0 j (by decide))) := by
  unfold res1
  rw [broadcastInDim_apply _ bcast_S200000x32_S1x200000x32_1_2 _ (ix3 (0 : Fin 1) i j) (ix2 i j) (fun a => match a with
    | ⟨0, _⟩ => by show i.val = if (200000 : Nat) = 1 then 0 else i.val; rw [if_neg (by decide)]
    | ⟨1, _⟩ => by show j.val = if (32 : Nat) = 1 then 0 else j.val; rw [if_neg (by decide)])]
  rw [extractStridedSlice_apply ![0, 0] (st64 m c) slices_S200000x64_S200000x32_0_0 (ix2 i j) (ix2 i (RowSpec.sh (n := 64) 0 j (by decide))) (fun a => match a with
    | ⟨0, _⟩ => by show i.val = 0 + i.val; omega
    | ⟨1, _⟩ => by show 0 + j.val = 0 + j.val; rfl)]
  exact st64_at m c i _

/-- Result 2 at node `i`, column `j`. -/
theorem res2_at (c : Dev nD) (i : Fin 200000) (j : Fin 32) :
    res2 m c (ix3 (0 : Fin 1) i j) = state m c (ix2 (up i) (RowSpec.sh (n := 64) 32 j (by decide))) := by
  unfold res2
  rw [broadcastInDim_apply _ bcast_S200000x32_S1x200000x32_1_2 _ (ix3 (0 : Fin 1) i j) (ix2 i j) (fun a => match a with
    | ⟨0, _⟩ => by show i.val = if (200000 : Nat) = 1 then 0 else i.val; rw [if_neg (by decide)]
    | ⟨1, _⟩ => by show j.val = if (32 : Nat) = 1 then 0 else j.val; rw [if_neg (by decide)])]
  rw [extractStridedSlice_apply ![0, 32] (st64 m c) slices_S200000x64_S200000x32_0_32 (ix2 i j) (ix2 i (RowSpec.sh (n := 64) 32 j (by decide))) (fun a => match a with
    | ⟨0, _⟩ => by show i.val = 0 + i.val; omega
    | ⟨1, _⟩ => by show 32 + j.val = 32 + j.val; rfl)]
  exact st64_at m c i _

end Cert.KernelIdeal.Results

end
-- ==== Proof.RefRow.lean ====
/-
  The reference at one node, on the extended reals: read at node `i`, its three results are the dense chain
  (the specification `Cert.RowSpec`) of that node's features, of the two segment sums the reference scatters
  (the weighted messages summed per destination, and the number of edges per destination, kept here as the stages
  `val_main_v17` and `val_main_v21` of the stage-by-stage reading of the reference), of the node's previous hidden and
  cell states, and of the parameter tables as the arguments hold them.
-/
import proofs.«415627_j68650757260096_3_alg».proof.Proof.Gen.ReferenceIdeal.Read
import proofs.«415627_j68650757260096_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRow

open Cert.ReferenceIdeal Cert.ReferenceIdeal.Read Idealize.ShloMosaic Idealize.ShloMosaic.ValueIdx

variable (x0 : (⟨S200000x4, .f32⟩ : BufTy).Contents (Elt Ideal)) (x1 : (⟨S2x12800000, .i32⟩ : BufTy).Contents (Elt Ideal)) (x2 : (⟨S12800000, .f32⟩ : BufTy).Contents (Elt Ideal)) (x3 x4 : (⟨S1x200000x32, .f32⟩ : BufTy).Contents (Elt Ideal)) (x5 : (⟨S4x4, .f32⟩ : BufTy).Contents (Elt Ideal)) (x6 x7 : (⟨S12x4, .f32⟩ : BufTy).Contents (Elt Ideal)) (x8 x9 : (⟨S12, .f32⟩ : BufTy).Contents (Elt Ideal)) (x10 : (⟨S128x4, .f32⟩ : BufTy).Contents (Elt Ideal)) (x11 : (⟨S128x32, .f32⟩ : BufTy).Contents (Elt Ideal)) (x12 x13 : (⟨S128, .f32⟩ : BufTy).Contents (Elt Ideal)) (x14 : (⟨S1x32, .f32⟩ : BufTy).Contents (Elt Ideal)) (x15 : (⟨S1, .f32⟩ : BufTy).Contents (Elt Ideal))

/-- Node `i`'s features. -/
abbrev nx (i : Fin 200000) : Fin 4 → EReal := fun k => x0 (ix2 i k)
/-- The weighted messages summed at node `i` (the reference's first scatter). -/
abbrev ns (i : Fin 200000) : Fin 4 → EReal := fun k => val_main_v17 (F := Ideal) x0 x1 x2 x5 (ix2 i k)
/-- The number of edges arriving at node `i` (the reference's second scatter). -/
abbrev nc (i : Fin 200000) : EReal := val_main_v21 (F := Ideal) x1 (ix1 i)
/-- Node `i`'s previous hidden state. -/
abbrev nh (i : Fin 200000) : Fin 32 → EReal := fun k => x3 (ix3 (0 : Fin 1) i k)
/-- Node `i`'s previous cell state. -/
abbrev ncell (i : Fin 200000) : Fin 32 → EReal := fun k => x4 (ix3 (0 : Fin 1) i k)
/-- A weight table as a function of its two coordinates. -/
abbrev tab {a b : Nat} (w : (⟨2, ![a, b]⟩ : Shape).Idx → EReal) : Fin a → Fin b → EReal := fun j k => w (ix2 j k)
/-- A bias vector as a function of its coordinate. -/
abbrev vec {a : Nat} (w : (⟨1, ![a]⟩ : Shape).Idx → EReal) : Fin a → EReal := fun j => w (ix1 j)

/-- The mean of the messages at node `i`: the scattered sum divided by the larger of the scattered count and one. -/
theorem agg_at (i : Fin 200000) (k : Fin 4) :
    val_main_v26 (F := Ideal) x0 x1 x2 x5 (ix2 i k) = RowSpec.agg (ns x0 x1 x2 x5 i) (nc x1 i) k := by
  rw [val_main_v26_apply, val_main_v25_apply, val_main_v24_apply, val_main_v23_apply, val_main_v22_apply, val_main_cst_3_apply]
  have e : idx_main_v24 (idx_main_v25 (ix2 i k)) = ix1 i := funext fun a => by match a with | ⟨0, _⟩ => rfl
  rw [e]
  rfl

/-- The gated unit's affine map of the mean: the product with the transposed table reads the table at (column, summand). -/
theorem gi_at (i : Fin 200000) (j : Fin 12) :
    val_main_v31 (F := Ideal) x0 x1 x2 x5 x6 x8 (ix2 i j) = RowSpec.gi (ns x0 x1 x2 x5 i) (nc x1 i) (tab x6) (vec x8) j := by
  rw [val_main_v31_apply, val_main_v28_apply, val_main_v30_apply, val_main_v29_apply]
  have e1 : idx_main_v29 (idx_main_v30 (ix2 i j)) = ix1 j := funext fun a => by match a with | ⟨0, _⟩ => rfl
  have e2 : ∀ k : Fin 4, lidx_main_v28 (ix2 i j) k = ix2 i k := fun k => funext fun a => by match a with | ⟨0, _⟩ => rfl | ⟨1, _⟩ => rfl
  have e3 : ∀ k : Fin 4, idx_main_v27 (ridx_main_v28 (ix2 i j) k) = ix2 j k := fun k => funext fun a => by match a with | ⟨0, _⟩ => rfl | ⟨1, _⟩ => rfl
  simp only [val_main_v27_apply, e1, e2, e3, agg_at]
  rfl

/-- The gated unit's affine map of the node's own features. -/
theorem gh_at (i : Fin 200000) (j : Fin 12) :
    val_main_v36 (F := Ideal) x0 x7 x9 (ix2 i j) = RowSpec.gh (nx x0 i) (tab x7) (vec x9) j := by
  rw [val_main_v36_apply, val_main_v33_apply, val_main_v35_apply, val_main_v34_apply]
  have e1 : idx_main_v34 (idx_main_v35 (ix2 i j)) = ix1 j := funext fun a => by match a with | ⟨0, _⟩ => rfl
  have e2 : ∀ k : Fin 4, lidx_main_v33 (ix2 i j) k = ix2 i k := fun k => funext fun a => by match a with | ⟨0, _⟩ => rfl | ⟨1, _⟩ => rfl
  have e3 : ∀ k : Fin 4, idx_main_v32 (ridx_main_v33 (ix2 i j) k) = ix2 j k := fun k => funext fun a => by match a with | ⟨0, _⟩ => rfl | ⟨1, _⟩ => rfl
  simp only [val_main_v32_apply, e1, e2, e3]
  rfl

/-- The float word of 1.0 is the real one. -/
theorem one_word : Ideal.ofBits .f32 0x3F800000#32 = (1 : EReal) := RowSpec.one_eq

/-- The reset gate: the expanded logistic of the first four columns of the two affine maps. -/
theorem rg_at (i : Fin 200000) (k : Fin 4) :
    val_main_v49 (F := Ideal) x0 x1 x2 x5 x6 x7 x8 x9 (ix2 i k)
      = RowSpec.rg (nx x0 i) (ns x0 x1 x2 x5 i) (nc x1 i) (tab x6) (tab x7) (vec x8) (vec x9) k := by
  rw [val_main_v49_apply, val_main_v48_apply, val_main_cst_5_apply, val_main_v47_apply, val_main_v46_apply, val_main_cst_4_apply,
    val_main_v45_apply, val_main_v44_apply, val_main_v43_apply, val_main_v37_apply, val_main_v40_apply]
  have e1 : idx_main_v37 (ix2 i k) = ix2 i (RowSpec.sh 0 k (by decide)) := funext fun a => by
    match a with | ⟨0, _⟩ => rfl | ⟨1, _⟩ => exact Fin.ext (Nat.zero_add _).symm
  have e2 : idx_main_v40 (ix2 i k) = ix2 i (RowSpec.sh 0 k (by decide)) := funext fun a => by
    match a with | ⟨0, _⟩ => rfl | ⟨1, _⟩ => exact Fin.ext (Nat.zero_add _).symm
  rw [e1, e2, gi_at, gh_at]
  simp only [Ideal.hostDivf_def, Ideal.addf_def, Ideal.hostUnary_exp_def, Ideal.hostNegf_def, Ideal.negf_def, Ideal.ofBits_def, one_word]
  rfl

/-- The update gate: the expanded logistic of columns 4 to 7 of the two affine maps. -/
theorem zg_at (i : Fin 200000) (k : Fin 4) :
    val_main_v56 (F := Ideal) x0 x1 x2 x5 x6 x7 x8 x9 (ix2 i k)
      = RowSpec.zg (nx x0 i) (ns x0 x1 x2 x5 i) (nc x1 i) (tab x6) (tab x7) (vec x8) (vec x9) k := by
  rw [val_main_v56_apply, val_main_v55_apply, val_main_cst_7_apply, val_main_v54_apply, val_main_v53_apply, val_main_cst_6_apply,
    val_main_v52_apply, val_main_v51_apply, val_main_v50_apply, val_main_v38_apply, val_main_v41_apply]
  have e1 : idx_main_v38 (ix2 i k) = ix2 i (RowSpec.sh 4 k (by decide)) := funext fun a => by
    match a with | ⟨0, _⟩ => rfl | ⟨1, _⟩ => rfl
  have e2 : idx_main_v41 (ix2 i k) = ix2 i (RowSpec.sh 4 k (by decide)) := funext fun a => by
    match a with | ⟨0, _⟩ => rfl | ⟨1, _⟩ => rfl
  rw [e1, e2, gi_at, gh_at]
  simp only [Ideal.hostDivf_def, Ideal.addf_def, Ideal.hostUnary_exp_def, Ideal.hostNegf_def, Ideal.negf_def, Ideal.ofBits_def, one_word,
    RowSpec.zg, Ideal.logistic]

/-- The candidate state: the hyperbolic tangent of columns 8 to 11, the second map's scaled by the reset gate. -/
theorem ng_at (i : Fin 200000) (k : Fin 4) :
    val_main_v59 (F := Ideal) x0 x1 x2 x5 x6 x7 x8 x9 (ix2 i k)
      = RowSpec.ng (nx x0 i) (ns x0 x1 x2 x5 i) (nc x1 i) (tab x6) (tab x7) (vec x8) (vec x9) k := by
  rw [val_main_v59_apply, val_main_v58_apply, val_main_v39_apply, val_main_v57_apply, val_main_v42_apply]
  have e1 : idx_main_v39 (ix2 i k) = ix2 i (RowSpec.sh 8 k (by decide)) := funext fun a => by
    match a with | ⟨0, _⟩ => rfl | ⟨1, _⟩ => rfl
  have e2 : idx_main_v42 (ix2 i k) = ix2 i (RowSpec.sh 8 k (by decide)) := funext fun a => by
    match a with | ⟨0, _⟩ => rfl | ⟨1, _⟩ => rfl
  rw [e1, e2, gi_at, gh_at, rg_at]
  simp only [Ideal.hostUnary_tanh_def, Ideal.addf_def, Ideal.mulf_def, RowSpec.ng]

/-- The gated unit's output: the candidate and the node's own features mixed by the update gate. -/
theorem hc_at (i : Fin 200000) (k : Fin 4) :
    val_main_v64 (F := Ideal) x0 x1 x2 x5 x6 x7 x8 x9 (ix2 i k)
      = RowSpec.hc (nx x0 i) (ns x0 x1 x2 x5 i) (nc x1 i) (tab x6) (tab x7) (vec x8) (vec x9) k := by
  rw [val_main_v64_apply, val_main_v62_apply, val_main_v61_apply, val_main_v60_apply, val_main_cst_8_apply, val_main_v63_apply,
    zg_at, ng_at]
  simp only [Ideal.addf_def, Ideal.mulf_def, Ideal.subf_def, Ideal.ofBits_def, RowSpec.hc]

/-- The cell's four gates before squashing: two products with transposed tables and two biases, in the reference's order. -/
theorem gates_at (i : Fin 200000) (j : Fin 128) :
    val_main_v77 (F := Ideal) x0 x1 x2 x3 x5 x6 x7 x8 x9 x10 x11 x12 x13 (ix2 i j) = RowSpec.gates (nx x0 i) (ns x0 x1 x2 x5 i) (nc x1 i) (nh x3 i) (tab x6) (tab x7) (vec x8) (vec x9) (tab x10) (tab x11) (vec x12) (vec x13) j := by
  rw [val_main_v77_apply, val_main_v74_apply, val_main_v71_apply, val_main_v68_apply, val_main_v70_apply, val_main_v69_apply,
    val_main_v73_apply, val_main_v76_apply, val_main_v75_apply]
  have e1 : idx_main_v69 (idx_main_v70 (ix2 i j)) = ix1 j := funext fun a => by match a with | ⟨0, _⟩ => rfl
  have e2 : idx_main_v75 (idx_main_v76 (ix2 i j)) = ix1 j := funext fun a => by match a with | ⟨0, _⟩ => rfl
  have e3 : ∀ k : Fin 4, lidx_main_v68 (ix2 i j) k = ix2 i k := fun k => funext fun a => by match a with | ⟨0, _⟩ => rfl | ⟨1, _⟩ => rfl
  have e4 : ∀ k : Fin 4, idx_main_v67 (ridx_main_v68 (ix2 i j) k) = ix2 j k := fun k => funext fun a => by match a with | ⟨0, _⟩ => rfl | ⟨1, _⟩ => rfl
  have e5 : ∀ k : Fin 32, idx_main_v65 (lidx_main_v73 (ix2 i j) k) = ix3 (0 : Fin 1) i k := fun k => funext fun a => by
    have hi := i.isLt
    have hk := k.isLt
    match a with
    | ⟨0, _⟩ => rfl
    | ⟨1, _⟩ => exact Fin.ext (by show (i.val * 32 + k.val) / 32 % 200000 = i.val; omega)
    | ⟨2, _⟩ => exact Fin.ext (by show (i.val * 32 + k.val) % 32 = k.val; omega)
  have e6 : ∀ k : Fin 32, idx_main_v72 (ridx_main_v73 (ix2 i j) k) = ix2 j k := fun k => funext fun a => by match a with | ⟨0, _⟩ => rfl | ⟨1, _⟩ => rfl
  simp only [val_main_v67_apply, val_main_v65_apply, val_main_v72_apply, e1, e2, e3, e4, e5, e6, hc_at, Ideal.addf_def, RowSpec.gates]

/-- The input gate: the expanded logistic of columns 0 to 31. -/
theorem ig_at (i : Fin 200000) (j : Fin 32) :
    val_main_v87 (F := Ideal) x0 x1 x2 x3 x5 x6 x7 x8 x9 x10 x11 x12 x13 (ix2 i j)
      = Ideal.logistic (RowSpec.gates (nx x0 i) (ns x0 x1 x2 x5 i) (nc x1 i) (nh x3 i) (tab x6) (tab x7) (vec x8) (vec x9) (tab x10) (tab x11) (vec x12) (vec x13) (RowSpec.sh 0 j (by decide))) := by
  rw [val_main_v87_apply, val_main_v86_apply, val_main_cst_10_apply, val_main_v85_apply, val_main_v84_apply, val_main_cst_9_apply,
    val_main_v83_apply, val_main_v82_apply, val_main_v78_apply]
  have e : idx_main_v78 (ix2 i j) = ix2 i (RowSpec.sh 0 j (by decide)) := funext fun a => by
    match a with | ⟨0, _⟩ => rfl | ⟨1, _⟩ => exact Fin.ext (Nat.zero_add _).symm
  rw [e, gates_at]
  simp only [Ideal.hostDivf_def, Ideal.addf_def, Ideal.hostUnary_exp_def, Ideal.hostNegf_def, Ideal.negf_def, Ideal.ofBits_def, one_word,
    Ideal.logistic]

/-- The forget gate: the expanded logistic of columns 32 to 63. -/
theorem fg_at (i : Fin 200000) (j : Fin 32) :
    val_main_v93 (F := Ideal) x0 x1 x2 x3 x5 x6 x7 x8 x9 x10 x11 x12 x13 (ix2 i j)
      = Ideal.logistic (RowSpec.gates (nx x0 i) (ns x0 x1 x2 x5 i) (nc x1 i) (nh x3 i) (tab x6) (tab x7) (vec x8) (vec x9) (tab x10) (tab x11) (vec x12) (vec x13) (RowSpec.sh 32 j (by decide))) := by
  rw [val_main_v93_apply, val_main_v92_apply, val_main_cst_12_apply, val_main_v91_apply, val_main_v90_apply, val_main_cst_11_apply,
    val_main_v89_apply, val_main_v88_apply, val_main_v79_apply]
  have e : idx_main_v79 (ix2 i j) = ix2 i (RowSpec.sh 32 j (by decide)) := funext fun a => by
    match a with | ⟨0, _⟩ => rfl | ⟨1, _⟩ => rfl
  rw [e, gates_at]
  simp only [Ideal.hostDivf_def, Ideal.addf_def, Ideal.hostUnary_exp_def, Ideal.hostNegf_def, Ideal.negf_def, Ideal.ofBits_def, one_word,
    Ideal.logistic]

/-- The output gate: the expanded logistic of columns 96 to 127. -/
theorem og_at (i : Fin 200000) (j : Fin 32) :
    val_main_v99 (F := Ideal) x0 x1 x2 x3 x5 x6 x7 x8 x9 x10 x11 x12 x13 (ix2 i j)
      = Ideal.logistic (RowSpec.gates (nx x0 i) (ns x0 x1 x2 x5 i) (nc x1 i) (nh x3 i) (tab x6) (tab x7) (vec x8) (vec x9) (tab x10) (tab x11) (vec x12) (vec x13) (RowSpec.sh 96 j (by decide))) := by
  rw [val_main_v99_apply, val_main_v98_apply, val_main_cst_14_apply, val_main_v97_apply, val_main_v96_apply, val_main_cst_13_apply,
    val_main_v95_apply, val_main_v94_apply, val_main_v81_apply]
  have e : idx_main_v81 (ix2 i j) = ix2 i (RowSpec.sh 96 j (by decide)) := funext fun a => by
    match a with | ⟨0, _⟩ => rfl | ⟨1, _⟩ => rfl
  rw [e, gates_at]
  simp only [Ideal.hostDivf_def, Ideal.addf_def, Ideal.hostUnary_exp_def, Ideal.hostNegf_def, Ideal.negf_def, Ideal.ofBits_def, one_word,
    Ideal.logistic]

/-- The new cell state: the forget gate times the previous cell state plus the input gate times the squashed candidate. -/
theorem cnew_at (i : Fin 200000) (j : Fin 32) :
    val_main_v103 (F := Ideal) x0 x1 x2 x3 x4 x5 x6 x7 x8 x9 x10 x11 x12 x13 (ix2 i j) = RowSpec.cnew (nx x0 i) (ns x0 x1 x2 x5 i) (nc x1 i) (nh x3 i) (ncell x4 i) (tab x6) (tab x7) (vec x8) (vec x9) (tab x10) (tab x11) (vec x12) (vec x13) j := by
  rw [val_main_v103_apply, val_main_v101_apply, val_main_v102_apply, val_main_v100_apply, val_main_v80_apply, val_main_v66_apply,
    fg_at, ig_at]
  have e1 : idx_main_v80 (ix2 i j) = ix2 i (RowSpec.sh 64 j (by decide)) := funext fun a => by
    match a with | ⟨0, _⟩ => rfl | ⟨1, _⟩ => rfl
  have e2 : idx_main_v66 (ix2 i j) = ix3 (0 : Fin 1) i j := funext fun a => by
    have hi := i.isLt
    have hj := j.isLt
    match a with
    | ⟨0, _⟩ => rfl
    | ⟨1, _⟩ => exact Fin.ext (by show (i.val * 32 + j.val) / 32 % 200000 = i.val; omega)
    | ⟨2, _⟩ => exact Fin.ext (by show (i.val * 32 + j.val) % 32 = j.val; omega)
  rw [e1, e2, gates_at]
  simp only [Ideal.addf_def, Ideal.mulf_def, Ideal.hostUnary_tanh_def, RowSpec.cnew]

/-- The new hidden state: the output gate times the squashed new cell state. -/
theorem hnew_at (i : Fin 200000) (j : Fin 32) :
    val_main_v105 (F := Ideal) x0 x1 x2 x3 x4 x5 x6 x7 x8 x9 x10 x11 x12 x13 (ix2 i j) = RowSpec.hnew (nx x0 i) (ns x0 x1 x2 x5 i) (nc x1 i) (nh x3 i) (ncell x4 i) (tab x6) (tab x7) (vec x8) (vec x9) (tab x10) (tab x11) (vec x12) (vec x13) j := by
  rw [val_main_v105_apply, val_main_v104_apply, og_at, cnew_at]
  simp only [Ideal.mulf_def, Ideal.hostUnary_tanh_def, RowSpec.hnew]

/-- The head's result at node `i`. -/
theorem out_at (i : Fin 200000) :
    val_main_v111 (F := Ideal) x0 x1 x2 x3 x4 x5 x6 x7 x8 x9 x10 x11 x12 x13 x14 x15 (ix2 i (0 : Fin 1))
      = RowSpec.out (nx x0 i) (ns x0 x1 x2 x5 i) (nc x1 i) (nh x3 i) (ncell x4 i) (tab x6) (tab x7) (vec x8) (vec x9) (tab x10) (tab x11) (vec x12) (vec x13) (fun k => x14 (ix2 (0 : Fin 1) k)) (x15 (ix1 (0 : Fin 1))) := by
  have e1 : idx_main_v109 (idx_main_v110 (ix2 i (0 : Fin 1))) = ix1 (0 : Fin 1) := funext fun a => by match a with | ⟨0, _⟩ => rfl
  have e2 : ∀ k : Fin 32, lidx_main_v108 (ix2 i (0 : Fin 1)) k = ix2 i k := fun k => funext fun a => by
    match a with | ⟨0, _⟩ => rfl | ⟨1, _⟩ => rfl
  have e3 : ∀ k : Fin 32, idx_main_v107 (ridx_main_v108 (ix2 i (0 : Fin 1)) k) = ix2 (0 : Fin 1) k := fun k => funext fun a => by
    match a with | ⟨0, _⟩ => rfl | ⟨1, _⟩ => rfl
  have hs : ∀ k : Fin 32,
      val_main_v106 (F := Ideal) x0 x1 x2 x3 x4 x5 x6 x7 x8 x9 x10 x11 x12 x13 (lidx_main_v108 (ix2 i (0 : Fin 1)) k)
          * val_main_v107 (F := Ideal) x14 (ridx_main_v108 (ix2 i (0 : Fin 1)) k)
        = max (RowSpec.hnew (nx x0 i) (ns x0 x1 x2 x5 i) (nc x1 i) (nh x3 i) (ncell x4 i) (tab x6) (tab x7) (vec x8) (vec x9) (tab x10) (tab x11) (vec x12) (vec x13) k) RowSpec.zero * x14 (ix2 (0 : Fin 1) k) := fun k => by
    rw [val_main_v107_apply, e3 k, e2 k, val_main_v106_apply, hnew_at, val_main_call0_v0_apply, val_main_call0_cst_apply]
    simp only [Ideal.maximumf_def, Ideal.ofBits_def]
  rw [val_main_v111_apply, val_main_v108_apply, val_main_v110_apply, val_main_v109_apply, e1, Finset.sum_congr rfl (fun k _ => hs k)]
  simp only [Ideal.addf_def, RowSpec.out]

/-- The new hidden state at node `i`, column `j`. -/
theorem hidden_at (i : Fin 200000) (j : Fin 32) :
    val_main_v112 (F := Ideal) x0 x1 x2 x3 x4 x5 x6 x7 x8 x9 x10 x11 x12 x13 (ix3 (0 : Fin 1) i j)
      = RowSpec.hnew (nx x0 i) (ns x0 x1 x2 x5 i) (nc x1 i) (nh x3 i) (ncell x4 i) (tab x6) (tab x7) (vec x8) (vec x9) (tab x10) (tab x11) (vec x12) (vec x13) j := by
  rw [val_main_v112_apply]
  have e : idx_main_v112 (ix3 (0 : Fin 1) i j) = ix2 i j := funext fun a => by match a with | ⟨0, _⟩ => rfl | ⟨1, _⟩ => rfl
  rw [e, hnew_at]

/-- The new cell state at node `i`, column `j`. -/
theorem cell_at (i : Fin 200000) (j : Fin 32) :
    val_main_v113 (F := Ideal) x0 x1 x2 x3 x4 x5 x6 x7 x8 x9 x10 x11 x12 x13 (ix3 (0 : Fin 1) i j)
      = RowSpec.cnew (nx x0 i) (ns x0 x1 x2 x5 i) (nc x1 i) (nh x3 i) (ncell x4 i) (tab x6) (tab x7) (vec x8) (vec x9) (tab x10) (tab x11) (vec x12) (vec x13) j := by
  rw [val_main_v113_apply]
  have e : idx_main_v113 (ix3 (0 : Fin 1) i j) = ix2 i j := funext fun a => by match a with | ⟨0, _⟩ => rfl | ⟨1, _⟩ => rfl
  rw [e, cnew_at]

end Cert.ReferenceIdeal.RefRow

end
-- ==== Proof.Bridge.lean ====
/-
  The two programs at one node (on the extended reals). Under the precondition, each of the fifteen inputs of the dense
  chain that the kernel reads off the region's arrays at node `i` is the one the reference reads off the arguments: the
  features, the summed messages and the message count (the kernel's one segment sum against the reference's two), the
  previous hidden and cell states, and the parameter tables. So the kernel program's three results and the reference's
  are, index by index, the same dense chain of the same data.
-/
import proofs.«415627_j68650757260096_3_alg».proof.Defs
import proofs.«415627_j68650757260096_3_alg».proof.Proof.Gen.Pre_finite_inputs
import proofs.«415627_j68650757260096_3_alg».proof.Proof.HostIn
import proofs.«415627_j68650757260096_3_alg».proof.Proof.SegBridge
import proofs.«415627_j68650757260096_3_alg».proof.Proof.Results
import proofs.«415627_j68650757260096_3_alg».proof.Proof.RefRow

set_option maxRecDepth 16384

noncomputable section

namespace Cert.Bridge

open Idealize.ShloMosaic Idealize.ShloMosaic.TcCoe Idealize.SL.Sem Idealize.ShloMosaic.ValueIdx
open Cert.KernelIdeal

variable (m : (ℓ : Loc nD τ sig) → Buf (Elt Ideal) ℓ) (c : Dev nD)

/-- The precondition, decoded: every source index is a node number. -/
theorem srcOk (hpre : Cert.Pre_KernelIdeal m) : Cert.SegBridge.SrcOk (Cert.KernelIdeal.HostIn.arg1 m c) := fun e =>
  Cert.PreIdx.src_in_range (F := Ideal) (Cert.KernelIdeal.HostIn.arg0 m c) (Cert.KernelIdeal.HostIn.arg1 m c) (Cert.KernelIdeal.HostIn.arg2 m c) (Cert.KernelIdeal.HostIn.arg3 m c) (Cert.KernelIdeal.HostIn.arg4 m c) (Cert.KernelIdeal.HostIn.arg5 m c) (Cert.KernelIdeal.HostIn.arg6 m c) (Cert.KernelIdeal.HostIn.arg7 m c) (Cert.KernelIdeal.HostIn.arg8 m c) (Cert.KernelIdeal.HostIn.arg9 m c) (Cert.KernelIdeal.HostIn.arg10 m c) (Cert.KernelIdeal.HostIn.arg11 m c) (Cert.KernelIdeal.HostIn.arg12 m c) (Cert.KernelIdeal.HostIn.arg13 m c) (Cert.KernelIdeal.HostIn.arg14 m c) (Cert.KernelIdeal.HostIn.arg15 m c) (hpre c) e

theorem a35_eq : Cert.KernelIdeal.NodeOut.a35 m c = Cert.KernelIdeal.HostTerms.padded9 (F := Ideal) (Cert.KernelIdeal.HostIn.arg0 m c) (Cert.KernelIdeal.HostIn.arg1 m c) (Cert.KernelIdeal.HostIn.arg2 m c) (Cert.KernelIdeal.HostIn.arg5 m c) := Cert.KernelIdeal.HostIn.v35_eq m c
theorem a36_eq : Cert.KernelIdeal.NodeOut.a36 m c = Cert.KernelIdeal.HostTerms.padded64 (F := Ideal) (Cert.KernelIdeal.HostIn.arg3 m c) (Cert.KernelIdeal.HostIn.arg4 m c) := Cert.KernelIdeal.HostIn.v36_eq m c

theorem up_val (i : Fin 200000) : (Cert.KernelIdeal.Results.up i).val = i.val := rfl

theorem x_eq (i : Fin 200000) : Cert.KernelIdeal.NodeOut.rowX (Cert.KernelIdeal.NodeOut.a35 m c) (Cert.KernelIdeal.Results.up i) = Cert.ReferenceIdeal.RefRow.nx (Cert.KernelIdeal.HostIn.arg0 m c) i := funext fun k => by
  show Cert.KernelIdeal.NodeOut.a35 m c (ix2 (Cert.KernelIdeal.Results.up i) (RowSpec.sh (n := 9) 0 k (by decide))) = (Cert.KernelIdeal.HostIn.arg0 m c) (ix2 i k)
  rw [a35_eq]
  exact Cert.KernelIdeal.HostIn.padded9_x _ _ _ _ (Cert.KernelIdeal.Results.up i) i rfl k

theorem s_eq (hpre : Cert.Pre_KernelIdeal m) (i : Fin 200000) :
    Cert.KernelIdeal.NodeOut.rowS (Cert.KernelIdeal.NodeOut.a35 m c) (Cert.KernelIdeal.Results.up i) = Cert.ReferenceIdeal.RefRow.ns (Cert.KernelIdeal.HostIn.arg0 m c) (Cert.KernelIdeal.HostIn.arg1 m c) (Cert.KernelIdeal.HostIn.arg2 m c) (Cert.KernelIdeal.HostIn.arg5 m c) i := funext fun k => by
  show Cert.KernelIdeal.NodeOut.a35 m c (ix2 (Cert.KernelIdeal.Results.up i) (RowSpec.sh (n := 9) 4 k (by decide))) = Cert.ReferenceIdeal.Read.val_main_v17 (F := Ideal) (Cert.KernelIdeal.HostIn.arg0 m c) (Cert.KernelIdeal.HostIn.arg1 m c) (Cert.KernelIdeal.HostIn.arg2 m c) (Cert.KernelIdeal.HostIn.arg5 m c) (ix2 i k)
  rw [a35_eq, Cert.KernelIdeal.HostIn.padded9_s _ _ _ _ (Cert.KernelIdeal.Results.up i) i rfl k]
  exact Cert.SegBridge.summed_eq _ _ _ _ (srcOk m c hpre) i k

theorem c_eq (i : Fin 200000) : Cert.KernelIdeal.NodeOut.a35 m c (ix2 (Cert.KernelIdeal.Results.up i) (8 : Fin 9)) = Cert.ReferenceIdeal.RefRow.nc (Cert.KernelIdeal.HostIn.arg1 m c) i := by
  show Cert.KernelIdeal.NodeOut.a35 m c (ix2 (Cert.KernelIdeal.Results.up i) (⟨8, by decide⟩ : Fin 9)) = Cert.ReferenceIdeal.Read.val_main_v21 (F := Ideal) (Cert.KernelIdeal.HostIn.arg1 m c) (ix1 i)
  rw [a35_eq, Cert.KernelIdeal.HostIn.padded9_c _ _ _ _ (Cert.KernelIdeal.Results.up i) i rfl]
  exact Cert.SegBridge.count_eq _ _ _ _ i

theorem h_eq (i : Fin 200000) : Cert.KernelIdeal.NodeOut.rowH (Cert.KernelIdeal.NodeOut.a36 m c) (Cert.KernelIdeal.Results.up i) = Cert.ReferenceIdeal.RefRow.nh (Cert.KernelIdeal.HostIn.arg3 m c) i := funext fun k => by
  show Cert.KernelIdeal.NodeOut.a36 m c (ix2 (Cert.KernelIdeal.Results.up i) (RowSpec.sh (n := 64) 0 k (by decide))) = (Cert.KernelIdeal.HostIn.arg3 m c) (ix3 (0 : Fin 1) i k)
  rw [a36_eq]
  exact Cert.KernelIdeal.HostIn.padded64_h _ _ (Cert.KernelIdeal.Results.up i) i rfl k

theorem cell_eq (i : Fin 200000) : Cert.KernelIdeal.NodeOut.rowC (Cert.KernelIdeal.NodeOut.a36 m c) (Cert.KernelIdeal.Results.up i) = Cert.ReferenceIdeal.RefRow.ncell (Cert.KernelIdeal.HostIn.arg4 m c) i := funext fun k => by
  show Cert.KernelIdeal.NodeOut.a36 m c (ix2 (Cert.KernelIdeal.Results.up i) (RowSpec.sh (n := 64) 32 k (by decide))) = (Cert.KernelIdeal.HostIn.arg4 m c) (ix3 (0 : Fin 1) i k)
  rw [a36_eq]
  exact Cert.KernelIdeal.HostIn.padded64_c _ _ (Cert.KernelIdeal.Results.up i) i rfl k

theorem wih_eq : Cert.KernelIdeal.RowPay.tr (Cert.KernelIdeal.NodeOut.p2 m c) = Cert.ReferenceIdeal.RefRow.tab (Cert.KernelIdeal.HostIn.arg6 m c) := funext fun j => funext fun k => Cert.KernelIdeal.HostIn.v21_at m c k j
theorem whh_eq : Cert.KernelIdeal.RowPay.tr (Cert.KernelIdeal.NodeOut.p3 m c) = Cert.ReferenceIdeal.RefRow.tab (Cert.KernelIdeal.HostIn.arg7 m c) := funext fun j => funext fun k => Cert.KernelIdeal.HostIn.v23_at m c k j
theorem bih_eq : Cert.KernelIdeal.RowPay.row1 (Cert.KernelIdeal.NodeOut.p4 m c) = Cert.ReferenceIdeal.RefRow.vec (Cert.KernelIdeal.HostIn.arg8 m c) := funext fun j => Cert.KernelIdeal.HostIn.v30_at m c j
theorem bhh_eq : Cert.KernelIdeal.RowPay.row1 (Cert.KernelIdeal.NodeOut.p5 m c) = Cert.ReferenceIdeal.RefRow.vec (Cert.KernelIdeal.HostIn.arg9 m c) := funext fun j => Cert.KernelIdeal.HostIn.v31_at m c j
theorem lwi_eq : Cert.KernelIdeal.RowPay.tr (Cert.KernelIdeal.NodeOut.p6 m c) = Cert.ReferenceIdeal.RefRow.tab (Cert.KernelIdeal.HostIn.arg10 m c) := funext fun j => funext fun k => Cert.KernelIdeal.HostIn.v25_at m c k j
theorem lwh_eq : Cert.KernelIdeal.RowPay.tr (Cert.KernelIdeal.NodeOut.p7 m c) = Cert.ReferenceIdeal.RefRow.tab (Cert.KernelIdeal.HostIn.arg11 m c) := funext fun j => funext fun k => Cert.KernelIdeal.HostIn.v27_at m c k j
theorem lbi_eq : Cert.KernelIdeal.RowPay.row1 (Cert.KernelIdeal.NodeOut.p8 m c) = Cert.ReferenceIdeal.RefRow.vec (Cert.KernelIdeal.HostIn.arg12 m c) := funext fun j => Cert.KernelIdeal.HostIn.v32_at m c j
theorem lbh_eq : Cert.KernelIdeal.RowPay.row1 (Cert.KernelIdeal.NodeOut.p9 m c) = Cert.ReferenceIdeal.RefRow.vec (Cert.KernelIdeal.HostIn.arg13 m c) := funext fun j => Cert.KernelIdeal.HostIn.v33_at m c j
theorem lw_eq : (fun k : Fin 32 => Cert.KernelIdeal.NodeOut.p10 m c (ix2 k (0 : Fin 1))) = fun k => (Cert.KernelIdeal.HostIn.arg14 m c) (ix2 (0 : Fin 1) k) := funext fun k => Cert.KernelIdeal.HostIn.v29_at m c k 0
theorem lb_eq : Cert.KernelIdeal.NodeOut.p11 m c (ix2 (0 : Fin 1) (0 : Fin 1)) = (Cert.KernelIdeal.HostIn.arg15 m c) (ix1 (0 : Fin 1)) := Cert.KernelIdeal.HostIn.v34_at m c 0

/-- The dense chain's inputs agree: the kernel's reading at node `i` rewritten into the reference's. -/
theorem spec_args (hpre : Cert.Pre_KernelIdeal m) (i : Fin 200000) {β : Sort _}
    (f : (Fin 4 → EReal) → (Fin 4 → EReal) → EReal → (Fin 32 → EReal) → (Fin 32 → EReal) → (Fin 12 → Fin 4 → EReal) → (Fin 12 → Fin 4 → EReal) → (Fin 12 → EReal) → (Fin 12 → EReal)
      → (Fin 128 → Fin 4 → EReal) → (Fin 128 → Fin 32 → EReal) → (Fin 128 → EReal) → (Fin 128 → EReal) → β) :
    f (Cert.KernelIdeal.NodeOut.rowX (Cert.KernelIdeal.NodeOut.a35 m c) (Cert.KernelIdeal.Results.up i)) (Cert.KernelIdeal.NodeOut.rowS (Cert.KernelIdeal.NodeOut.a35 m c) (Cert.KernelIdeal.Results.up i)) (Cert.KernelIdeal.NodeOut.a35 m c (ix2 (Cert.KernelIdeal.Results.up i) (8 : Fin 9))) (Cert.KernelIdeal.NodeOut.rowH (Cert.KernelIdeal.NodeOut.a36 m c) (Cert.KernelIdeal.Results.up i)) (Cert.KernelIdeal.NodeOut.rowC (Cert.KernelIdeal.NodeOut.a36 m c) (Cert.KernelIdeal.Results.up i)) (Cert.KernelIdeal.RowPay.tr (Cert.KernelIdeal.NodeOut.p2 m c)) (Cert.KernelIdeal.RowPay.tr (Cert.KernelIdeal.NodeOut.p3 m c)) (Cert.KernelIdeal.RowPay.row1 (Cert.KernelIdeal.NodeOut.p4 m c)) (Cert.KernelIdeal.RowPay.row1 (Cert.KernelIdeal.NodeOut.p5 m c)) (Cert.KernelIdeal.RowPay.tr (Cert.KernelIdeal.NodeOut.p6 m c)) (Cert.KernelIdeal.RowPay.tr (Cert.KernelIdeal.NodeOut.p7 m c)) (Cert.KernelIdeal.RowPay.row1 (Cert.KernelIdeal.NodeOut.p8 m c)) (Cert.KernelIdeal.RowPay.row1 (Cert.KernelIdeal.NodeOut.p9 m c)) = f (Cert.ReferenceIdeal.RefRow.nx (Cert.KernelIdeal.HostIn.arg0 m c) i) (Cert.ReferenceIdeal.RefRow.ns (Cert.KernelIdeal.HostIn.arg0 m c) (Cert.KernelIdeal.HostIn.arg1 m c) (Cert.KernelIdeal.HostIn.arg2 m c) (Cert.KernelIdeal.HostIn.arg5 m c) i) (Cert.ReferenceIdeal.RefRow.nc (Cert.KernelIdeal.HostIn.arg1 m c) i) (Cert.ReferenceIdeal.RefRow.nh (Cert.KernelIdeal.HostIn.arg3 m c) i) (Cert.ReferenceIdeal.RefRow.ncell (Cert.KernelIdeal.HostIn.arg4 m c) i) (Cert.ReferenceIdeal.RefRow.tab (Cert.KernelIdeal.HostIn.arg6 m c)) (Cert.ReferenceIdeal.RefRow.tab (Cert.KernelIdeal.HostIn.arg7 m c)) (Cert.ReferenceIdeal.RefRow.vec (Cert.KernelIdeal.HostIn.arg8 m c)) (Cert.ReferenceIdeal.RefRow.vec (Cert.KernelIdeal.HostIn.arg9 m c)) (Cert.ReferenceIdeal.RefRow.tab (Cert.KernelIdeal.HostIn.arg10 m c)) (Cert.ReferenceIdeal.RefRow.tab (Cert.KernelIdeal.HostIn.arg11 m c)) (Cert.ReferenceIdeal.RefRow.vec (Cert.KernelIdeal.HostIn.arg12 m c)) (Cert.ReferenceIdeal.RefRow.vec (Cert.KernelIdeal.HostIn.arg13 m c)) := by
  rw [x_eq, s_eq m c hpre, c_eq, h_eq, cell_eq, wih_eq, whh_eq, bih_eq, bhh_eq, lwi_eq, lwh_eq, lbi_eq, lbh_eq]

/-- Result 0 at node `i` is the reference's. -/
theorem out_eq (hpre : Cert.Pre_KernelIdeal m) (i : Fin 200000) :
    Cert.KernelIdeal.Results.res0 m c (ix2 i (0 : Fin 1)) = Cert.ReferenceIdeal.Read.val_main_v111 (F := Ideal) (Cert.KernelIdeal.HostIn.arg0 m c) (Cert.KernelIdeal.HostIn.arg1 m c) (Cert.KernelIdeal.HostIn.arg2 m c) (Cert.KernelIdeal.HostIn.arg3 m c) (Cert.KernelIdeal.HostIn.arg4 m c) (Cert.KernelIdeal.HostIn.arg5 m c) (Cert.KernelIdeal.HostIn.arg6 m c) (Cert.KernelIdeal.HostIn.arg7 m c) (Cert.KernelIdeal.HostIn.arg8 m c) (Cert.KernelIdeal.HostIn.arg9 m c) (Cert.KernelIdeal.HostIn.arg10 m c) (Cert.KernelIdeal.HostIn.arg11 m c) (Cert.KernelIdeal.HostIn.arg12 m c) (Cert.KernelIdeal.HostIn.arg13 m c) (Cert.KernelIdeal.HostIn.arg14 m c) (Cert.KernelIdeal.HostIn.arg15 m c) (ix2 i (0 : Fin 1)) := by
  rw [Cert.KernelIdeal.Results.res0_at, Cert.ReferenceIdeal.RefRow.out_at]
  show RowSpec.out (Cert.KernelIdeal.NodeOut.rowX (Cert.KernelIdeal.NodeOut.a35 m c) (Cert.KernelIdeal.Results.up i)) (Cert.KernelIdeal.NodeOut.rowS (Cert.KernelIdeal.NodeOut.a35 m c) (Cert.KernelIdeal.Results.up i)) (Cert.KernelIdeal.NodeOut.a35 m c (ix2 (Cert.KernelIdeal.Results.up i) (8 : Fin 9))) (Cert.KernelIdeal.NodeOut.rowH (Cert.KernelIdeal.NodeOut.a36 m c) (Cert.KernelIdeal.Results.up i)) (Cert.KernelIdeal.NodeOut.rowC (Cert.KernelIdeal.NodeOut.a36 m c) (Cert.KernelIdeal.Results.up i)) (Cert.KernelIdeal.RowPay.tr (Cert.KernelIdeal.NodeOut.p2 m c)) (Cert.KernelIdeal.RowPay.tr (Cert.KernelIdeal.NodeOut.p3 m c)) (Cert.KernelIdeal.RowPay.row1 (Cert.KernelIdeal.NodeOut.p4 m c)) (Cert.KernelIdeal.RowPay.row1 (Cert.KernelIdeal.NodeOut.p5 m c)) (Cert.KernelIdeal.RowPay.tr (Cert.KernelIdeal.NodeOut.p6 m c)) (Cert.KernelIdeal.RowPay.tr (Cert.KernelIdeal.NodeOut.p7 m c)) (Cert.KernelIdeal.RowPay.row1 (Cert.KernelIdeal.NodeOut.p8 m c)) (Cert.KernelIdeal.RowPay.row1 (Cert.KernelIdeal.NodeOut.p9 m c)) (fun k : Fin 32 => Cert.KernelIdeal.NodeOut.p10 m c (ix2 k (0 : Fin 1))) (Cert.KernelIdeal.NodeOut.p11 m c (ix2 (0 : Fin 1) (0 : Fin 1))) = _
  rw [lw_eq, lb_eq]
  exact spec_args m c hpre i (fun a1 a2 a3 a4 a5 a6 a7 a8 a9 a10 a11 a12 a13 => RowSpec.out a1 a2 a3 a4 a5 a6 a7 a8 a9 a10 a11 a12 a13 (fun k => (Cert.KernelIdeal.HostIn.arg14 m c) (ix2 (0 : Fin 1) k)) ((Cert.KernelIdeal.HostIn.arg15 m c) (ix1 (0 : Fin 1))))

/-- Result 1 at `(0, i, j)` is the reference's new hidden state. -/
theorem hidden_eq (hpre : Cert.Pre_KernelIdeal m) (i : Fin 200000) (j : Fin 32) :
    Cert.KernelIdeal.Results.res1 m c (ix3 (0 : Fin 1) i j) = Cert.ReferenceIdeal.Read.val_main_v112 (F := Ideal) (Cert.KernelIdeal.HostIn.arg0 m c) (Cert.KernelIdeal.HostIn.arg1 m c) (Cert.KernelIdeal.HostIn.arg2 m c) (Cert.KernelIdeal.HostIn.arg3 m c) (Cert.KernelIdeal.HostIn.arg4 m c) (Cert.KernelIdeal.HostIn.arg5 m c) (Cert.KernelIdeal.HostIn.arg6 m c) (Cert.KernelIdeal.HostIn.arg7 m c) (Cert.KernelIdeal.HostIn.arg8 m c) (Cert.KernelIdeal.HostIn.arg9 m c) (Cert.KernelIdeal.HostIn.arg10 m c) (Cert.KernelIdeal.HostIn.arg11 m c) (Cert.KernelIdeal.HostIn.arg12 m c) (Cert.KernelIdeal.HostIn.arg13 m c) (ix3 (0 : Fin 1) i j) := by
  rw [Cert.KernelIdeal.Results.res1_at, Cert.ReferenceIdeal.RefRow.hidden_at]
  refine (Cert.KernelIdeal.NodeOut.stateOf_lt _ _ _ _ _ _ _ _ _ _ (Cert.KernelIdeal.Results.up i) (RowSpec.sh (n := 64) 0 j (by decide)) (by show 0 + j.val < 32; omega)).trans ?_
  refine (spec_args m c hpre i (fun a1 a2 a3 a4 a5 a6 a7 a8 a9 a10 a11 a12 a13 => RowSpec.hnew a1 a2 a3 a4 a5 a6 a7 a8 a9 a10 a11 a12 a13 (⟨(RowSpec.sh (n := 64) 0 j (by decide)).val, by show 0 + j.val < 32; omega⟩ : Fin 32))).trans ?_
  exact congrArg _ (Fin.ext (by show 0 + j.val = j.val; omega))

/-- Result 2 at `(0, i, j)` is the reference's new cell state. -/
theorem cell_state_eq (hpre : Cert.Pre_KernelIdeal m) (i : Fin 200000) (j : Fin 32) :
    Cert.KernelIdeal.Results.res2 m c (ix3 (0 : Fin 1) i j) = Cert.ReferenceIdeal.Read.val_main_v113 (F := Ideal) (Cert.KernelIdeal.HostIn.arg0 m c) (Cert.KernelIdeal.HostIn.arg1 m c) (Cert.KernelIdeal.HostIn.arg2 m c) (Cert.KernelIdeal.HostIn.arg3 m c) (Cert.KernelIdeal.HostIn.arg4 m c) (Cert.KernelIdeal.HostIn.arg5 m c) (Cert.KernelIdeal.HostIn.arg6 m c) (Cert.KernelIdeal.HostIn.arg7 m c) (Cert.KernelIdeal.HostIn.arg8 m c) (Cert.KernelIdeal.HostIn.arg9 m c) (Cert.KernelIdeal.HostIn.arg10 m c) (Cert.KernelIdeal.HostIn.arg11 m c) (Cert.KernelIdeal.HostIn.arg12 m c) (Cert.KernelIdeal.HostIn.arg13 m c) (ix3 (0 : Fin 1) i j) := by
  rw [Cert.KernelIdeal.Results.res2_at, Cert.ReferenceIdeal.RefRow.cell_at]
  refine (Cert.KernelIdeal.NodeOut.stateOf_ge _ _ _ _ _ _ _ _ _ _ (Cert.KernelIdeal.Results.up i) (RowSpec.sh (n := 64) 32 j (by decide)) (by show ¬ 32 + j.val < 32; omega)).trans ?_
  refine (spec_args m c hpre i (fun a1 a2 a3 a4 a5 a6 a7 a8 a9 a10 a11 a12 a13 => RowSpec.cnew a1 a2 a3 a4 a5 a6 a7 a8 a9 a10 a11 a12 a13 (⟨(RowSpec.sh (n := 64) 32 j (by decide)).val - 32, by show 32 + j.val - 32 < 32; omega⟩ : Fin 32))).trans ?_
  exact congrArg _ (Fin.ext (by show 32 + j.val - 32 = j.val; omega))

/-- The three results as whole arrays. -/
theorem res0_eq (hpre : Cert.Pre_KernelIdeal m) : Cert.KernelIdeal.Results.res0 m c = Cert.ReferenceIdeal.Read.val_main_v111 (F := Ideal) (Cert.KernelIdeal.HostIn.arg0 m c) (Cert.KernelIdeal.HostIn.arg1 m c) (Cert.KernelIdeal.HostIn.arg2 m c) (Cert.KernelIdeal.HostIn.arg3 m c) (Cert.KernelIdeal.HostIn.arg4 m c) (Cert.KernelIdeal.HostIn.arg5 m c) (Cert.KernelIdeal.HostIn.arg6 m c) (Cert.KernelIdeal.HostIn.arg7 m c) (Cert.KernelIdeal.HostIn.arg8 m c) (Cert.KernelIdeal.HostIn.arg9 m c) (Cert.KernelIdeal.HostIn.arg10 m c) (Cert.KernelIdeal.HostIn.arg11 m c) (Cert.KernelIdeal.HostIn.arg12 m c) (Cert.KernelIdeal.HostIn.arg13 m c) (Cert.KernelIdeal.HostIn.arg14 m c) (Cert.KernelIdeal.HostIn.arg15 m c) := by
  funext idx
  obtain ⟨i, q, rfl⟩ : ∃ (i : Fin 200000) (q : Fin 1), idx = ix2 i q := ⟨idx 0, idx 1, eq_ix2 idx⟩
  obtain rfl : q = 0 := Subsingleton.elim _ _
  exact out_eq m c hpre i

theorem res1_eq (hpre : Cert.Pre_KernelIdeal m) : Cert.KernelIdeal.Results.res1 m c = Cert.ReferenceIdeal.Read.val_main_v112 (F := Ideal) (Cert.KernelIdeal.HostIn.arg0 m c) (Cert.KernelIdeal.HostIn.arg1 m c) (Cert.KernelIdeal.HostIn.arg2 m c) (Cert.KernelIdeal.HostIn.arg3 m c) (Cert.KernelIdeal.HostIn.arg4 m c) (Cert.KernelIdeal.HostIn.arg5 m c) (Cert.KernelIdeal.HostIn.arg6 m c) (Cert.KernelIdeal.HostIn.arg7 m c) (Cert.KernelIdeal.HostIn.arg8 m c) (Cert.KernelIdeal.HostIn.arg9 m c) (Cert.KernelIdeal.HostIn.arg10 m c) (Cert.KernelIdeal.HostIn.arg11 m c) (Cert.KernelIdeal.HostIn.arg12 m c) (Cert.KernelIdeal.HostIn.arg13 m c) := by
  funext idx
  obtain ⟨u, i, j, rfl⟩ : ∃ (u : Fin 1) (i : Fin 200000) (j : Fin 32), idx = ix3 u i j := ⟨idx 0, idx 1, idx 2, eq_ix3 idx⟩
  obtain rfl : u = 0 := Subsingleton.elim _ _
  exact hidden_eq m c hpre i j

theorem res2_eq (hpre : Cert.Pre_KernelIdeal m) : Cert.KernelIdeal.Results.res2 m c = Cert.ReferenceIdeal.Read.val_main_v113 (F := Ideal) (Cert.KernelIdeal.HostIn.arg0 m c) (Cert.KernelIdeal.HostIn.arg1 m c) (Cert.KernelIdeal.HostIn.arg2 m c) (Cert.KernelIdeal.HostIn.arg3 m c) (Cert.KernelIdeal.HostIn.arg4 m c) (Cert.KernelIdeal.HostIn.arg5 m c) (Cert.KernelIdeal.HostIn.arg6 m c) (Cert.KernelIdeal.HostIn.arg7 m c) (Cert.KernelIdeal.HostIn.arg8 m c) (Cert.KernelIdeal.HostIn.arg9 m c) (Cert.KernelIdeal.HostIn.arg10 m c) (Cert.KernelIdeal.HostIn.arg11 m c) (Cert.KernelIdeal.HostIn.arg12 m c) (Cert.KernelIdeal.HostIn.arg13 m c) := by
  funext idx
  obtain ⟨u, i, j, rfl⟩ : ∃ (u : Fin 1) (i : Fin 200000) (j : Fin 32), idx = ix3 u i j := ⟨idx 0, idx 1, idx 2, eq_ix3 idx⟩
  obtain rfl : u = 0 := Subsingleton.elim _ _
  exact cell_state_eq m c hpre i j

end Cert.Bridge

end
-- ==== Proof.lean ====
/-
  The certificate of the recurrent graph layer: a graph convolution with mean aggregation, a gated recurrent unit,
  a long-short-term cell and a linear head, fused into one kernel over blocks of 3600 nodes, against the same chain
  written with whole-array operations.
  Both programs gather the rows of `x · W` at the edges' sources, scale them by the edge weights and sum them per
  destination node; the kernel program does it with one 5-column segment sum (the fifth column counts the edges), the
  reference with two. From there on each node's result depends on that node alone: the mean of its messages, the
  gated unit, the cell, the head. The kernel reads a node's data off row `i` of two padded arrays, 3600 rows to a
  block, and writes row `i` of two result arrays; the reference computes the same functions on whole arrays. On
  the extended reals the two are equal index by index: the matrix products are the same finite sums, the change of
  float format is the identity, and the logistic function is `1 / (1 + e^(−x))` on both sides; no law that fails
  at infinity is used. The one place the programs differ is the take of rows at a source index that is no node
  number (the kernel program fills such a row, the reference clamps the index): the precondition says every source
  index is a node number.
  The three frames: the two kernel programs' by the launch theorem for one region with host operations before and
  after it; the reference's is its run with the results dropped. The idealization changed nothing, so its claim is
  trivial.
-/
import proofs.«415627_j68650757260096_3_alg».proof.Defs
import proofs.«415627_j68650757260096_3_alg».proof.Proof.Gen.Kernel
import proofs.«415627_j68650757260096_3_alg».proof.Proof.Gen.KernelIdeal
import proofs.«415627_j68650757260096_3_alg».proof.Proof.Gen.ReferenceIdeal
import proofs.«415627_j68650757260096_3_alg».proof.Proof.Gen.Pre_finite_inputs
import proofs.«415627_j68650757260096_3_alg».proof.Proof.Gen.ReferenceIdeal.Run
import proofs.«415627_j68650757260096_3_alg».proof.Proof.Gen.ReferenceIdeal.Read
import proofs.«415627_j68650757260096_3_alg».proof.Proof.FrameB
import proofs.«415627_j68650757260096_3_alg».proof.Proof.FrameI
import proofs.«415627_j68650757260096_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2.2.2) (Cert.ReferenceIdeal.Value.run (F := Ideal) m ρ)

section Alg

open Cert.KernelIdeal Cert.KernelIdeal.Gen Cert.KernelIdeal.Entry Cert.KernelIdeal.Frm

variable (m : (ℓ : Loc nD τ sig) → Buf (Elt Ideal) ℓ)

/-- After the kernel program's run a result of the last host stretch holds that stretch's value. -/
theorem result_at (r : PUnit × MemSt nD τ sig (Elt Ideal))
    (h : Pipeline.FramePost cfgs (dats m) 0 (Pipeline.afterTail₀ cfgs (dats m) 0 (V0 m) [hostOps1]) r) (c : Dev nD) (b : Ref sig .tc)
    (hs : b.isScoped = false) (hb : ∀ w, Pipeline.arrRef spec0 w ≠ b) :
    r.2.mem ((c.tc : Thread nD τ).loc b) = Pipeline.afterTail₀ cfgs (dats m) 0 (V0 m) [hostOps1] c b :=
  (h c).2 b (Pipeline.mem_restRefs_of b hs hb)

/-- And an argument array is as launched. -/
theorem arg_at (r : PUnit × MemSt nD τ sig (Elt Ideal))
    (h : Pipeline.FramePost cfgs (dats m) 0 (Pipeline.afterTail₀ cfgs (dats m) 0 (V0 m) [hostOps1]) r) (c : Dev nD) (b : Ref sig .tc)
    (hs : b.isScoped = false) (hb : ∀ w, Pipeline.arrRef spec0 w ≠ b)
    (h0 : b ≠ main_v38) (h1 : b ≠ main_v39) (h2 : b ≠ main_v40) (h3 : b ≠ main_v41) (h4 : b ≠ main_v42) (h5 : b ≠ main_v43)
    (hV : V m c b = m ((c : Thread nD τ).loc b)) :
    r.2.mem ((c.tc : Thread nD τ).loc b) = m ((c.tc : Thread nD τ).loc b) :=
  (rest_keeps m (dats m) r h c b hs hb (hostOps1_writes b h0 h1 h2 h3 h4 h5)).trans hV

end Alg

/-- On memories agreeing on the arguments, under the precondition, both idealized programs run, and end with equal
    results: each result of the kernel program is, index by index, the reference's. -/
theorem algebraic : Cert.algebraic_KernelIdeal_ReferenceIdeal := by
  intro m ρ m' ρ' hpre hagree
  refine ⟨fun c => Cert.KernelIdeal.Results.res0 m c, fun c => Cert.KernelIdeal.Results.res1 m c, fun c => Cert.KernelIdeal.Results.res2 m c, ?_, ?_⟩
  · refine (θ_run Cert.KernelIdeal.defs _ _).mono (fun r h c => ?_) (Cert.KernelIdeal.Frm.run_main (F := Ideal) m ρ)
    refine ⟨(result_at m r h c Cert.KernelIdeal.main_v38 rfl (by decide)).trans (Cert.KernelIdeal.Results.tail38 m c),
      (result_at m r h c Cert.KernelIdeal.main_v42 rfl (by decide)).trans (Cert.KernelIdeal.Results.tail42 m c),
      (result_at m r h c Cert.KernelIdeal.main_v43 rfl (by decide)).trans (Cert.KernelIdeal.Results.tail43 m c),
      arg_at m r h c Cert.KernelIdeal.main_arg0 rfl (by decide) (by decide) (by decide) (by decide) (by decide) (by decide) (by decide) (Cert.KernelIdeal.Frm.V_main_arg0 m c),
      arg_at m r h c Cert.KernelIdeal.main_arg1 rfl (by decide) (by decide) (by decide) (by decide) (by decide) (by decide) (by decide) (Cert.KernelIdeal.Frm.V_main_arg1 m c),
      arg_at m r h c Cert.KernelIdeal.main_arg2 rfl (by decide) (by decide) (by decide) (by decide) (by decide) (by decide) (by decide) (Cert.KernelIdeal.Frm.V_main_arg2 m c),
      arg_at m r h c Cert.KernelIdeal.main_arg3 rfl (by decide) (by decide) (by decide) (by decide) (by decide) (by decide) (by decide) (Cert.KernelIdeal.Frm.V_main_arg3 m c),
      arg_at m r h c Cert.KernelIdeal.main_arg4 rfl (by decide) (by decide) (by decide) (by decide) (by decide) (by decide) (by decide) (Cert.KernelIdeal.Frm.V_main_arg4 m c),
      arg_at m r h c Cert.KernelIdeal.main_arg5 rfl (by decide) (by decide) (by decide) (by decide) (by decide) (by decide) (by decide) (Cert.KernelIdeal.Frm.V_main_arg5 m c),
      arg_at m r h c Cert.KernelIdeal.main_arg6 rfl (by decide) (by decide) (by decide) (by decide) (by decide) (by decide) (by decide) (Cert.KernelIdeal.Frm.V_main_arg6 m c),
      arg_at m r h c Cert.KernelIdeal.main_arg7 rfl (by decide) (by decide) (by decide) (by decide) (by decide) (by decide) (by decide) (Cert.KernelIdeal.Frm.V_main_arg7 m c),
      arg_at m r h c Cert.KernelIdeal.main_arg8 rfl (by decide) (by decide) (by decide) (by decide) (by decide) (by decide) (by decide) (Cert.KernelIdeal.Frm.V_main_arg8 m c),
      arg_at m r h c Cert.KernelIdeal.main_arg9 rfl (by decide) (by decide) (by decide) (by decide) (by decide) (by decide) (by decide) (Cert.KernelIdeal.Frm.V_main_arg9 m c),
      arg_at m r h c Cert.KernelIdeal.main_arg10 rfl (by decide) (by decide) (by decide) (by decide) (by decide) (by decide) (by decide) (Cert.KernelIdeal.Frm.V_main_arg10 m c),
      arg_at m r h c Cert.KernelIdeal.main_arg11 rfl (by decide) (by decide) (by decide) (by decide) (by decide) (by decide) (by decide) (Cert.KernelIdeal.Frm.V_main_arg11 m c),
      arg_at m r h c Cert.KernelIdeal.main_arg12 rfl (by decide) (by decide) (by decide) (by decide) (by decide) (by decide) (by decide) (Cert.KernelIdeal.Frm.V_main_arg12 m c),
      arg_at m r h c Cert.KernelIdeal.main_arg13 rfl (by decide) (by decide) (by decide) (by decide) (by decide) (by decide) (by decide) (Cert.KernelIdeal.Frm.V_main_arg13 m c),
      arg_at m r h c Cert.KernelIdeal.main_arg14 rfl (by decide) (by decide) (by decide) (by decide) (by decide) (by decide) (by decide) (Cert.KernelIdeal.Frm.V_main_arg14 m c),
      arg_at m r h c Cert.KernelIdeal.main_arg15 rfl (by decide) (by decide) (by decide) (by decide) (by decide) (by decide) (by decide) (Cert.KernelIdeal.Frm.V_main_arg15 m c)⟩
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [Cert.ReferenceIdeal.Read.val_main_v111_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
      exact (Cert.Bridge.res0_eq m c hpre).symm
    · rw [Cert.ReferenceIdeal.Read.val_main_v112_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
      exact (Cert.Bridge.res1_eq m c hpre).symm
    · rw [Cert.ReferenceIdeal.Read.val_main_v113_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
      exact (Cert.Bridge.res2_eq m c hpre).symm

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
